-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v39)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v39) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v56) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x8192 : Shape := ⟨2, ![8192, 8192]⟩
abbrev S8192x512 : Shape := ⟨2, ![8192, 512]⟩
abbrev S512x512 : Shape := ⟨2, ![512, 512]⟩
abbrev S512 : Shape := ⟨1, ![512]⟩
abbrev S512x1 : Shape := ⟨2, ![512, 1]⟩
abbrev S_ : Shape := ⟨0, ![]⟩

class Facts : Prop where
  bcast_S_S8192x512 : S_.BroadcastsInDim S8192x512 (![] : Fin 0 → Fin S8192x512.rank)
  reducesTo_S8192x512_S_d0_1 : S8192x512.ReducesTo [0, 1] S_
  h_S_ : 0 < S_.numel
  bcast_S_S512x512 : S_.BroadcastsInDim S512x512 (![] : Fin 0 → Fin S512x512.rank)
  reducesTo_S512x512_S_d0_1 : S512x512.ReducesTo [0, 1] S_
  bcast_S_S512 : S_.BroadcastsInDim S512 (![] : Fin 0 → Fin S512.rank)
  reducesTo_S512_S_d0 : S512.ReducesTo [0] S_
  bcast_S_S512x1 : S_.BroadcastsInDim S512x1 (![] : Fin 0 → Fin S512x1.rank)
  reducesTo_S512x1_S_d0_1 : S512x1.ReducesTo [0, 1] S_

variable [Facts]

def fn_part3 {F : FTy → Type} [FloatOps F] (main_arg12 : FVec F S512x512 .f32) (main_arg13 : FVec F S512 .f32) (main_v48 : IVec S_ 1) (main_v49 : FVec F S512x1 .f32) (main_v50 : FVec F S512x1 .f32) : IVec S_ 1 :=
  let main_v51 : IVec S512x1 1 := cmpf .olt main_v49 main_v50
  let main_c_19 : IVec S_ 1 := constantI S_ 1 1#1
  let main_v52 : IVec S_ 1 := (fun x v => Host.reduce IntOp.andi x v reducesTo_S512x1_S_d0_1 h_S_) main_v51 main_c_19
  let main_v53 : IVec S_ 1 := andi main_v48 main_v52
  let main_v54 : FVec F S512x512 .f32 := Host.absf main_arg12
  let main_cst_20 : FVec F S_ .f32 := constant S_ .f32 0x7F800000#32
  let main_v55 : FVec F S512x512 .f32 := broadcastInDim S512x512 ![] bcast_S_S512x512 main_cst_20
  let main_v56 : IVec S512x512 1 := cmpf .olt main_v54 main_v55
  let main_c_21 : IVec S_ 1 := constantI S_ 1 1#1
  let main_v57 : IVec S_ 1 := (fun x v => Host.reduce IntOp.andi x v reducesTo_S512x512_S_d0_1 h_S_) main_v56 main_c_21
  let main_v58 : IVec S_ 1 := andi main_v53 main_v57
  let main_v59 : FVec F S512 .f32 := Host.absf main_arg13
  let main_cst_22 : FVec F S_ .f32 := constant S_ .f32 0x7F800000#32
  let main_v60 : FVec F S512 .f32 := broadcastInDim S512 ![] bcast_S_S512 main_cst_22
  let main_v61 : IVec S512 1 := cmpf .olt main_v59 main_v60
  let main_c_23 : IVec S_ 1 := constantI S_ 1 1#1
  let main_v62 : IVec S_ 1 := (fun x v => Host.reduce IntOp.andi x v reducesTo_S512_S_d0 h_S_) main_v61 main_c_23
  let main_v63 : IVec S_ 1 := andi main_v58 main_v62
  main_v63

def fn_part2 {F : FTy → Type} [FloatOps F] (main_arg8 : FVec F S512x512 .f32) (main_arg9 : FVec F S512x512 .f32) (main_arg10 : FVec F S512 .f32) (main_arg11 : FVec F S512x1 .f32) (main_arg12 : FVec F S512x512 .f32) (main_arg13 : FVec F S512 .f32) (main_v33 : IVec S_ 1) : IVec S_ 1 :=
  let main_v34 : FVec F S512x512 .f32 := Host.absf main_arg8
  let main_cst_12 : FVec F S_ .f32 := constant S_ .f32 0x7F800000#32
  let main_v35 : FVec F S512x512 .f32 := broadcastInDim S512x512 ![] bcast_S_S512x512 main_cst_12
  let main_v36 : IVec S512x512 1 := cmpf .olt main_v34 main_v35
  let main_c_13 : IVec S_ 1 := constantI S_ 1 1#1
  let main_v37 : IVec S_ 1 := (fun x v => Host.reduce IntOp.andi x v reducesTo_S512x512_S_d0_1 h_S_) main_v36 main_c_13
  let main_v38 : IVec S_ 1 := andi main_v33 main_v37
  let main_v39 : FVec F S512x512 .f32 := Host.absf main_arg9
  let main_cst_14 : FVec F S_ .f32 := constant S_ .f32 0x7F800000#32
  let main_v40 : FVec F S512x512 .f32 := broadcastInDim S512x512 ![] bcast_S_S512x512 main_cst_14
  let main_v41 : IVec S512x512 1 := cmpf .olt main_v39 main_v40
  let main_c_15 : IVec S_ 1 := constantI S_ 1 1#1
  let main_v42 : IVec S_ 1 := (fun x v => Host.reduce IntOp.andi x v reducesTo_S512x512_S_d0_1 h_S_) main_v41 main_c_15
  let main_v43 : IVec S_ 1 := andi main_v38 main_v42
  let main_v44 : FVec F S512 .f32 := Host.absf main_arg10
  let main_cst_16 : FVec F S_ .f32 := constant S_ .f32 0x7F800000#32
  let main_v45 : FVec F S512 .f32 := broadcastInDim S512 ![] bcast_S_S512 main_cst_16
  let main_v46 : IVec S512 1 := cmpf .olt main_v44 main_v45
  let main_c_17 : IVec S_ 1 := constantI S_ 1 1#1
  let main_v47 : IVec S_ 1 := (fun x v => Host.reduce IntOp.andi x v reducesTo_S512_S_d0 h_S_) main_v46 main_c_17
  let main_v48 : IVec S_ 1 := andi main_v43 main_v47
  let main_v49 : FVec F S512x1 .f32 := Host.absf main_arg11
  let main_cst_18 : FVec F S_ .f32 := constant S_ .f32 0x7F800000#32
  let main_v50 : FVec F S512x1 .f32 := broadcastInDim S512x1 ![] bcast_S_S512x1 main_cst_18
  fn_part3 (F := F) main_arg12 main_arg13 main_v48 main_v49 main_v50

def fn_part1 {F : FTy → Type} [FloatOps F] (main_arg5 : FVec F S512x512 .f32) (main_arg6 : FVec F S512 .f32) (main_arg7 : FVec F S512x512 .f32) (main_arg8 : FVec F S512x512 .f32) (main_arg9 : FVec F S512x512 .f32) (main_arg10 : FVec F S512 .f32) (main_arg11 : FVec F S512x1 .f32) (main_arg12 : FVec F S512x512 .f32) (main_arg13 : FVec F S512 .f32) (main_v13 : IVec S_ 1) (main_v16 : IVec S512x512 1) : IVec S_ 1 :=
  let main_c_5 : IVec S_ 1 := constantI S_ 1 1#1
  let main_v17 : IVec S_ 1 := (fun x v => Host.reduce IntOp.andi x v reducesTo_S512x512_S_d0_1 h_S_) main_v16 main_c_5
  let main_v18 : IVec S_ 1 := andi main_v13 main_v17
  let main_v19 : FVec F S512x512 .f32 := Host.absf main_arg5
  let main_cst_6 : FVec F S_ .f32 := constant S_ .f32 0x7F800000#32
  let main_v20 : FVec F S512x512 .f32 := broadcastInDim S512x512 ![] bcast_S_S512x512 main_cst_6
  let main_v21 : IVec S512x512 1 := cmpf .olt main_v19 main_v20
  let main_c_7 : IVec S_ 1 := constantI S_ 1 1#1
  let main_v22 : IVec S_ 1 := (fun x v => Host.reduce IntOp.andi x v reducesTo_S512x512_S_d0_1 h_S_) main_v21 main_c_7
  let main_v23 : IVec S_ 1 := andi main_v18 main_v22
  let main_v24 : FVec F S512 .f32 := Host.absf main_arg6
  let main_cst_8 : FVec F S_ .f32 := constant S_ .f32 0x7F800000#32
  let main_v25 : FVec F S512 .f32 := broadcastInDim S512 ![] bcast_S_S512 main_cst_8
  let main_v26 : IVec S512 1 := cmpf .olt main_v24 main_v25
  let main_c_9 : IVec S_ 1 := constantI S_ 1 1#1
  let main_v27 : IVec S_ 1 := (fun x v => Host.reduce IntOp.andi x v reducesTo_S512_S_d0 h_S_) main_v26 main_c_9
  let main_v28 : IVec S_ 1 := andi main_v23 main_v27
  let main_v29 : FVec F S512x512 .f32 := Host.absf main_arg7
  let main_cst_10 : FVec F S_ .f32 := constant S_ .f32 0x7F800000#32
  let main_v30 : FVec F S512x512 .f32 := broadcastInDim S512x512 ![] bcast_S_S512x512 main_cst_10
  let main_v31 : IVec S512x512 1 := cmpf .olt main_v29 main_v30
  let main_c_11 : IVec S_ 1 := constantI S_ 1 1#1
  let main_v32 : IVec S_ 1 := (fun x v => Host.reduce IntOp.andi x v reducesTo_S512x512_S_d0_1 h_S_) main_v31 main_c_11
  let main_v33 : IVec S_ 1 := andi main_v28 main_v32
  fn_part2 (F := F) main_arg8 main_arg9 main_arg10 main_arg11 main_arg12 main_arg13 main_v33

def fn {F : FTy → Type} [FloatOps F] (main_arg0 : IVec S8192x8192 1) (main_arg1 : FVec F S8192x512 .f32) (main_arg2 : FVec F S8192x512 .f32) (main_arg3 : FVec F S512x512 .f32) (main_arg4 : FVec F S512x512 .f32) (main_arg5 : FVec F S512x512 .f32) (main_arg6 : FVec F S512 .f32) (main_arg7 : FVec F S512x512 .f32) (main_arg8 : FVec F S512x512 .f32) (main_arg9 : FVec F S512x512 .f32) (main_arg10 : FVec F S512 .f32) (main_arg11 : FVec F S512x1 .f32) (main_arg12 : FVec F S512x512 .f32) (main_arg13 : FVec F S512 .f32) : IVec S_ 1 :=
  let main_v0 : FVec F S8192x512 .f32 := Host.absf main_arg1
  let main_cst : FVec F S_ .f32 := constant S_ .f32 0x7F800000#32
  let main_v1 : FVec F S8192x512 .f32 := broadcastInDim S8192x512 ![] bcast_S_S8192x512 main_cst
  let main_v2 : IVec S8192x512 1 := cmpf .olt main_v0 main_v1
  let main_c : IVec S_ 1 := constantI S_ 1 1#1
  let main_v3 : IVec S_ 1 := (fun x v => Host.reduce IntOp.andi x v reducesTo_S8192x512_S_d0_1 h_S_) main_v2 main_c
  let main_v4 : FVec F S8192x512 .f32 := Host.absf main_arg2
  let main_cst_0 : FVec F S_ .f32 := constant S_ .f32 0x7F800000#32
  let main_v5 : FVec F S8192x512 .f32 := broadcastInDim S8192x512 ![] bcast_S_S8192x512 main_cst_0
  let main_v6 : IVec S8192x512 1 := cmpf .olt main_v4 main_v5
  let main_c_1 : IVec S_ 1 := constantI S_ 1 1#1
  let main_v7 : IVec S_ 1 := (fun x v => Host.reduce IntOp.andi x v reducesTo_S8192x512_S_d0_1 h_S_) main_v6 main_c_1
  let main_v8 : IVec S_ 1 := andi main_v3 main_v7
  let main_v9 : FVec F S512x512 .f32 := Host.absf main_arg3
  let main_cst_2 : FVec F S_ .f32 := constant S_ .f32 0x7F800000#32
  let main_v10 : FVec F S512x512 .f32 := broadcastInDim S512x512 ![] bcast_S_S512x512 main_cst_2
  let main_v11 : IVec S512x512 1 := cmpf .olt main_v9 main_v10
  let main_c_3 : IVec S_ 1 := constantI S_ 1 1#1
  let main_v12 : IVec S_ 1 := (fun x v => Host.reduce IntOp.andi x v reducesTo_S512x512_S_d0_1 h_S_) main_v11 main_c_3
  let main_v13 : IVec S_ 1 := andi main_v8 main_v12
  let main_v14 : FVec F S512x512 .f32 := Host.absf main_arg4
  let main_cst_4 : FVec F S_ .f32 := constant S_ .f32 0x7F800000#32
  let main_v15 : FVec F S512x512 .f32 := broadcastInDim S512x512 ![] bcast_S_S512x512 main_cst_4
  let main_v16 : IVec S512x512 1 := cmpf .olt main_v14 main_v15
  fn_part1 (F := F) main_arg5 main_arg6 main_arg7 main_arg8 main_arg9 main_arg10 main_arg11 main_arg12 main_arg13 main_v13 main_v16
-- ==== Kernel.lean ====
abbrev S8192x8192 : Shape := ⟨2, ![8192, 8192]⟩
abbrev S8192x512 : Shape := ⟨2, ![8192, 512]⟩
abbrev S512x512 : Shape := ⟨2, ![512, 512]⟩
abbrev S512 : Shape := ⟨1, ![512]⟩
abbrev S512x1 : Shape := ⟨2, ![512, 1]⟩
abbrev S_ : Shape := ⟨0, ![]⟩
abbrev S1x512 : Shape := ⟨2, ![1, 512]⟩
abbrev S512x1536 : Shape := ⟨2, ![512, 1536]⟩
abbrev S8192x1536 : Shape := ⟨2, ![8192, 1536]⟩
abbrev S512x1024 : Shape := ⟨2, ![512, 1024]⟩
abbrev S8192x1024 : Shape := ⟨2, ![8192, 1024]⟩
abbrev S8192x1 : Shape := ⟨2, ![8192, 1]⟩
abbrev S1024x512 : Shape := ⟨2, ![1024, 512]⟩
abbrev S1024x1024 : Shape := ⟨2, ![1024, 1024]⟩
abbrev S1024x1 : Shape := ⟨2, ![1024, 1]⟩
abbrev S1024 : Shape := ⟨1, ![1024]⟩

abbrev nBuf : Space → Nat
  | .hbm => 57
  | .vmem => 22
  | .smem => 0
  | _ => 0

abbrev bufTy : (tb : Table) → Fin (tcTables nBuf tb) → BufTy
  | .hbm, ⟨0, _⟩ => ⟨S8192x8192, .i1⟩
  | .hbm, ⟨1, _⟩ => ⟨S8192x512, .f32⟩
  | .hbm, ⟨2, _⟩ => ⟨S8192x512, .f32⟩
  | .hbm, ⟨3, _⟩ => ⟨S512x512, .f32⟩
  | .hbm, ⟨4, _⟩ => ⟨S512x512, .f32⟩
  | .hbm, ⟨5, _⟩ => ⟨S512x512, .f32⟩
  | .hbm, ⟨6, _⟩ => ⟨S512, .f32⟩
  | .hbm, ⟨7, _⟩ => ⟨S512x512, .f32⟩
  | .hbm, ⟨8, _⟩ => ⟨S512x512, .f32⟩
  | .hbm, ⟨9, _⟩ => ⟨S512x512, .f32⟩
  | .hbm, ⟨10, _⟩ => ⟨S512, .f32⟩
  | .hbm, ⟨11, _⟩ => ⟨S512x1, .f32⟩
  | .hbm, ⟨12, _⟩ => ⟨S512x512, .f32⟩
  | .hbm, ⟨13, _⟩ => ⟨S512, .f32⟩
  | .hbm, ⟨14, _⟩ => ⟨S_, .f32⟩
  | .hbm, ⟨15, _⟩ => ⟨S512, .f32⟩
  | .hbm, ⟨16, _⟩ => ⟨S1x512, .f32⟩
  | .hbm, ⟨17, _⟩ => ⟨S_, .f32⟩
  | .hbm, ⟨18, _⟩ => ⟨S1x512, .f32⟩
  | .hbm, ⟨19, _⟩ => ⟨S1x512, .f32⟩
  | .hbm, ⟨20, _⟩ => ⟨S512x1536, .f32⟩
  | .hbm, ⟨21, _⟩ => ⟨S8192x512, .bf16⟩
  | .hbm, ⟨22, _⟩ => ⟨S512x1536, .bf16⟩
  | .hbm, ⟨23, _⟩ => ⟨S8192x1536, .f32⟩
  | .hbm, ⟨24, _⟩ => ⟨S8192x512, .f32⟩
  | .hbm, ⟨25, _⟩ => ⟨S8192x512, .f32⟩
  | .hbm, ⟨26, _⟩ => ⟨S8192x512, .f32⟩
  | .hbm, ⟨27, _⟩ => ⟨S1x512, .f32⟩
  | .hbm, ⟨28, _⟩ => ⟨S8192x512, .f32⟩
  | .hbm, ⟨29, _⟩ => ⟨S8192x512, .f32⟩
  | .hbm, ⟨30, _⟩ => ⟨S512x1024, .f32⟩
  | .hbm, ⟨31, _⟩ => ⟨S8192x512, .bf16⟩
  | .hbm, ⟨32, _⟩ => ⟨S512x1024, .bf16⟩
  | .hbm, ⟨33, _⟩ => ⟨S8192x1024, .f32⟩
  | .hbm, ⟨34, _⟩ => ⟨S8192x512, .f32⟩
  | .hbm, ⟨35, _⟩ => ⟨S8192x512, .f32⟩
  | .hbm, ⟨36, _⟩ => ⟨S1x512, .f32⟩
  | .hbm, ⟨37, _⟩ => ⟨S8192x512, .f32⟩
  | .hbm, ⟨38, _⟩ => ⟨S8192x512, .f32⟩
  | .hbm, ⟨39, _⟩ => ⟨S8192x512, .bf16⟩
  | .hbm, ⟨40, _⟩ => ⟨S8192x512, .bf16⟩
  | .hbm, ⟨41, _⟩ => ⟨S8192x512, .bf16⟩
  | .hbm, ⟨42, _⟩ => ⟨S8192x512, .bf16⟩
  | .hbm, ⟨43, _⟩ => ⟨S8192x512, .bf16⟩
  | .hbm, ⟨44, _⟩ => ⟨S512x1, .bf16⟩
  | .hbm, ⟨45, _⟩ => ⟨S8192x1, .f32⟩
  | .hbm, ⟨46, _⟩ => ⟨S1x512, .f32⟩
  | .hbm, ⟨47, _⟩ => ⟨S1x512, .f32⟩
  | .hbm, ⟨48, _⟩ => ⟨S1x512, .f32⟩
  | .hbm, ⟨49, _⟩ => ⟨S1x512, .f32⟩
  | .hbm, ⟨50, _⟩ => ⟨S512x1, .f32⟩
  | .hbm, ⟨51, _⟩ => ⟨S8192x1, .f32⟩
  | .hbm, ⟨52, _⟩ => ⟨S_, .f32⟩
  | .hbm, ⟨53, _⟩ => ⟨S8192x1, .f32⟩
  | .hbm, ⟨54, _⟩ => ⟨S8192x1, .f32⟩
  | .hbm, ⟨55, _⟩ => ⟨S8192x8192, .i32⟩
  | .hbm, ⟨56, _⟩ => ⟨S8192x512, .f32⟩
  | .local _ .vmem, ⟨0, _⟩ => ⟨S1024x512, .bf16⟩
  | .local _ .vmem, ⟨1, _⟩ => ⟨S1024x512, .bf16⟩
  | .local _ .vmem, ⟨2, _⟩ => ⟨S1024x512, .bf16⟩
  | .local _ .vmem, ⟨3, _⟩ => ⟨S1024x512, .bf16⟩
  | .local _ .vmem, ⟨4, _⟩ => ⟨S1024x512, .bf16⟩
  | .local _ .vmem, ⟨5, _⟩ => ⟨S1024x512, .bf16⟩
  | .local _ .vmem, ⟨6, _⟩ => ⟨S1024x1024, .i32⟩
  | .local _ .vmem, ⟨7, _⟩ => ⟨S1024x1024, .i32⟩
  | .local _ .vmem, ⟨8, _⟩ => ⟨S1024x1, .f32⟩
  | .local _ .vmem, ⟨9, _⟩ => ⟨S1024x1, .f32⟩
  | .local _ .vmem, ⟨10, _⟩ => ⟨S1024x1, .f32⟩
  | .local _ .vmem, ⟨11, _⟩ => ⟨S1024x1, .f32⟩
  | .local _ .vmem, ⟨12, _⟩ => ⟨S1024x512, .bf16⟩
  | .local _ .vmem, ⟨13, _⟩ => ⟨S1024x512, .bf16⟩
  | .local _ .vmem, ⟨14, _⟩ => ⟨S1x512, .f32⟩
  | .local _ .vmem, ⟨15, _⟩ => ⟨S1024x512, .f32⟩
  | .local _ .vmem, ⟨16, _⟩ => ⟨S1024x512, .f32⟩
  | .local _ .vmem, ⟨17, _⟩ => ⟨S1024x512, .f32⟩
  | .local _ .vmem, ⟨18, _⟩ => ⟨S1024x512, .f32⟩
  | .local _ .vmem, ⟨19, _⟩ => ⟨S1024x1, .f32⟩
  | .local _ .vmem, ⟨20, _⟩ => ⟨S1024x1, .f32⟩
  | .local _ .vmem, ⟨21, _⟩ => ⟨S1024x512, .f32⟩
  | _, _ => ⟨S8192x8192, .i1⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_cst : Ref sig .tc := ⟨.hbm, 14, rfl⟩
abbrev main_v0 : Ref sig .tc := ⟨.hbm, 15, rfl⟩
abbrev main_v1 : Ref sig .tc := ⟨.hbm, 16, rfl⟩
abbrev main_cst_0 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_1 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_scratch0 : Ref sig .tc := ⟨.vmem, 19, rfl⟩
abbrev cc0_scratch1 : Ref sig .tc := ⟨.vmem, 20, rfl⟩
abbrev cc0_scratch2 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem8_1 : DmaSem sig := 16
abbrev cc0_sem9_0 : DmaSem sig := 17
abbrev cc0_sem9_1 : DmaSem sig := 18

abbrev nD : Nat := 1
abbrev τ : Topo := Topo.v7x

variable {F : FTy → Type} [FloatOps F]

abbrev grid0 : Pipeline.Grid := ⟨2, ![8, 8], ![false, false]⟩

def k0_cond2 (i : grid0.Coords) : BitVec 1 :=
  let arg1 : BitVec 32 := BitVec.ofNat 32 (i 1).val
  let c7_i32 : BitVec 32 := 7#32
  let v46 : BitVec 1 := Scalar.cmpi .eq arg1 c7_i32
  let v47 : BitVec 32 := Scalar.extui v46
  let c0_i32_26 : BitVec 32 := 0#32
  let v48 : BitVec 1 := Scalar.cmpi .ne v47 c0_i32_26
  v48

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1024 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1024x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1024x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1024x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1024x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

class Facts₀ : Prop where
  reducesTo_S8192x512_S512_d0 : S8192x512.ReducesTo [0] S512
  h_S_ : 0 < S_.numel
  bcast_S512_S1x512_1 : S512.BroadcastsInDim S1x512 (![1] : Fin 1 → Fin S1x512.rank)
  bcast_S_S1x512 : S_.BroadcastsInDim S1x512 (![] : Fin 0 → Fin S1x512.rank)
  concatenates_S512x512_S512x512_S512x512_S512x1536_d1 : Shape.Concatenates [S512x512, S512x512, S512x512] S512x1536 1
  bitsLt_bf16_f32 : FTy.bits .bf16 < FTy.bits .f32
  slices_S8192x1536_S8192x512_0_0 : S8192x1536.Slices ![0, 0] S8192x512
  slices_S8192x1536_S8192x512_0_512 : S8192x1536.Slices ![0, 512] S8192x512
  slices_S8192x1536_S8192x512_0_1024 : S8192x1536.Slices ![0, 1024] S8192x512
  bcast_S1x512_S8192x512_0_1 : S1x512.BroadcastsInDim S8192x512 (![0, 1] : Fin 2 → Fin S8192x512.rank)
  concatenates_S512x512_S512x512_S512x1024_d1 : Shape.Concatenates [S512x512, S512x512] S512x1024 1
  slices_S8192x1024_S8192x512_0_0 : S8192x1024.Slices ![0, 0] S8192x512
  slices_S8192x1024_S8192x512_0_512 : S8192x1024.Slices ![0, 512] S8192x512
  transposes_S1x512_S512x1_1_0 : S1x512.Transposes [1, 0] S512x1
  bcast_S_S8192x1 : S_.BroadcastsInDim S8192x1 (![] : Fin 0 → Fin S8192x1.rank)
  natLt_1_32 : 1 < 32
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1024x1_S1024x512 : S1024x1.Broadcasts S1024x512
  broadcasts_S1x512_S1024x512 : S1x512.Broadcasts S1024x512
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  transposes_S1024x512_p1_0_S512x1024 : S1024x512.Transposes [1, 0] S512x1024
  inb_S1024x1024_S1024x1024_0_0 : ∀ a, (![0, 0] : Fin 2 → Nat) a + S1024x1024.size a ≤ S1024x1024.size a
  h_S1024x1024 : 0 < S1024x1024.numel
  reduces_S1024x1024_S1024 : S1024x1024.Reduces [1] S1024
  shapeCasts_S1024_S1024x1 : S1024.ShapeCasts S1024x1
  broadcasts_S1024x1_S1024x1024 : S1024x1.Broadcasts S1024x1024
  dot_S8192x512_S512x1536_S8192x1536_1_0_0_1_n_n_wf : DotDims.WF S8192x512 S512x1536 S8192x1536 [1] [0] [0] [1] [] []
  dot_S8192x512_S512x1024_S8192x1024_1_0_0_1_n_n_wf : DotDims.WF S8192x512 S512x1024 S8192x1024 [1] [0] [0] [1] [] []
  dot_S8192x512_S512x1_S8192x1_1_0_0_1_n_n_wf : DotDims.WF S8192x512 S512x1 S8192x1 [1] [0] [0] [1] [] []
  dot_S1x512_S512x512_S1x512_1_0_0_1_n_n_wf : DotDims.WF S1x512 S512x512 S1x512 [1] [0] [0] [1] [] []
  dot_S1024x512_S512x1024_S1024x1024_1_0_0_1_n_n_wf : DotDims.WF S1024x512 S512x1024 S1024x1024 [1] [0] [0] [1] [] []
  dot_S1024x1024_S1024x512_S1024x512_1_0_0_1_n_n_wf : DotDims.WF S1024x1024 S1024x512 S1024x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S8192x512.size a
  hwx0_0 : ∀ i : grid0.Coords, EltTy.bits .bf16 = 32 ∨ (Rect.block (s := S8192x512) S1024x512.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x512.size a ≤ S8192x512.size a
  hwx0_1 : ∀ i : grid0.Coords, EltTy.bits .bf16 = 32 ∨ (Rect.block (s := S8192x512) S1024x512.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x512.size a ≤ S8192x512.size a
  hwx0_2 : ∀ i : grid0.Coords, EltTy.bits .bf16 = 32 ∨ (Rect.block (s := S8192x512) S1024x512.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S8192x8192.size a
  hwx0_3 : ∀ i : grid0.Coords, EltTy.bits .i32 = 32 ∨ (Rect.block (s := S8192x8192) S1024x1024.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x1.size a ≤ S8192x1.size a
  hwx0_4 : ∀ i : grid0.Coords, EltTy.bits .f32 = 32 ∨ (Rect.block (s := S8192x1) S1024x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1024x1.size a ≤ S8192x1.size a
  hwx0_5 : ∀ i : grid0.Coords, EltTy.bits .f32 = 32 ∨ (Rect.block (s := S8192x1) S1024x1.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1024x512.size a ≤ S8192x512.size a
  hwx0_6 : ∀ i : grid0.Coords, EltTy.bits .bf16 = 32 ∨ (Rect.block (s := S8192x512) S1024x512.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x512.size a ≤ S1x512.size a
  hwx0_7 : ∀ i : grid0.Coords, EltTy.bits .f32 = 32 ∨ (Rect.block (s := S1x512) S1x512.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1024x512.size a ≤ S8192x512.size a
  hwx0_8 : ∀ i : grid0.Coords, EltTy.bits .f32 = 32 ∨ (Rect.block (s := S8192x512) S1024x512.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S1024x512.size a ≤ S8192x512.size a
  hwx0_9 : ∀ i : grid0.Coords, EltTy.bits .f32 = 32 ∨ (Rect.block (s := S8192x512) S1024x512.size (cc0_transform_9 i) (hinb0_9 i)).WholeWords (EltTy.packing .f32)

variable [Facts₀]

def dot_S8192x512_S512x1536_S8192x1536_1_0_0_1_n_n : DotDims S8192x512 S512x1536 S8192x1536 where
  lhsContracting := [1]
  rhsContracting := [0]
  lhsNonContracting := [0]
  rhsNonContracting := [1]
  lhsBatch := []
  rhsBatch := []
  wf := dot_S8192x512_S512x1536_S8192x1536_1_0_0_1_n_n_wf
def dot_S8192x512_S512x1024_S8192x1024_1_0_0_1_n_n : DotDims S8192x512 S512x1024 S8192x1024 where
  lhsContracting := [1]
  rhsContracting := [0]
  lhsNonContracting := [0]
  rhsNonContracting := [1]
  lhsBatch := []
  rhsBatch := []
  wf := dot_S8192x512_S512x1024_S8192x1024_1_0_0_1_n_n_wf
def dot_S8192x512_S512x1_S8192x1_1_0_0_1_n_n : DotDims S8192x512 S512x1 S8192x1 where
  lhsContracting := [1]
  rhsContracting := [0]
  lhsNonContracting := [0]
  rhsNonContracting := [1]
  lhsBatch := []
  rhsBatch := []
  wf := dot_S8192x512_S512x1_S8192x1_1_0_0_1_n_n_wf
def dot_S1x512_S512x512_S1x512_1_0_0_1_n_n : DotDims S1x512 S512x512 S1x512 where
  lhsContracting := [1]
  rhsContracting := [0]
  lhsNonContracting := [0]
  rhsNonContracting := [1]
  lhsBatch := []
  rhsBatch := []
  wf := dot_S1x512_S512x512_S1x512_1_0_0_1_n_n_wf
def dot_S1024x512_S512x1024_S1024x1024_1_0_0_1_n_n : DotDims S1024x512 S512x1024 S1024x1024 where
  lhsContracting := [1]
  rhsContracting := [0]
  lhsNonContracting := [0]
  rhsNonContracting := [1]
  lhsBatch := []
  rhsBatch := []
  wf := dot_S1024x512_S512x1024_S1024x1024_1_0_0_1_n_n_wf
def dot_S1024x1024_S1024x512_S1024x512_1_0_0_1_n_n : DotDims S1024x1024 S1024x512 S1024x512 where
  lhsContracting := [1]
  rhsContracting := [0]
  lhsNonContracting := [0]
  rhsNonContracting := [1]
  lhsBatch := []
  rhsBatch := []
  wf := dot_S1024x1024_S1024x512_S1024x512_1_0_0_1_n_n_wf

abbrev win0_0 : Pipeline.Window sig grid0 :=
  Pipeline.Window.ofSpec (Memref.whole main_v23) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v24) S1024x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v25) S1024x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v38) S1024x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v37) S1024x1.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v29) S1024x1.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v26) S1024x512.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_v33) S1x512.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg2) S1024x512.size cc0_transform_8 reads0_8 false false 2 stage0_8 sem0_8
    hrank0 hreads0_8 hinb0_8 nbuf0_8 (Memref.isWhole_whole _) hwx0_8 hstage0_8

abbrev win0_9 : Pipeline.Window sig grid0 :=
  Pipeline.Window.ofSpec (Memref.whole main_v39) S1024x512.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

abbrev idle0 : Fin 10 → grid0.Coords → Bool := fun | 0 => fun _ => false | 1 => fun _ => false | 2 => fun _ => false | 3 => fun _ => false | 4 => fun _ => false | 5 => fun _ => false | 6 => fun _ => false | 7 => fun _ => false | 8 => fun _ => false | 9 => fun i => !(k0_cond2 i == 1#1) | ⟨_ + 10, h⟩ => absurd h (Nat.not_lt.2 (Nat.le_add_left _ _))

class Facts : Prop extends Facts₀ where

variable [Facts]
-- ==== ReferenceIdeal.lean ====
abbrev S8192x8192 : Shape := ⟨2, ![8192, 8192]⟩
abbrev S8192x512 : Shape := ⟨2, ![8192, 512]⟩
abbrev S512x512 : Shape := ⟨2, ![512, 512]⟩
abbrev S512 : Shape := ⟨1, ![512]⟩
abbrev S512x1 : Shape := ⟨2, ![512, 1]⟩
abbrev S_ : Shape := ⟨0, ![]⟩
abbrev S1x512 : Shape := ⟨2, ![1, 512]⟩
abbrev S8192x1 : Shape := ⟨2, ![8192, 1]⟩
abbrev S512x8192 : Shape := ⟨2, ![512, 8192]⟩
abbrev S8192 : Shape := ⟨1, ![8192]⟩

abbrev nBuf : Space → Nat
  | .hbm => 79
  | .vmem => 0
  | .smem => 0
  | _ => 0

abbrev bufTy : (tb : Table) → Fin (tcTables nBuf tb) → BufTy
  | .hbm, ⟨0, _⟩ => ⟨S8192x8192, .i1⟩
  | .hbm, ⟨1, _⟩ => ⟨S8192x512, .f32⟩
  | .hbm, ⟨2, _⟩ => ⟨S8192x512, .f32⟩
  | .hbm, ⟨3, _⟩ => ⟨S512x512, .f32⟩
  | .hbm, ⟨4, _⟩ => ⟨S512x512, .f32⟩
  | .hbm, ⟨5, _⟩ => ⟨S512x512, .f32⟩
  | .hbm, ⟨6, _⟩ => ⟨S512, .f32⟩
  | .hbm, ⟨7, _⟩ => ⟨S512x512, .f32⟩
  | .hbm, ⟨8, _⟩ => ⟨S512x512, .f32⟩
  | .hbm, ⟨9, _⟩ => ⟨S512x512, .f32⟩
  | .hbm, ⟨10, _⟩ => ⟨S512, .f32⟩
  | .hbm, ⟨11, _⟩ => ⟨S512x1, .f32⟩
  | .hbm, ⟨12, _⟩ => ⟨S512x512, .f32⟩
  | .hbm, ⟨13, _⟩ => ⟨S512, .f32⟩
  | .hbm, ⟨14, _⟩ => ⟨S_, .f32⟩
  | .hbm, ⟨15, _⟩ => ⟨S512, .f32⟩
  | .hbm, ⟨16, _⟩ => ⟨S1x512, .f32⟩
  | .hbm, ⟨17, _⟩ => ⟨S_, .f32⟩
  | .hbm, ⟨18, _⟩ => ⟨S1x512, .f32⟩
  | .hbm, ⟨19, _⟩ => ⟨S1x512, .f32⟩
  | .hbm, ⟨20, _⟩ => ⟨S8192x512, .f32⟩
  | .hbm, ⟨21, _⟩ => ⟨S8192x512, .f32⟩
  | .hbm, ⟨22, _⟩ => ⟨S8192x512, .f32⟩
  | .hbm, ⟨23, _⟩ => ⟨S1x512, .f32⟩
  | .hbm, ⟨24, _⟩ => ⟨S8192x512, .f32⟩
  | .hbm, ⟨25, _⟩ => ⟨S8192x512, .f32⟩
  | .hbm, ⟨26, _⟩ => ⟨S8192x512, .f32⟩
  | .hbm, ⟨27, _⟩ => ⟨S1x512, .f32⟩
  | .hbm, ⟨28, _⟩ => ⟨S1x512, .f32⟩
  | .hbm, ⟨29, _⟩ => ⟨S1x512, .f32⟩
  | .hbm, ⟨30, _⟩ => ⟨S1x512, .f32⟩
  | .hbm, ⟨31, _⟩ => ⟨S8192x1, .f32⟩
  | .hbm, ⟨32, _⟩ => ⟨S8192x512, .f32⟩
  | .hbm, ⟨33, _⟩ => ⟨S1x512, .f32⟩
  | .hbm, ⟨34, _⟩ => ⟨S8192x512, .f32⟩
  | .hbm, ⟨35, _⟩ => ⟨S8192x512, .f32⟩
  | .hbm, ⟨36, _⟩ => ⟨S512x8192, .f32⟩
  | .hbm, ⟨37, _⟩ => ⟨S8192x8192, .f32⟩
  | .hbm, ⟨38, _⟩ => ⟨S_, .f32⟩
  | .hbm, ⟨39, _⟩ => ⟨S8192x8192, .f32⟩
  | .hbm, ⟨40, _⟩ => ⟨S8192x8192, .f32⟩
  | .hbm, ⟨41, _⟩ => ⟨S_, .f32⟩
  | .hbm, ⟨42, _⟩ => ⟨S8192x8192, .f32⟩
  | .hbm, ⟨43, _⟩ => ⟨S8192x8192, .f32⟩
  | .hbm, ⟨44, _⟩ => ⟨S512x1, .f32⟩
  | .hbm, ⟨45, _⟩ => ⟨S8192x1, .f32⟩
  | .hbm, ⟨46, _⟩ => ⟨S_, .f32⟩
  | .hbm, ⟨47, _⟩ => ⟨S8192x1, .f32⟩
  | .hbm, ⟨48, _⟩ => ⟨S8192x1, .f32⟩
  | .hbm, ⟨49, _⟩ => ⟨S_, .f32⟩
  | .hbm, ⟨50, _⟩ => ⟨S8192, .f32⟩
  | .hbm, ⟨51, _⟩ => ⟨S8192x1, .f32⟩
  | .hbm, ⟨52, _⟩ => ⟨S8192x1, .f32⟩
  | .hbm, ⟨53, _⟩ => ⟨S8192x1, .f32⟩
  | .hbm, ⟨54, _⟩ => ⟨S8192x8192, .f32⟩
  | .hbm, ⟨55, _⟩ => ⟨S8192x8192, .f32⟩
  | .hbm, ⟨56, _⟩ => ⟨S8192x8192, .f32⟩
  | .hbm, ⟨57, _⟩ => ⟨S8192x1, .f32⟩
  | .hbm, ⟨58, _⟩ => ⟨S8192x1, .f32⟩
  | .hbm, ⟨59, _⟩ => ⟨S8192x1, .f32⟩
  | .hbm, ⟨60, _⟩ => ⟨S8192x1, .f32⟩
  | .hbm, ⟨61, _⟩ => ⟨S_, .f32⟩
  | .hbm, ⟨62, _⟩ => ⟨S8192, .f32⟩
  | .hbm, ⟨63, _⟩ => ⟨S8192x1, .f32⟩
  | .hbm, ⟨64, _⟩ => ⟨S8192x1, .f32⟩
  | .hbm, ⟨65, _⟩ => ⟨S8192x1, .f32⟩
  | .hbm, ⟨66, _⟩ => ⟨S8192x8192, .f32⟩
  | .hbm, ⟨67, _⟩ => ⟨S8192x8192, .f32⟩
  | .hbm, ⟨68, _⟩ => ⟨S8192x512, .f32⟩
  | .hbm, ⟨69, _⟩ => ⟨S8192x1, .f32⟩
  | .hbm, ⟨70, _⟩ => ⟨S8192x512, .f32⟩
  | .hbm, ⟨71, _⟩ => ⟨S8192x512, .f32⟩
  | .hbm, ⟨72, _⟩ => ⟨S8192x512, .f32⟩
  | .hbm, ⟨73, _⟩ => ⟨S8192x512, .f32⟩
  | .hbm, ⟨74, _⟩ => ⟨S8192x1, .f32⟩
  | .hbm, ⟨75, _⟩ => ⟨S8192x512, .f32⟩
  | .hbm, ⟨76, _⟩ => ⟨S8192x512, .f32⟩
  | .hbm, ⟨77, _⟩ => ⟨S8192x512, .f32⟩
  | .hbm, ⟨78, _⟩ => ⟨S8192x512, .f32⟩
  | _, _ => ⟨S8192x8192, .i1⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_cst : Ref sig .tc := ⟨.hbm, 14, rfl⟩
abbrev main_v0 : Ref sig .tc := ⟨.hbm, 15, rfl⟩
abbrev main_v1 : Ref sig .tc := ⟨.hbm, 16, rfl⟩
abbrev main_cst_0 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_cst_1 : Ref sig .tc := ⟨.hbm, 38, rfl⟩
abbrev main_v22 : Ref sig .tc := ⟨.hbm, 39, rfl⟩
abbrev main_v23 : Ref sig .tc := ⟨.hbm, 40, rfl⟩
abbrev main_cst_2 : Ref sig .tc := ⟨.hbm, 41, rfl⟩
abbrev main_call0_v0 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_cst_3 : Ref sig .tc := ⟨.hbm, 46, rfl⟩
abbrev main_v27 : Ref sig .tc := ⟨.hbm, 47, rfl⟩
abbrev main_v28 : Ref sig .tc := ⟨.hbm, 48, rfl⟩
abbrev main_cst_4 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_cst_5 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩

abbrev nD : Nat := 1
abbrev τ : Topo := Topo.v7x

variable {F : FTy → Type} [FloatOps F]

class Facts₀ : Prop where
  reducesTo_S8192x512_S512_d0 : S8192x512.ReducesTo [0] S512
  h_S_ : 0 < S_.numel
  bcast_S512_S1x512_1 : S512.BroadcastsInDim S1x512 (![1] : Fin 1 → Fin S1x512.rank)
  bcast_S_S1x512 : S_.BroadcastsInDim S1x512 (![] : Fin 0 → Fin S1x512.rank)
  bcast_S1x512_S8192x512_0_1 : S1x512.BroadcastsInDim S8192x512 (![0, 1] : Fin 2 → Fin S8192x512.rank)
  transposes_S8192x512_S512x8192_1_0 : S8192x512.Transposes [1, 0] S512x8192
  bcast_S_S8192x8192 : S_.BroadcastsInDim S8192x8192 (![] : Fin 0 → Fin S8192x8192.rank)
  transposes_S1x512_S512x1_1_0 : S1x512.Transposes [1, 0] S512x1
  bcast_S_S8192x1 : S_.BroadcastsInDim S8192x1 (![] : Fin 0 → Fin S8192x1.rank)
  reducesTo_S8192x8192_S8192_d1 : S8192x8192.ReducesTo [1] S8192
  bcast_S8192_S8192x1_0 : S8192.BroadcastsInDim S8192x1 (![0] : Fin 1 → Fin S8192x1.rank)
  bcast_S8192x1_S8192x8192_0_1 : S8192x1.BroadcastsInDim S8192x8192 (![0, 1] : Fin 2 → Fin S8192x8192.rank)
  bcast_S8192x1_S8192x512_0_1 : S8192x1.BroadcastsInDim S8192x512 (![0, 1] : Fin 2 → Fin S8192x512.rank)
  dot_S8192x512_S512x512_S8192x512_1_0_0_1_n_n_wf : DotDims.WF S8192x512 S512x512 S8192x512 [1] [0] [0] [1] [] []
  dot_S1x512_S512x512_S1x512_1_0_0_1_n_n_wf : DotDims.WF S1x512 S512x512 S1x512 [1] [0] [0] [1] [] []
  dot_S8192x512_S512x1_S8192x1_1_0_0_1_n_n_wf : DotDims.WF S8192x512 S512x1 S8192x1 [1] [0] [0] [1] [] []
  dot_S8192x512_S512x8192_S8192x8192_1_0_0_1_n_n_wf : DotDims.WF S8192x512 S512x8192 S8192x8192 [1] [0] [0] [1] [] []
  dot_S8192x8192_S8192x512_S8192x512_1_0_0_1_n_n_wf : DotDims.WF S8192x8192 S8192x512 S8192x512 [1] [0] [0] [1] [] []

variable [Facts₀]

def dot_S8192x512_S512x512_S8192x512_1_0_0_1_n_n : DotDims S8192x512 S512x512 S8192x512 where
  lhsContracting := [1]
  rhsContracting := [0]
  lhsNonContracting := [0]
  rhsNonContracting := [1]
  lhsBatch := []
  rhsBatch := []
  wf := dot_S8192x512_S512x512_S8192x512_1_0_0_1_n_n_wf
def dot_S1x512_S512x512_S1x512_1_0_0_1_n_n : DotDims S1x512 S512x512 S1x512 where
  lhsContracting := [1]
  rhsContracting := [0]
  lhsNonContracting := [0]
  rhsNonContracting := [1]
  lhsBatch := []
  rhsBatch := []
  wf := dot_S1x512_S512x512_S1x512_1_0_0_1_n_n_wf
def dot_S8192x512_S512x1_S8192x1_1_0_0_1_n_n : DotDims S8192x512 S512x1 S8192x1 where
  lhsContracting := [1]
  rhsContracting := [0]
  lhsNonContracting := [0]
  rhsNonContracting := [1]
  lhsBatch := []
  rhsBatch := []
  wf := dot_S8192x512_S512x1_S8192x1_1_0_0_1_n_n_wf
def dot_S8192x512_S512x8192_S8192x8192_1_0_0_1_n_n : DotDims S8192x512 S512x8192 S8192x8192 where
  lhsContracting := [1]
  rhsContracting := [0]
  lhsNonContracting := [0]
  rhsNonContracting := [1]
  lhsBatch := []
  rhsBatch := []
  wf := dot_S8192x512_S512x8192_S8192x8192_1_0_0_1_n_n_wf
def dot_S8192x8192_S8192x512_S8192x512_1_0_0_1_n_n : DotDims S8192x8192 S8192x512 S8192x512 where
  lhsContracting := [1]
  rhsContracting := [0]
  lhsNonContracting := [0]
  rhsNonContracting := [1]
  lhsBatch := []
  rhsBatch := []
  wf := dot_S8192x8192_S8192x512_S8192x512_1_0_0_1_n_n_wf

class Facts : Prop extends Facts₀ where

variable [Facts]
-- ==== Proof.K.Kit.lean ====
/-
  The kernel's launch as the region finds it: what every buffer holds when the pipeline starts (the host
  operations before it applied to the launch memory), that no host operation overwrites an argument, each window's
  block at a grid point, where the two branches of the body are taken over the 8 × 8 grid (the first key tile of a
  row of query tiles resets the running maximum, the running denominator and the accumulator; the last one divides
  and writes the result), and where the result window is idle.
-/
import proofs.«419049_j49134425866853_3_alg».proof.Proof.Gen.Kernel.Launch
import proofs.«419049_j49134425866853_3_alg».proof.Proof.Gen.Kernel.Skeleton
import proofs.«419049_j49134425866853_3_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host operations before the pipeline -/

/-- What core `c`'s buffers hold when the pipeline starts: the launch memory after the host operations. -/
abbrev V (c : Dev nD) (b : Ref sig .tc) : Buf (Elt F) ((c : Thread nD τ).loc b) :=
  StableHlo.after hostOps0 (fun b => m (c, b)) b

theorem hostOps0_fresh : (hostOps0 : List (HloOp τ sig (Elt F))).Forall fun op => op.fresh = ∅ := by
  simp only [List.Forall]; repeat' constructor

/-- The entry point is the host operations followed by the pipeline. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation writes argument 0. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))
/-- No host operation writes argument 1. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))
/-- No host operation writes argument 2. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))
/-- No host operation writes argument 3. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))
/-- No host operation writes argument 4. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))
/-- No host operation writes argument 5. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))
/-- No host operation writes argument 6. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))
/-- No host operation writes argument 7. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))
/-- No host operation writes argument 8. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))
/-- No host operation writes argument 9. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))
/-- No host operation writes argument 10. -/
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))
/-- No host operation writes argument 11. -/
theorem V_main_arg11 (c : Dev nD) : V m c main_arg11 = m ((c : Thread nD τ).loc main_arg11) :=
  StableHlo.after_of_forall_not_mem (b := Proc.devRef .tc main_arg11) _ _ (List.forall_iff_forall_mem.mp (by
    simp only [hostOps0, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))
/-- No host operation writes argument 12. -/
theorem V_main_arg12 (c : Dev nD) : V m c main_arg12 = m ((c : Thread nD τ).loc main_arg12) :=
  StableHlo.after_of_forall_not_mem (b := Proc.devRef .tc main_arg12) _ _ (List.forall_iff_forall_mem.mp (by
    simp only [hostOps0, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))
/-- No host operation writes argument 13. -/
theorem V_main_arg13 (c : Dev nD) : V m c main_arg13 = m ((c : Thread nD τ).loc main_arg13) :=
  StableHlo.after_of_forall_not_mem (b := Proc.devRef .tc main_arg13) _ _ (List.forall_iff_forall_mem.mp (by
    simp only [hostOps0, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))

/-! ## The windows' blocks -/

/-- Window `w`'s block at grid point `t`, cut out of its array as the pipeline finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's staging buffer holds its block at every grid point, fetched there or kept from the point before. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's staging buffer holds its block at every grid point, fetched there or kept from the point before. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's staging buffer holds its block at every grid point, fetched there or kept from the point before. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's staging buffer holds its block at every grid point, fetched there or kept from the point before. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's staging buffer holds its block at every grid point, fetched there or kept from the point before. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's staging buffer holds its block at every grid point, fetched there or kept from the point before. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's staging buffer holds its block at every grid point, fetched there or kept from the point before. -/
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Input window 7's staging buffer holds its block at every grid point, fetched there or kept from the point before. -/
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
/-- Input window 8's staging buffer holds its block at every grid point, fetched there or kept from the point before. -/
theorem before0_8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)

/-! ## The arguments after a run of the pipeline -/

/-- From a run of the pipeline to its post, the argument arrays end as launched: the third argument is a window's
    array and an input's array is never written; the others are staged by no window and keep what the pipeline found. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun _ h c => ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).1 8).trans (((dats 0 c).arrAt_in 8 rfl _).trans ((hA c 8).trans (V_main_arg2 m c))),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c),
      ((h c).2 main_arg11 (Pipeline.mem_restRefs_of main_arg11 (by decide) (by decide))).trans (V_main_arg11 m c),
      ((h c).2 main_arg12 (Pipeline.mem_restRefs_of main_arg12 (by decide) (by decide))).trans (V_main_arg12 m c),
      ((h c).2 main_arg13 (Pipeline.mem_restRefs_of main_arg13 (by decide) (by decide))).trans (V_main_arg13 m c)⟩) h

/-! ## The body's two branches over the grid -/

/-- The first branch's condition (this key tile is the first of its row of query tiles), from the grid coordinates. -/
abbrev cond0_0 (i : grid0.Coords) : Prop := (Scalar.cmpi .ne (Scalar.extui (Scalar.cmpi .eq (BitVec.ofNat 32 (i 1).val) 0#32)) 0#32) = 1#1
/-- It holds at the points ≡ 0 (mod 8). -/
theorem hcond0_0 : ∀ t : Fin cfg0.N, cond0_0 (grid0.coords t) ↔ t.val % 8 = 0 :=
  (by decide +kernel : ∀ t : Fin grid0.N, cond0_0 (grid0.coords t) ↔ t.val % 8 = 0)

/-- The second branch's condition (this key tile is the last of its row). -/
abbrev cond0_1 (i : grid0.Coords) : Prop := k0_cond2 i = 1#1
/-- It holds at the points ≡ 7 (mod 8). -/
theorem hcond0_1 : ∀ t : Fin cfg0.N, cond0_1 (grid0.coords t) ↔ t.val % 8 = 7 :=
  (by decide +kernel : ∀ t : Fin grid0.N, cond0_1 (grid0.coords t) ↔ t.val % 8 = 7)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cfg0.idle 4 (grid0.coords t) = false := by decide +kernel
theorem liveAt0_5 : ∀ t : Fin cfg0.N, cfg0.idle 5 (grid0.coords t) = false := by decide +kernel
theorem liveAt0_6 : ∀ t : Fin cfg0.N, cfg0.idle 6 (grid0.coords t) = false := by decide +kernel
theorem liveAt0_7 : ∀ t : Fin cfg0.N, cfg0.idle 7 (grid0.coords t) = false := by decide +kernel
theorem liveAt0_8 : ∀ t : Fin cfg0.N, cfg0.idle 8 (grid0.coords t) = false := by decide +kernel
/-- At a first key tile the result window is idle (nothing is stored into it) and is not written back. -/
theorem idleAt0_9_A : ∀ t : Fin cfg0.N, cond0_0 (grid0.coords t) → ¬cond0_1 (grid0.coords t) → cfg0.idle 9 (grid0.coords t) = true := by decide +kernel
theorem noFlush0_9_A : ∀ t : Fin cfg0.N, cond0_0 (grid0.coords t) → ¬cond0_1 (grid0.coords t) → (cfg0.win 9).flush t = false := by decide +kernel
/-- At a middle key tile likewise. -/
theorem idleAt0_9_B : ∀ t : Fin cfg0.N, ¬cond0_0 (grid0.coords t) → ¬cond0_1 (grid0.coords t) → cfg0.idle 9 (grid0.coords t) = true := by decide +kernel
theorem noFlush0_9_B : ∀ t : Fin cfg0.N, ¬cond0_0 (grid0.coords t) → ¬cond0_1 (grid0.coords t) → (cfg0.win 9).flush t = false := by decide +kernel
/-- At a last key tile the result window is live. -/
theorem liveAt0_9_C : ∀ t : Fin cfg0.N, ¬cond0_0 (grid0.coords t) → cond0_1 (grid0.coords t) → cfg0.idle 9 (grid0.coords t) = false := by decide +kernel

/-! ## The memrefs the body is called with -/

/-- One staging buffer of the result window, through which its contents are stated. -/
abbrev VO0_9 : View sig .tc .vmem S1024x512 .f32 := (Memref.whole cc0_stg9_0 : Memref sig .tc .vmem S1024x512 .f32).view
abbrev ms0_0 (t : Fin cfg0.N) : Memref sig .tc .vmem S1024x512 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x512 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x512 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1024x1024 .i32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1024x1 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1024x1 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1024x512 .bf16 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x512 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1024x512 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1024x512 .f32 := win0_9.stage (cfg0.slots t 9)
abbrev hs0_9 (t : Fin cfg0.N) : (ms0_9 t).IsWhole := hstage0_9 ((cfg0.slots t 9).cast nbuf0_9)
/-- The three scratch buffers: the running row maximum, the running denominator, the accumulator. -/
abbrev scM0_0 : Memref sig .tc .vmem S1024x1 .f32 := Memref.whole cc0_scratch0
abbrev scM0_1 : Memref sig .tc .vmem S1024x1 .f32 := Memref.whole cc0_scratch1
abbrev scM0_2 : Memref sig .tc .vmem S1024x512 .f32 := Memref.whole cc0_scratch2
abbrev VS0_0 : View sig .tc .vmem S1024x1 .f32 := scM0_0.view
abbrev VS0_1 : View sig .tc .vmem S1024x1 .f32 := scM0_1.view
abbrev VS0_2 : View sig .tc .vmem S1024x512 .f32 := scM0_2.view

/-- The pipeline's own invariant with the scratch buffers named: each owned whole at some contents. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r)) := by
  unfold Pipeline.ΦA; rw [scopedRest0_eq]; simp only [scM0_0, scM0_1, scM0_2, owns_whole]; try rfl

end Cert.Kernel.Fr

end
-- ==== Proof.K.RunA.lean ====
/-
  The body's run at a first key tile (the first branch taken, the second not): the running maximum, the running denominator and the accumulator are reset from the global and the essential score, then updated by this tile.
  On whole staging buffers holding the inputs' blocks, the body runs to
  its end, leaves the inputs as they were and each buffer it stores into with its stores written; the lists of stores are
  what the symbolic run finds.
-/
import proofs.«419049_j49134425866853_3_alg».proof.Proof.K.Kit

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
noncomputable def kernelRun0_A (c : Dev nD) (i : grid0.Coords) (arg2 : Memref sig .tc .vmem S1024x512 .bf16) (harg2 : arg2.IsWhole) (arg3 : Memref sig .tc .vmem S1024x512 .bf16) (harg3 : arg3.IsWhole) (arg4 : Memref sig .tc .vmem S1024x512 .bf16) (harg4 : arg4.IsWhole) (arg5 : Memref sig .tc .vmem S1024x1024 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x512 .bf16) (harg8 : arg8.IsWhole) (arg9 : Memref sig .tc .vmem S1x512 .f32) (harg9 : arg9.IsWhole) (arg10 : Memref sig .tc .vmem S1024x512 .f32) (harg10 : arg10.IsWhole) (arg11 : Memref sig .tc .vmem S1024x512 .f32) (harg11 : arg11.IsWhole) (arg12 : Memref sig .tc .vmem S1024x1 .f32) (harg12 : arg12.IsWhole) (arg13 : Memref sig .tc .vmem S1024x1 .f32) (harg13 : arg13.IsWhole) (arg14 : Memref sig .tc .vmem S1024x512 .f32) (harg14 : arg14.IsWhole) (hc0 : cond0_0 i) (hc1 : ¬cond0_1 i)
    (x0 : Vec F S1024x512 .bf16) (x1 : Vec F S1024x512 .bf16) (x2 : Vec F S1024x512 .bf16) (x3 : Vec F S1024x1024 .i32) (x4 : Vec F S1024x1 .f32) (x5 : Vec F S1024x1 .f32) (x6 : Vec F S1024x512 .bf16) (x7 : Vec F S1x512 .f32) (x8 : Vec F S1024x512 .f32) :
    Σ' (L9 : List (View.Piece (Elt F) S1024x512 .f32)) (LS0 : List (View.Piece (Elt F) S1024x1 .f32)) (LS1 : List (View.Piece (Elt F) S1024x1 .f32)), { LS2 : List (View.Piece (Elt F) S1024x512 .f32) //
      ∀ (xi9 : Vec F S1024x512 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare xi9 ∗ (∃ d, owns (c : Thread nD τ) arg12 fullShare d) ∗ (∃ d, owns (c : Thread nD τ) arg13 fullShare d) ∗ (∃ d, owns (c : Thread nD τ) arg14 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare xi9 ∗ (∃ f, arg12.view.loc (c : Thread nD τ) ↦[arg12.view.set]{fullShare} arg12.view.writes (Elt F) f LS0) ∗ (∃ f, arg13.view.loc (c : Thread nD τ) ↦[arg13.view.set]{fullShare} arg13.view.writes (Elt F) f LS1) ∗ (∃ f, arg14.view.loc (c : Thread nD τ) ↦[arg14.view.set]{fullShare} arg14.view.writes (Elt F) f LS2)) -∗ K ⟨⟩))
          ⊢ wp frame (wpE (defs₀ (F := F)) Variants.none c none) E (cc0__attn_kernel i arg2 harg2 arg3 harg3 arg4 harg4 arg5 harg5 arg6 harg6 arg7 harg7 arg8 harg8 arg9 harg9 arg10 harg10 arg11 harg11 arg12 harg12 arg13 harg13 arg14 harg14) K } := by
  refine ⟨[], ?_, ?_, ?_, fun xi9 E K => ?run⟩
  case run =>
    simp only [cc0__attn_kernel_eq_skeleton]; unfold cc0__attn_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%ds0, %fs0, -, HS0⟩, ⟨%ds1, %fs1, -, HS1⟩, ⟨%ds2, %fs2, -, HS2⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [HS0]; · iexists _; iexact HS0
    isplitl [HS1]; · iexists _; iexact HS1
    iexists _; iexact HS2

end Cert.Kernel.Fr

end
-- ==== Proof.K.RunB.lean ====
/-
  The body's run at a middle key tile (neither branch taken): the three running quantities are updated by this tile.
  On whole staging buffers holding the inputs' blocks and the scratch buffers at what the point before left, the body runs to
  its end, leaves the inputs as they were and each buffer it stores into with its stores written; the lists of stores are
  what the symbolic run finds.
-/
import proofs.«419049_j49134425866853_3_alg».proof.Proof.K.RunA

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
noncomputable def kernelRun0_B (c : Dev nD) (i : grid0.Coords) (arg2 : Memref sig .tc .vmem S1024x512 .bf16) (harg2 : arg2.IsWhole) (arg3 : Memref sig .tc .vmem S1024x512 .bf16) (harg3 : arg3.IsWhole) (arg4 : Memref sig .tc .vmem S1024x512 .bf16) (harg4 : arg4.IsWhole) (arg5 : Memref sig .tc .vmem S1024x1024 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x512 .bf16) (harg8 : arg8.IsWhole) (arg9 : Memref sig .tc .vmem S1x512 .f32) (harg9 : arg9.IsWhole) (arg10 : Memref sig .tc .vmem S1024x512 .f32) (harg10 : arg10.IsWhole) (arg11 : Memref sig .tc .vmem S1024x512 .f32) (harg11 : arg11.IsWhole) (arg12 : Memref sig .tc .vmem S1024x1 .f32) (harg12 : arg12.IsWhole) (arg13 : Memref sig .tc .vmem S1024x1 .f32) (harg13 : arg13.IsWhole) (arg14 : Memref sig .tc .vmem S1024x512 .f32) (harg14 : arg14.IsWhole) (hc0 : ¬cond0_0 i) (hc1 : ¬cond0_1 i)
    (x0 : Vec F S1024x512 .bf16) (x1 : Vec F S1024x512 .bf16) (x2 : Vec F S1024x512 .bf16) (x3 : Vec F S1024x1024 .i32) (x4 : Vec F S1024x1 .f32) (x5 : Vec F S1024x1 .f32) (x6 : Vec F S1024x512 .bf16) (x7 : Vec F S1x512 .f32) (x8 : Vec F S1024x512 .f32) (xs0 : Vec F S1024x1 .f32) (xs1 : Vec F S1024x1 .f32) (xs2 : Vec F S1024x512 .f32) :
    Σ' (L9 : List (View.Piece (Elt F) S1024x512 .f32)) (LS0 : List (View.Piece (Elt F) S1024x1 .f32)) (LS1 : List (View.Piece (Elt F) S1024x1 .f32)), { LS2 : List (View.Piece (Elt F) S1024x512 .f32) //
      ∀ (xi9 : Vec F S1024x512 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare xi9 ∗ owns (c : Thread nD τ) arg12 fullShare xs0 ∗ owns (c : Thread nD τ) arg13 fullShare xs1 ∗ owns (c : Thread nD τ) arg14 fullShare xs2
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare xi9 ∗ (∃ f, arg12.view.loc (c : Thread nD τ) ↦[arg12.view.set]{fullShare} arg12.view.writes (Elt F) f LS0) ∗ (∃ f, arg13.view.loc (c : Thread nD τ) ↦[arg13.view.set]{fullShare} arg13.view.writes (Elt F) f LS1) ∗ (∃ f, arg14.view.loc (c : Thread nD τ) ↦[arg14.view.set]{fullShare} arg14.view.writes (Elt F) f LS2)) -∗ K ⟨⟩))
          ⊢ wp frame (wpE (defs₀ (F := F)) Variants.none c none) E (cc0__attn_kernel i arg2 harg2 arg3 harg3 arg4 harg4 arg5 harg5 arg6 harg6 arg7 harg7 arg8 harg8 arg9 harg9 arg10 harg10 arg11 harg11 arg12 harg12 arg13 harg13 arg14 harg14) K } := by
  refine ⟨[], ?_, ?_, ?_, fun xi9 E K => ?run⟩
  case run =>
    simp only [cc0__attn_kernel_eq_skeleton]; unfold cc0__attn_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hfs0; obtain rfl := harg13.eq_unread hfs1; obtain rfl := harg14.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [HS0]; · iexists _; iexact HS0
    isplitl [HS1]; · iexists _; iexact HS1
    iexists _; iexact HS2

end Cert.Kernel.Fr

end
-- ==== Proof.K.RunC.lean ====
/-
  The body's run at a last key tile (the second branch taken): the three running quantities are updated by this tile, and the accumulator divided by the denominator, joined with the masked input by a maximum, is stored into the result block.
  On whole staging buffers holding the inputs' blocks and the scratch buffers at what the point before left, the body runs to
  its end, leaves the inputs as they were and each buffer it stores into with its stores written; the lists of stores are
  what the symbolic run finds.
-/
import proofs.«419049_j49134425866853_3_alg».proof.Proof.K.RunB

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
noncomputable def kernelRun0_C (c : Dev nD) (i : grid0.Coords) (arg2 : Memref sig .tc .vmem S1024x512 .bf16) (harg2 : arg2.IsWhole) (arg3 : Memref sig .tc .vmem S1024x512 .bf16) (harg3 : arg3.IsWhole) (arg4 : Memref sig .tc .vmem S1024x512 .bf16) (harg4 : arg4.IsWhole) (arg5 : Memref sig .tc .vmem S1024x1024 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x512 .bf16) (harg8 : arg8.IsWhole) (arg9 : Memref sig .tc .vmem S1x512 .f32) (harg9 : arg9.IsWhole) (arg10 : Memref sig .tc .vmem S1024x512 .f32) (harg10 : arg10.IsWhole) (arg11 : Memref sig .tc .vmem S1024x512 .f32) (harg11 : arg11.IsWhole) (arg12 : Memref sig .tc .vmem S1024x1 .f32) (harg12 : arg12.IsWhole) (arg13 : Memref sig .tc .vmem S1024x1 .f32) (harg13 : arg13.IsWhole) (arg14 : Memref sig .tc .vmem S1024x512 .f32) (harg14 : arg14.IsWhole) (hc0 : ¬cond0_0 i) (hc1 : cond0_1 i)
    (x0 : Vec F S1024x512 .bf16) (x1 : Vec F S1024x512 .bf16) (x2 : Vec F S1024x512 .bf16) (x3 : Vec F S1024x1024 .i32) (x4 : Vec F S1024x1 .f32) (x5 : Vec F S1024x1 .f32) (x6 : Vec F S1024x512 .bf16) (x7 : Vec F S1x512 .f32) (x8 : Vec F S1024x512 .f32) (xs0 : Vec F S1024x1 .f32) (xs1 : Vec F S1024x1 .f32) (xs2 : Vec F S1024x512 .f32) :
    Σ' (L9 : List (View.Piece (Elt F) S1024x512 .f32)) (LS0 : List (View.Piece (Elt F) S1024x1 .f32)) (LS1 : List (View.Piece (Elt F) S1024x1 .f32)), { LS2 : List (View.Piece (Elt F) S1024x512 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ (∃ d, owns (c : Thread nD τ) arg11 fullShare d) ∗ owns (c : Thread nD τ) arg12 fullShare xs0 ∗ owns (c : Thread nD τ) arg13 fullShare xs1 ∗ owns (c : Thread nD τ) arg14 fullShare xs2
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ (∃ f, arg11.view.loc (c : Thread nD τ) ↦[arg11.view.set]{fullShare} arg11.view.writes (Elt F) f L9) ∗ (∃ f, arg12.view.loc (c : Thread nD τ) ↦[arg12.view.set]{fullShare} arg12.view.writes (Elt F) f LS0) ∗ (∃ f, arg13.view.loc (c : Thread nD τ) ↦[arg13.view.set]{fullShare} arg13.view.writes (Elt F) f LS1) ∗ (∃ f, arg14.view.loc (c : Thread nD τ) ↦[arg14.view.set]{fullShare} arg14.view.writes (Elt F) f LS2)) -∗ K ⟨⟩))
          ⊢ wp frame (wpE (defs₀ (F := F)) Variants.none c none) E (cc0__attn_kernel i arg2 harg2 arg3 harg3 arg4 harg4 arg5 harg5 arg6 harg6 arg7 harg7 arg8 harg8 arg9 harg9 arg10 harg10 arg11 harg11 arg12 harg12 arg13 harg13 arg14 harg14) K } := by
  refine ⟨?_, ?_, ?_, ?_, fun E K => ?run⟩
  case run =>
    simp only [cc0__attn_kernel_eq_skeleton]; unfold cc0__attn_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg12.eq_unread hfs0; obtain rfl := harg13.eq_unread hfs1; obtain rfl := harg14.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]; · iexists _; iexact H9
    isplitl [HS0]; · iexists _; iexact HS0
    isplitl [HS1]; · iexists _; iexact HS1
    iexists _; iexact HS2

end Cert.Kernel.Fr

end
-- ==== Proof.K.Frame.lean ====
/-
  The pipeline's proof data and run. After the body at grid point `t` (query tile `t / 8`, key tile `t % 8`) the three
  scratch buffers hold the running row maximum, the running denominator and the accumulator of the query tile over the
  key tiles seen so far; they are reset at a first key tile and carried from point to point otherwise, and at a last key
  tile the result block is stored. What each buffer holds is stated as the stores the body's run found, read back; the
  contents after each point are defined by recursion on the point.
-/
import proofs.«419049_j49134425866853_3_alg».proof.Proof.K.RunC

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The three cases of the body at a grid point -/

/-- The body's run at a first key tile, on the point's memrefs and input blocks. -/
abbrev runA (c : Dev nD) (t : Fin cfg0.N) (h0 : t.val % 8 = 0) (h1 : ¬t.val % 8 = 7) :=
  kernelRun0_A (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t)
/-- The body's run at a middle key tile, the scratch buffers at `xs·`. -/
abbrev runB (c : Dev nD) (t : Fin cfg0.N) (h0 : ¬t.val % 8 = 0) (h1 : ¬t.val % 8 = 7) (xs0 : Vec F S1024x1 .f32) (xs1 : Vec F S1024x1 .f32) (xs2 : Vec F S1024x512 .f32) :=
  kernelRun0_B (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (iblk m c 8 t) xs0 xs1 xs2
/-- The body's run at a last key tile, the scratch buffers at `xs·`. -/
abbrev runC (c : Dev nD) (t : Fin cfg0.N) (h0 : ¬t.val % 8 = 0) (h1 : t.val % 8 = 7) (xs0 : Vec F S1024x1 .f32) (xs1 : Vec F S1024x1 .f32) (xs2 : Vec F S1024x512 .f32) :=
  kernelRun0_C (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) xs0 xs1 xs2

/-- What a first key tile leaves: the result buffer's placeholder (nothing is stored there), then the three scratch
    buffers' stores read back. -/
def outA (c : Dev nD) (t : Fin cfg0.N) (h0 : t.val % 8 = 0) (h1 : ¬t.val % 8 = 7) : Vec F S1024x512 .f32 × Vec F S1024x1 .f32 × Vec F S1024x1 .f32 × Vec F S1024x512 .f32 :=
  (VO0_9.read (Elt F) (VO0_9.writes (Elt F) VO0_9.junk (runA m c t h0 h1).1),
    VS0_0.read (Elt F) (VS0_0.writes (Elt F) VS0_0.junk (runA m c t h0 h1).2.1),
    VS0_1.read (Elt F) (VS0_1.writes (Elt F) VS0_1.junk (runA m c t h0 h1).2.2.1),
    VS0_2.read (Elt F) (VS0_2.writes (Elt F) VS0_2.junk (runA m c t h0 h1).2.2.2.1))
/-- What a middle key tile leaves. -/
def outB (c : Dev nD) (t : Fin cfg0.N) (h0 : ¬t.val % 8 = 0) (h1 : ¬t.val % 8 = 7) (xs0 : Vec F S1024x1 .f32) (xs1 : Vec F S1024x1 .f32) (xs2 : Vec F S1024x512 .f32) : Vec F S1024x512 .f32 × Vec F S1024x1 .f32 × Vec F S1024x1 .f32 × Vec F S1024x512 .f32 :=
  (VO0_9.read (Elt F) (VO0_9.writes (Elt F) VO0_9.junk (runB m c t h0 h1 xs0 xs1 xs2).1),
    VS0_0.read (Elt F) (VS0_0.writes (Elt F) VS0_0.junk (runB m c t h0 h1 xs0 xs1 xs2).2.1),
    VS0_1.read (Elt F) (VS0_1.writes (Elt F) VS0_1.junk (runB m c t h0 h1 xs0 xs1 xs2).2.2.1),
    VS0_2.read (Elt F) (VS0_2.writes (Elt F) VS0_2.junk (runB m c t h0 h1 xs0 xs1 xs2).2.2.2.1))
/-- What a last key tile leaves: the result block, then the scratch buffers. -/
def outC (c : Dev nD) (t : Fin cfg0.N) (h0 : ¬t.val % 8 = 0) (h1 : t.val % 8 = 7) (xs0 : Vec F S1024x1 .f32) (xs1 : Vec F S1024x1 .f32) (xs2 : Vec F S1024x512 .f32) : Vec F S1024x512 .f32 × Vec F S1024x1 .f32 × Vec F S1024x1 .f32 × Vec F S1024x512 .f32 :=
  (VO0_9.read (Elt F) (VO0_9.writes (Elt F) VO0_9.junk (runC m c t h0 h1 xs0 xs1 xs2).1),
    VS0_0.read (Elt F) (VS0_0.writes (Elt F) VS0_0.junk (runC m c t h0 h1 xs0 xs1 xs2).2.1),
    VS0_1.read (Elt F) (VS0_1.writes (Elt F) VS0_1.junk (runC m c t h0 h1 xs0 xs1 xs2).2.2.1),
    VS0_2.read (Elt F) (VS0_2.writes (Elt F) VS0_2.junk (runC m c t h0 h1 xs0 xs1 xs2).2.2.2.1))

/-! ## The stores of each case cover the buffer they are made into -/

theorem scoverA_0 (c : Dev nD) (t : Fin cfg0.N) (h0 : t.val % 8 = 0) (h1 : ¬t.val % 8 = 7) (y : S1024x1.Idx) :
    ∃ pc ∈ (runA m c t h0 h1).2.1, y ∈ pc.1.set :=
  View.cover_of_tiledL (runA m c t h0 h1).2.1 S1024x1.size (by sl_kernel_rfl) y
theorem scoverA_1 (c : Dev nD) (t : Fin cfg0.N) (h0 : t.val % 8 = 0) (h1 : ¬t.val % 8 = 7) (y : S1024x1.Idx) :
    ∃ pc ∈ (runA m c t h0 h1).2.2.1, y ∈ pc.1.set :=
  View.cover_of_tiledL (runA m c t h0 h1).2.2.1 S1024x1.size (by sl_kernel_rfl) y
theorem scoverA_2 (c : Dev nD) (t : Fin cfg0.N) (h0 : t.val % 8 = 0) (h1 : ¬t.val % 8 = 7) (y : S1024x512.Idx) :
    ∃ pc ∈ (runA m c t h0 h1).2.2.2.1, y ∈ pc.1.set :=
  View.cover_of_tiledL (runA m c t h0 h1).2.2.2.1 S1024x512.size (by sl_kernel_rfl) y
theorem scoverB_0 (c : Dev nD) (t : Fin cfg0.N) (h0 : ¬t.val % 8 = 0) (h1 : ¬t.val % 8 = 7) (xs0 : Vec F S1024x1 .f32) (xs1 : Vec F S1024x1 .f32) (xs2 : Vec F S1024x512 .f32) (y : S1024x1.Idx) :
    ∃ pc ∈ (runB m c t h0 h1 xs0 xs1 xs2).2.1, y ∈ pc.1.set :=
  View.cover_of_tiledL (runB m c t h0 h1 xs0 xs1 xs2).2.1 S1024x1.size (by sl_kernel_rfl) y
theorem scoverB_1 (c : Dev nD) (t : Fin cfg0.N) (h0 : ¬t.val % 8 = 0) (h1 : ¬t.val % 8 = 7) (xs0 : Vec F S1024x1 .f32) (xs1 : Vec F S1024x1 .f32) (xs2 : Vec F S1024x512 .f32) (y : S1024x1.Idx) :
    ∃ pc ∈ (runB m c t h0 h1 xs0 xs1 xs2).2.2.1, y ∈ pc.1.set :=
  View.cover_of_tiledL (runB m c t h0 h1 xs0 xs1 xs2).2.2.1 S1024x1.size (by sl_kernel_rfl) y
theorem scoverB_2 (c : Dev nD) (t : Fin cfg0.N) (h0 : ¬t.val % 8 = 0) (h1 : ¬t.val % 8 = 7) (xs0 : Vec F S1024x1 .f32) (xs1 : Vec F S1024x1 .f32) (xs2 : Vec F S1024x512 .f32) (y : S1024x512.Idx) :
    ∃ pc ∈ (runB m c t h0 h1 xs0 xs1 xs2).2.2.2.1, y ∈ pc.1.set :=
  View.cover_of_tiledL (runB m c t h0 h1 xs0 xs1 xs2).2.2.2.1 S1024x512.size (by sl_kernel_rfl) y
theorem scoverC_0 (c : Dev nD) (t : Fin cfg0.N) (h0 : ¬t.val % 8 = 0) (h1 : t.val % 8 = 7) (xs0 : Vec F S1024x1 .f32) (xs1 : Vec F S1024x1 .f32) (xs2 : Vec F S1024x512 .f32) (y : S1024x1.Idx) :
    ∃ pc ∈ (runC m c t h0 h1 xs0 xs1 xs2).2.1, y ∈ pc.1.set :=
  View.cover_of_tiledL (runC m c t h0 h1 xs0 xs1 xs2).2.1 S1024x1.size (by sl_kernel_rfl) y
theorem scoverC_1 (c : Dev nD) (t : Fin cfg0.N) (h0 : ¬t.val % 8 = 0) (h1 : t.val % 8 = 7) (xs0 : Vec F S1024x1 .f32) (xs1 : Vec F S1024x1 .f32) (xs2 : Vec F S1024x512 .f32) (y : S1024x1.Idx) :
    ∃ pc ∈ (runC m c t h0 h1 xs0 xs1 xs2).2.2.1, y ∈ pc.1.set :=
  View.cover_of_tiledL (runC m c t h0 h1 xs0 xs1 xs2).2.2.1 S1024x1.size (by sl_kernel_rfl) y
theorem scoverC_2 (c : Dev nD) (t : Fin cfg0.N) (h0 : ¬t.val % 8 = 0) (h1 : t.val % 8 = 7) (xs0 : Vec F S1024x1 .f32) (xs1 : Vec F S1024x1 .f32) (xs2 : Vec F S1024x512 .f32) (y : S1024x512.Idx) :
    ∃ pc ∈ (runC m c t h0 h1 xs0 xs1 xs2).2.2.2.1, y ∈ pc.1.set :=
  View.cover_of_tiledL (runC m c t h0 h1 xs0 xs1 xs2).2.2.2.1 S1024x512.size (by sl_kernel_rfl) y
theorem coverC_9 (c : Dev nD) (t : Fin cfg0.N) (h0 : ¬t.val % 8 = 0) (h1 : t.val % 8 = 7) (xs0 : Vec F S1024x1 .f32) (xs1 : Vec F S1024x1 .f32) (xs2 : Vec F S1024x512 .f32) (y : S1024x512.Idx) :
    ∃ pc ∈ (runC m c t h0 h1 xs0 xs1 xs2).1, y ∈ pc.1.set :=
  View.cover_of_tiledL (runC m c t h0 h1 xs0 xs1 xs2).1 S1024x512.size (by sl_kernel_rfl) y

/-! ## What the buffers hold after each point -/

/-- The result buffer and the three scratch buffers after the body at position `n`: the case the point is in, run on
    what the point before left in the scratch buffers. -/
def outsAt0 (c : Dev nD) : (n : ℕ) → n < cfg0.N → Vec F S1024x512 .f32 × Vec F S1024x1 .f32 × Vec F S1024x1 .f32 × Vec F S1024x512 .f32
  | 0, hn => outA m c ⟨0, hn⟩ (Nat.zero_mod _) (by simp)
  | n + 1, hn =>
    if h0 : (n + 1) % 8 = 0 then
      if h1 : (n + 1) % 8 = 7 then
        False.elim (by omega)
      else
        outA m c ⟨n + 1, hn⟩ h0 h1
    else
      if h1 : (n + 1) % 8 = 7 then
        outC m c ⟨n + 1, hn⟩ h0 h1 (outsAt0 c n (Nat.lt_of_succ_lt hn)).2.1 (outsAt0 c n (Nat.lt_of_succ_lt hn)).2.2.1 (outsAt0 c n (Nat.lt_of_succ_lt hn)).2.2.2
      else
        outB m c ⟨n + 1, hn⟩ h0 h1 (outsAt0 c n (Nat.lt_of_succ_lt hn)).2.1 (outsAt0 c n (Nat.lt_of_succ_lt hn)).2.2.1 (outsAt0 c n (Nat.lt_of_succ_lt hn)).2.2.2

/-- What the point before `t` left (at `t = 0` this is the point itself, and is not used). -/
abbrev prevAt (c : Dev nD) (t : Fin cfg0.N) : Vec F S1024x512 .f32 × Vec F S1024x1 .f32 × Vec F S1024x1 .f32 × Vec F S1024x512 .f32 :=
  outsAt0 m c (t.val - 1) (Nat.lt_of_le_of_lt (Nat.sub_le _ _) t.isLt)

theorem outsAt0_A (c : Dev nD) (t : Fin cfg0.N) (h0 : t.val % 8 = 0) (h1 : ¬t.val % 8 = 7) :
    outsAt0 m c t.val t.isLt = outA m c t h0 h1 := by
  obtain ⟨n, hn⟩ := t
  cases n with
  | zero => exact rfl
  | succ n => exact (dif_pos h0).trans ((dif_neg h1).trans rfl)

theorem outsAt0_B (c : Dev nD) (t : Fin cfg0.N) (h0 : ¬t.val % 8 = 0) (h1 : ¬t.val % 8 = 7) :
    outsAt0 m c t.val t.isLt = outB m c t h0 h1 (prevAt m c t).2.1 (prevAt m c t).2.2.1 (prevAt m c t).2.2.2 := by
  obtain ⟨n, hn⟩ := t
  cases n with
  | zero => exact (by exfalso; (try dsimp only at h0); exact absurd (Nat.zero_mod _) h0)
  | succ n => exact (dif_neg h0).trans ((dif_neg h1).trans rfl)

theorem outsAt0_C (c : Dev nD) (t : Fin cfg0.N) (h0 : ¬t.val % 8 = 0) (h1 : t.val % 8 = 7) :
    outsAt0 m c t.val t.isLt = outC m c t h0 h1 (prevAt m c t).2.1 (prevAt m c t).2.2.1 (prevAt m c t).2.2.2 := by
  obtain ⟨n, hn⟩ := t
  cases n with
  | zero => exact (by exfalso; (try dsimp only at h0); exact absurd (Nat.zero_mod _) h0)
  | succ n => exact (dif_neg h0).trans ((dif_pos h1).trans rfl)

/-- The pipeline's invariant before position `n`: before the first point the scratch buffers hold anything; afterwards
    each holds what the point before left in it. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2.1) ∗ owns (c : Thread nD τ) scM0_1 fullShare ((outsAt0 m c n hn).2.2.1) ∗ owns (c : Thread nD τ) scM0_2 fullShare ((outsAt0 m c n hn).2.2.2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare ((outsAt0 m c n hn).2.1) ∗ owns (c : Thread nD τ) scM0_1 fullShare ((outsAt0 m c n hn).2.2.1) ∗ owns (c : Thread nD τ) scM0_2 fullShare ((outsAt0 m c n hn).2.2.2)) ∗ (∃ r, prngReg c r)) := rfl

theorem PhiS_pos (c : Dev nD) (n : ℕ) (h : n ≤ cfg0.N) (hz : n ≠ 0) :
    PhiS m c n h = iprop(iprop(owns (c : Thread nD τ) scM0_0 fullShare ((outsAt0 m c (n - 1) (by omega)).2.1) ∗ owns (c : Thread nD τ) scM0_1 fullShare ((outsAt0 m c (n - 1) (by omega)).2.2.1) ∗ owns (c : Thread nD τ) scM0_2 fullShare ((outsAt0 m c (n - 1) (by omega)).2.2.2)) ∗ (∃ r, prngReg c r)) := by
  cases n with
  | zero => exact absurd rfl hz
  | succ n => rfl

/-! ## The pipeline's proof data -/

/-- The arrays as the pipeline finds them; after the body each input's buffer at its block and the result's at
    `outsAt0`; the invariant `PhiS`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => (outsAt0 m c t.val t.isLt).1
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = (outsAt0 m c t.val t.isLt).1 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t)

set_option maxHeartbeats 8000000 in
/-- The body at any point: the inputs' buffers hold their blocks; the point's residue modulo 8 says which case it is in;
    the invariant hands the body the scratch buffers (at anything before the first point, at what the point before left
    otherwise) and takes them back at this point's contents. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8]
  rw [show (dats m 0 c).owesAt () t.succ = (dats m 0 c).owesAt () t.castSucc from rfl]
  rw [show (dats m 0 c).Φ t.succ = PhiS m c (t.val + 1) t.isLt from rfl, PhiS_succ]
  have hN : t.val < 64 := lt_of_lt_of_eq t.isLt (show cfg0.N = 64 from N_0)
  by_cases h0 : t.val % 8 = 0
  · by_cases h1 : t.val % 8 = 7
    · exfalso; omega
    ·
      rw [show (dats m 0 c).leavesExact 0 t = owns (c : Thread nD τ) (ms0_0 t) fullShare ((dats m 0 c).after 0 t) from by
        unfold Dat.leavesExact; rw [liveAt0_0 t], after0_0]
      rw [show (dats m 0 c).leavesExact 1 t = owns (c : Thread nD τ) (ms0_1 t) fullShare ((dats m 0 c).after 1 t) from by
        unfold Dat.leavesExact; rw [liveAt0_1 t], after0_1]
      rw [show (dats m 0 c).leavesExact 2 t = owns (c : Thread nD τ) (ms0_2 t) fullShare ((dats m 0 c).after 2 t) from by
        unfold Dat.leavesExact; rw [liveAt0_2 t], after0_2]
      rw [show (dats m 0 c).leavesExact 3 t = owns (c : Thread nD τ) (ms0_3 t) fullShare ((dats m 0 c).after 3 t) from by
        unfold Dat.leavesExact; rw [liveAt0_3 t], after0_3]
      rw [show (dats m 0 c).leavesExact 4 t = owns (c : Thread nD τ) (ms0_4 t) fullShare ((dats m 0 c).after 4 t) from by
        unfold Dat.leavesExact; rw [liveAt0_4 t], after0_4]
      rw [show (dats m 0 c).leavesExact 5 t = owns (c : Thread nD τ) (ms0_5 t) fullShare ((dats m 0 c).after 5 t) from by
        unfold Dat.leavesExact; rw [liveAt0_5 t], after0_5]
      rw [show (dats m 0 c).leavesExact 6 t = owns (c : Thread nD τ) (ms0_6 t) fullShare ((dats m 0 c).after 6 t) from by
        unfold Dat.leavesExact; rw [liveAt0_6 t], after0_6]
      rw [show (dats m 0 c).leavesExact 7 t = owns (c : Thread nD τ) (ms0_7 t) fullShare ((dats m 0 c).after 7 t) from by
        unfold Dat.leavesExact; rw [liveAt0_7 t], after0_7]
      rw [show (dats m 0 c).leavesExact 8 t = owns (c : Thread nD τ) (ms0_8 t) fullShare ((dats m 0 c).after 8 t) from by
        unfold Dat.leavesExact; rw [liveAt0_8 t], after0_8]
      rw [Dat.leavesExact_idle (dats m 0 c) 9 t (idleAt0_9_A t ((hcond0_0 t).mpr h0) (fun h => h1 ((hcond0_1 t).mp h))) (noFlush0_9_A t ((hcond0_0 t).mpr h0) (fun h => h1 ((hcond0_1 t).mp h)))]
      rw [outsAt0_A m c t h0 h1]
      unfold outA; (try dsimp only)
      by_cases hz : t.val = 0
      · rw [PhiS_castSucc m c t, PhiS_zero m c _ _ hz, PhiA0_eq]
        iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
        iapply ((runA m c t h0 h1).2.2.2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [HS0]; · iexact HS0
        isplitl [HS1]; · iexact HS1
        isplitl [HS2]; · iexact HS2
        iintro ⟨H0, H1, H2, H3, H4, H5, H6, H7, H8, H9, ⟨%es0, HS0⟩, ⟨%es1, HS1⟩, ⟨%es2, HS2⟩⟩
        isplitl [HS0 HS1 HS2 Hg]
        · isplitl [HS0 HS1 HS2]
          · isplitl [HS0]
            · unfold owns; iexists _; isplitr
              swap; · iexact HS0
              ipureintro; exact View.read_writes_of_cover _ _ _ _ _ (scoverA_0 m c t h0 h1)
            isplitl [HS1]
            · unfold owns; iexists _; isplitr
              swap; · iexact HS1
              ipureintro; exact View.read_writes_of_cover _ _ _ _ _ (scoverA_1 m c t h0 h1)
            unfold owns; iexists _; isplitr
            swap; · iexact HS2
            ipureintro; exact View.read_writes_of_cover _ _ _ _ _ (scoverA_2 m c t h0 h1)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        iexists _; iexact H9
      · rw [PhiS_castSucc m c t, PhiS_pos m c _ _ hz]
        iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
        iapply ((runA m c t h0 h1).2.2.2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [HS0]; · iexists _; iexact HS0
        isplitl [HS1]; · iexists _; iexact HS1
        isplitl [HS2]; · iexists _; iexact HS2
        iintro ⟨H0, H1, H2, H3, H4, H5, H6, H7, H8, H9, ⟨%es0, HS0⟩, ⟨%es1, HS1⟩, ⟨%es2, HS2⟩⟩
        isplitl [HS0 HS1 HS2 Hg]
        · isplitl [HS0 HS1 HS2]
          · isplitl [HS0]
            · unfold owns; iexists _; isplitr
              swap; · iexact HS0
              ipureintro; exact View.read_writes_of_cover _ _ _ _ _ (scoverA_0 m c t h0 h1)
            isplitl [HS1]
            · unfold owns; iexists _; isplitr
              swap; · iexact HS1
              ipureintro; exact View.read_writes_of_cover _ _ _ _ _ (scoverA_1 m c t h0 h1)
            unfold owns; iexists _; isplitr
            swap; · iexact HS2
            ipureintro; exact View.read_writes_of_cover _ _ _ _ _ (scoverA_2 m c t h0 h1)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        iexists _; iexact H9
  · by_cases h1 : t.val % 8 = 7
    ·
      rw [show (dats m 0 c).leavesExact 0 t = owns (c : Thread nD τ) (ms0_0 t) fullShare ((dats m 0 c).after 0 t) from by
        unfold Dat.leavesExact; rw [liveAt0_0 t], after0_0]
      rw [show (dats m 0 c).leavesExact 1 t = owns (c : Thread nD τ) (ms0_1 t) fullShare ((dats m 0 c).after 1 t) from by
        unfold Dat.leavesExact; rw [liveAt0_1 t], after0_1]
      rw [show (dats m 0 c).leavesExact 2 t = owns (c : Thread nD τ) (ms0_2 t) fullShare ((dats m 0 c).after 2 t) from by
        unfold Dat.leavesExact; rw [liveAt0_2 t], after0_2]
      rw [show (dats m 0 c).leavesExact 3 t = owns (c : Thread nD τ) (ms0_3 t) fullShare ((dats m 0 c).after 3 t) from by
        unfold Dat.leavesExact; rw [liveAt0_3 t], after0_3]
      rw [show (dats m 0 c).leavesExact 4 t = owns (c : Thread nD τ) (ms0_4 t) fullShare ((dats m 0 c).after 4 t) from by
        unfold Dat.leavesExact; rw [liveAt0_4 t], after0_4]
      rw [show (dats m 0 c).leavesExact 5 t = owns (c : Thread nD τ) (ms0_5 t) fullShare ((dats m 0 c).after 5 t) from by
        unfold Dat.leavesExact; rw [liveAt0_5 t], after0_5]
      rw [show (dats m 0 c).leavesExact 6 t = owns (c : Thread nD τ) (ms0_6 t) fullShare ((dats m 0 c).after 6 t) from by
        unfold Dat.leavesExact; rw [liveAt0_6 t], after0_6]
      rw [show (dats m 0 c).leavesExact 7 t = owns (c : Thread nD τ) (ms0_7 t) fullShare ((dats m 0 c).after 7 t) from by
        unfold Dat.leavesExact; rw [liveAt0_7 t], after0_7]
      rw [show (dats m 0 c).leavesExact 8 t = owns (c : Thread nD τ) (ms0_8 t) fullShare ((dats m 0 c).after 8 t) from by
        unfold Dat.leavesExact; rw [liveAt0_8 t], after0_8]
      rw [show (dats m 0 c).leavesExact 9 t = owns (c : Thread nD τ) (ms0_9 t) fullShare ((dats m 0 c).after 9 t) from by
        unfold Dat.leavesExact; rw [liveAt0_9_C t (fun h => h0 ((hcond0_0 t).mp h)) ((hcond0_1 t).mpr h1)], after0_9]
      rw [outsAt0_C m c t h0 h1]
      unfold outC; (try dsimp only)
      have hz : t.val ≠ 0 := by omega
      rw [PhiS_castSucc m c t, PhiS_pos m c _ _ hz]
      iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      iapply ((runC m c t h0 h1 _ _ _).2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexists _; iexact H9
      isplitl [HS0]; · iexact HS0
      isplitl [HS1]; · iexact HS1
      isplitl [HS2]; · iexact HS2
      iintro ⟨H0, H1, H2, H3, H4, H5, H6, H7, H8, ⟨%e9, H9⟩, ⟨%es0, HS0⟩, ⟨%es1, HS1⟩, ⟨%es2, HS2⟩⟩
      isplitl [HS0 HS1 HS2 Hg]
      · isplitl [HS0 HS1 HS2]
        · isplitl [HS0]
          · unfold owns; iexists _; isplitr
            swap; · iexact HS0
            ipureintro; exact View.read_writes_of_cover _ _ _ _ _ (scoverC_0 m c t h0 h1 _ _ _)
          isplitl [HS1]
          · unfold owns; iexists _; isplitr
            swap; · iexact HS1
            ipureintro; exact View.read_writes_of_cover _ _ _ _ _ (scoverC_1 m c t h0 h1 _ _ _)
          unfold owns; iexists _; isplitr
          swap; · iexact HS2
          ipureintro; exact View.read_writes_of_cover _ _ _ _ _ (scoverC_2 m c t h0 h1 _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      unfold owns; iexists _; isplitr
      swap; · iexact H9
      ipureintro; exact View.read_writes_of_cover _ _ _ _ _ (coverC_9 m c t h0 h1 _ _ _)
    ·
      rw [show (dats m 0 c).leavesExact 0 t = owns (c : Thread nD τ) (ms0_0 t) fullShare ((dats m 0 c).after 0 t) from by
        unfold Dat.leavesExact; rw [liveAt0_0 t], after0_0]
      rw [show (dats m 0 c).leavesExact 1 t = owns (c : Thread nD τ) (ms0_1 t) fullShare ((dats m 0 c).after 1 t) from by
        unfold Dat.leavesExact; rw [liveAt0_1 t], after0_1]
      rw [show (dats m 0 c).leavesExact 2 t = owns (c : Thread nD τ) (ms0_2 t) fullShare ((dats m 0 c).after 2 t) from by
        unfold Dat.leavesExact; rw [liveAt0_2 t], after0_2]
      rw [show (dats m 0 c).leavesExact 3 t = owns (c : Thread nD τ) (ms0_3 t) fullShare ((dats m 0 c).after 3 t) from by
        unfold Dat.leavesExact; rw [liveAt0_3 t], after0_3]
      rw [show (dats m 0 c).leavesExact 4 t = owns (c : Thread nD τ) (ms0_4 t) fullShare ((dats m 0 c).after 4 t) from by
        unfold Dat.leavesExact; rw [liveAt0_4 t], after0_4]
      rw [show (dats m 0 c).leavesExact 5 t = owns (c : Thread nD τ) (ms0_5 t) fullShare ((dats m 0 c).after 5 t) from by
        unfold Dat.leavesExact; rw [liveAt0_5 t], after0_5]
      rw [show (dats m 0 c).leavesExact 6 t = owns (c : Thread nD τ) (ms0_6 t) fullShare ((dats m 0 c).after 6 t) from by
        unfold Dat.leavesExact; rw [liveAt0_6 t], after0_6]
      rw [show (dats m 0 c).leavesExact 7 t = owns (c : Thread nD τ) (ms0_7 t) fullShare ((dats m 0 c).after 7 t) from by
        unfold Dat.leavesExact; rw [liveAt0_7 t], after0_7]
      rw [show (dats m 0 c).leavesExact 8 t = owns (c : Thread nD τ) (ms0_8 t) fullShare ((dats m 0 c).after 8 t) from by
        unfold Dat.leavesExact; rw [liveAt0_8 t], after0_8]
      rw [Dat.leavesExact_idle (dats m 0 c) 9 t (idleAt0_9_B t (fun h => h0 ((hcond0_0 t).mp h)) (fun h => h1 ((hcond0_1 t).mp h))) (noFlush0_9_B t (fun h => h0 ((hcond0_0 t).mp h)) (fun h => h1 ((hcond0_1 t).mp h)))]
      rw [outsAt0_B m c t h0 h1]
      unfold outB; (try dsimp only)
      have hz : t.val ≠ 0 := by omega
      rw [PhiS_castSucc m c t, PhiS_pos m c _ _ hz]
      iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      iapply ((runB m c t h0 h1 _ _ _).2.2.2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [HS0]; · iexact HS0
      isplitl [HS1]; · iexact HS1
      isplitl [HS2]; · iexact HS2
      iintro ⟨H0, H1, H2, H3, H4, H5, H6, H7, H8, H9, ⟨%es0, HS0⟩, ⟨%es1, HS1⟩, ⟨%es2, HS2⟩⟩
      isplitl [HS0 HS1 HS2 Hg]
      · isplitl [HS0 HS1 HS2]
        · isplitl [HS0]
          · unfold owns; iexists _; isplitr
            swap; · iexact HS0
            ipureintro; exact View.read_writes_of_cover _ _ _ _ _ (scoverB_0 m c t h0 h1 _ _ _)
          isplitl [HS1]
          · unfold owns; iexists _; isplitr
            swap; · iexact HS1
            ipureintro; exact View.read_writes_of_cover _ _ _ _ _ (scoverB_1 m c t h0 h1 _ _ _)
          unfold owns; iexists _; isplitr
          swap; · iexact HS2
          ipureintro; exact View.read_writes_of_cover _ _ _ _ _ (scoverB_2 m c t h0 h1 _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      iexists _; iexact H9

/-- The library's body obligation, at every point. -/
theorem body_obligation (c : Dev nD) : BodyObligation (dats (F := F) m 0 c) (defs₀ (F := F)) Variants.none () Set.univ := fun t => by
  rw [bigSep_W0, bigSep_W0]
  exact sound_body m c t

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1, HS2⟩, Hg⟩
  isplitl [HS0 HS1 HS2]
  · isplitl [HS0]; · iexists _; iexact HS0
    isplitl [HS1]; · iexists _; iexact HS1
    iexists _; iexact HS2
  iexact Hg

theorem hout (c : Dev nD) : (dats m 0 c).Φ (Fin.last cfg0.N) ⊢ Pipeline.ΦA spec0 c :=
  Phi_out m c _ (by rw [Fin.val_last]; have : cfg0.N = 64 := N_0; omega)

/-! ## The run and the frame -/

set_option backward.isDefEq.respectTransparency.types false in
/-- Every weakly fair execution of the entry point terminates, with every array of the pipeline at what the proof data
    computes and every other buffer as the pipeline found it. -/
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The frame: the program runs to its end without a fault and its arguments end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  frame_of m ρ (dats m) (A_eq m) (run_main m ρ)

end Cert.Kernel.Fr

end
-- ==== Proof.KI.Kit.lean ====
/-
  The kernel's launch as the region finds it: what every buffer holds when the pipeline starts (the host
  operations before it applied to the launch memory), that no host operation overwrites an argument, each window's
  block at a grid point, where the two branches of the body are taken over the 8 × 8 grid (the first key tile of a
  row of query tiles resets the running maximum, the running denominator and the accumulator; the last one divides
  and writes the result), and where the result window is idle.
-/
import proofs.«419049_j49134425866853_3_alg».proof.Proof.Gen.KernelIdeal.Launch
import proofs.«419049_j49134425866853_3_alg».proof.Proof.Gen.KernelIdeal.Skeleton
import proofs.«419049_j49134425866853_3_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host operations before the pipeline -/

/-- What core `c`'s buffers hold when the pipeline starts: the launch memory after the host operations. -/
abbrev V (c : Dev nD) (b : Ref sig .tc) : Buf (Elt F) ((c : Thread nD τ).loc b) :=
  StableHlo.after hostOps0 (fun b => m (c, b)) b

theorem hostOps0_fresh : (hostOps0 : List (HloOp τ sig (Elt F))).Forall fun op => op.fresh = ∅ := by
  simp only [List.Forall]; repeat' constructor

/-- The entry point is the host operations followed by the pipeline. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation writes argument 0. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))
/-- No host operation writes argument 1. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))
/-- No host operation writes argument 2. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))
/-- No host operation writes argument 3. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))
/-- No host operation writes argument 4. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))
/-- No host operation writes argument 5. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))
/-- No host operation writes argument 6. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))
/-- No host operation writes argument 7. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))
/-- No host operation writes argument 8. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))
/-- No host operation writes argument 9. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))
/-- No host operation writes argument 10. -/
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))
/-- No host operation writes argument 11. -/
theorem V_main_arg11 (c : Dev nD) : V m c main_arg11 = m ((c : Thread nD τ).loc main_arg11) :=
  StableHlo.after_of_forall_not_mem (b := Proc.devRef .tc main_arg11) _ _ (List.forall_iff_forall_mem.mp (by
    simp only [hostOps0, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))
/-- No host operation writes argument 12. -/
theorem V_main_arg12 (c : Dev nD) : V m c main_arg12 = m ((c : Thread nD τ).loc main_arg12) :=
  StableHlo.after_of_forall_not_mem (b := Proc.devRef .tc main_arg12) _ _ (List.forall_iff_forall_mem.mp (by
    simp only [hostOps0, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))
/-- No host operation writes argument 13. -/
theorem V_main_arg13 (c : Dev nD) : V m c main_arg13 = m ((c : Thread nD τ).loc main_arg13) :=
  StableHlo.after_of_forall_not_mem (b := Proc.devRef .tc main_arg13) _ _ (List.forall_iff_forall_mem.mp (by
    simp only [hostOps0, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))

/-! ## The windows' blocks -/

/-- Window `w`'s block at grid point `t`, cut out of its array as the pipeline finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's staging buffer holds its block at every grid point, fetched there or kept from the point before. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's staging buffer holds its block at every grid point, fetched there or kept from the point before. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's staging buffer holds its block at every grid point, fetched there or kept from the point before. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's staging buffer holds its block at every grid point, fetched there or kept from the point before. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's staging buffer holds its block at every grid point, fetched there or kept from the point before. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's staging buffer holds its block at every grid point, fetched there or kept from the point before. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's staging buffer holds its block at every grid point, fetched there or kept from the point before. -/
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Input window 7's staging buffer holds its block at every grid point, fetched there or kept from the point before. -/
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
/-- Input window 8's staging buffer holds its block at every grid point, fetched there or kept from the point before. -/
theorem before0_8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)

/-! ## The arguments after a run of the pipeline -/

/-- From a run of the pipeline to its post, the argument arrays end as launched: the third argument is a window's
    array and an input's array is never written; the others are staged by no window and keep what the pipeline found. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun _ h c => ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).1 8).trans (((dats 0 c).arrAt_in 8 rfl _).trans ((hA c 8).trans (V_main_arg2 m c))),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c),
      ((h c).2 main_arg11 (Pipeline.mem_restRefs_of main_arg11 (by decide) (by decide))).trans (V_main_arg11 m c),
      ((h c).2 main_arg12 (Pipeline.mem_restRefs_of main_arg12 (by decide) (by decide))).trans (V_main_arg12 m c),
      ((h c).2 main_arg13 (Pipeline.mem_restRefs_of main_arg13 (by decide) (by decide))).trans (V_main_arg13 m c)⟩) h

/-! ## The body's two branches over the grid -/

/-- The first branch's condition (this key tile is the first of its row of query tiles), from the grid coordinates. -/
abbrev cond0_0 (i : grid0.Coords) : Prop := (Scalar.cmpi .ne (Scalar.extui (Scalar.cmpi .eq (BitVec.ofNat 32 (i 1).val) 0#32)) 0#32) = 1#1
/-- It holds at the points ≡ 0 (mod 8). -/
theorem hcond0_0 : ∀ t : Fin cfg0.N, cond0_0 (grid0.coords t) ↔ t.val % 8 = 0 :=
  (by decide +kernel : ∀ t : Fin grid0.N, cond0_0 (grid0.coords t) ↔ t.val % 8 = 0)

/-- The second branch's condition (this key tile is the last of its row). -/
abbrev cond0_1 (i : grid0.Coords) : Prop := k0_cond2 i = 1#1
/-- It holds at the points ≡ 7 (mod 8). -/
theorem hcond0_1 : ∀ t : Fin cfg0.N, cond0_1 (grid0.coords t) ↔ t.val % 8 = 7 :=
  (by decide +kernel : ∀ t : Fin grid0.N, cond0_1 (grid0.coords t) ↔ t.val % 8 = 7)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cfg0.idle 4 (grid0.coords t) = false := by decide +kernel
theorem liveAt0_5 : ∀ t : Fin cfg0.N, cfg0.idle 5 (grid0.coords t) = false := by decide +kernel
theorem liveAt0_6 : ∀ t : Fin cfg0.N, cfg0.idle 6 (grid0.coords t) = false := by decide +kernel
theorem liveAt0_7 : ∀ t : Fin cfg0.N, cfg0.idle 7 (grid0.coords t) = false := by decide +kernel
theorem liveAt0_8 : ∀ t : Fin cfg0.N, cfg0.idle 8 (grid0.coords t) = false := by decide +kernel
/-- At a first key tile the result window is idle (nothing is stored into it) and is not written back. -/
theorem idleAt0_9_A : ∀ t : Fin cfg0.N, cond0_0 (grid0.coords t) → ¬cond0_1 (grid0.coords t) → cfg0.idle 9 (grid0.coords t) = true := by decide +kernel
theorem noFlush0_9_A : ∀ t : Fin cfg0.N, cond0_0 (grid0.coords t) → ¬cond0_1 (grid0.coords t) → (cfg0.win 9).flush t = false := by decide +kernel
/-- At a middle key tile likewise. -/
theorem idleAt0_9_B : ∀ t : Fin cfg0.N, ¬cond0_0 (grid0.coords t) → ¬cond0_1 (grid0.coords t) → cfg0.idle 9 (grid0.coords t) = true := by decide +kernel
theorem noFlush0_9_B : ∀ t : Fin cfg0.N, ¬cond0_0 (grid0.coords t) → ¬cond0_1 (grid0.coords t) → (cfg0.win 9).flush t = false := by decide +kernel
/-- At a last key tile the result window is live. -/
theorem liveAt0_9_C : ∀ t : Fin cfg0.N, ¬cond0_0 (grid0.coords t) → cond0_1 (grid0.coords t) → cfg0.idle 9 (grid0.coords t) = false := by decide +kernel

/-! ## The memrefs the body is called with -/

/-- One staging buffer of the result window, through which its contents are stated. -/
abbrev VO0_9 : View sig .tc .vmem S1024x512 .f32 := (Memref.whole cc0_stg9_0 : Memref sig .tc .vmem S1024x512 .f32).view
abbrev ms0_0 (t : Fin cfg0.N) : Memref sig .tc .vmem S1024x512 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x512 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x512 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1024x1024 .i32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1024x1 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1024x1 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1024x512 .bf16 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x512 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1024x512 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1024x512 .f32 := win0_9.stage (cfg0.slots t 9)
abbrev hs0_9 (t : Fin cfg0.N) : (ms0_9 t).IsWhole := hstage0_9 ((cfg0.slots t 9).cast nbuf0_9)
/-- The three scratch buffers: the running row maximum, the running denominator, the accumulator. -/
abbrev scM0_0 : Memref sig .tc .vmem S1024x1 .f32 := Memref.whole cc0_scratch0
abbrev scM0_1 : Memref sig .tc .vmem S1024x1 .f32 := Memref.whole cc0_scratch1
abbrev scM0_2 : Memref sig .tc .vmem S1024x512 .f32 := Memref.whole cc0_scratch2
abbrev VS0_0 : View sig .tc .vmem S1024x1 .f32 := scM0_0.view
abbrev VS0_1 : View sig .tc .vmem S1024x1 .f32 := scM0_1.view
abbrev VS0_2 : View sig .tc .vmem S1024x512 .f32 := scM0_2.view

/-- The pipeline's own invariant with the scratch buffers named: each owned whole at some contents. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r)) := by
  unfold Pipeline.ΦA; rw [scopedRest0_eq]; simp only [scM0_0, scM0_1, scM0_2, owns_whole]; try rfl

end Cert.KernelIdeal.Fr

end
-- ==== Proof.KI.RunA.lean ====
/-
  The body's run at a first key tile (the first branch taken, the second not): the running maximum, the running denominator and the accumulator are reset from the global and the essential score, then updated by this tile.
  On whole staging buffers holding the inputs' blocks, the body runs to
  its end, leaves the inputs as they were and each buffer it stores into with its stores written; the lists of stores are
  what the symbolic run finds.
-/
import proofs.«419049_j49134425866853_3_alg».proof.Proof.KI.Kit

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
noncomputable def kernelRun0_A (c : Dev nD) (i : grid0.Coords) (arg2 : Memref sig .tc .vmem S1024x512 .bf16) (harg2 : arg2.IsWhole) (arg3 : Memref sig .tc .vmem S1024x512 .bf16) (harg3 : arg3.IsWhole) (arg4 : Memref sig .tc .vmem S1024x512 .bf16) (harg4 : arg4.IsWhole) (arg5 : Memref sig .tc .vmem S1024x1024 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x512 .bf16) (harg8 : arg8.IsWhole) (arg9 : Memref sig .tc .vmem S1x512 .f32) (harg9 : arg9.IsWhole) (arg10 : Memref sig .tc .vmem S1024x512 .f32) (harg10 : arg10.IsWhole) (arg11 : Memref sig .tc .vmem S1024x512 .f32) (harg11 : arg11.IsWhole) (arg12 : Memref sig .tc .vmem S1024x1 .f32) (harg12 : arg12.IsWhole) (arg13 : Memref sig .tc .vmem S1024x1 .f32) (harg13 : arg13.IsWhole) (arg14 : Memref sig .tc .vmem S1024x512 .f32) (harg14 : arg14.IsWhole) (hc0 : cond0_0 i) (hc1 : ¬cond0_1 i)
    (x0 : Vec F S1024x512 .bf16) (x1 : Vec F S1024x512 .bf16) (x2 : Vec F S1024x512 .bf16) (x3 : Vec F S1024x1024 .i32) (x4 : Vec F S1024x1 .f32) (x5 : Vec F S1024x1 .f32) (x6 : Vec F S1024x512 .bf16) (x7 : Vec F S1x512 .f32) (x8 : Vec F S1024x512 .f32) :
    Σ' (L9 : List (View.Piece (Elt F) S1024x512 .f32)) (LS0 : List (View.Piece (Elt F) S1024x1 .f32)) (LS1 : List (View.Piece (Elt F) S1024x1 .f32)), { LS2 : List (View.Piece (Elt F) S1024x512 .f32) //
      ∀ (xi9 : Vec F S1024x512 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare xi9 ∗ (∃ d, owns (c : Thread nD τ) arg12 fullShare d) ∗ (∃ d, owns (c : Thread nD τ) arg13 fullShare d) ∗ (∃ d, owns (c : Thread nD τ) arg14 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare xi9 ∗ (∃ f, arg12.view.loc (c : Thread nD τ) ↦[arg12.view.set]{fullShare} arg12.view.writes (Elt F) f LS0) ∗ (∃ f, arg13.view.loc (c : Thread nD τ) ↦[arg13.view.set]{fullShare} arg13.view.writes (Elt F) f LS1) ∗ (∃ f, arg14.view.loc (c : Thread nD τ) ↦[arg14.view.set]{fullShare} arg14.view.writes (Elt F) f LS2)) -∗ K ⟨⟩))
          ⊢ wp frame (wpE (defs₀ (F := F)) Variants.none c none) E (cc0__attn_kernel i arg2 harg2 arg3 harg3 arg4 harg4 arg5 harg5 arg6 harg6 arg7 harg7 arg8 harg8 arg9 harg9 arg10 harg10 arg11 harg11 arg12 harg12 arg13 harg13 arg14 harg14) K } := by
  refine ⟨[], ?_, ?_, ?_, fun xi9 E K => ?run⟩
  case run =>
    simp only [cc0__attn_kernel_eq_skeleton]; unfold cc0__attn_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%ds0, %fs0, -, HS0⟩, ⟨%ds1, %fs1, -, HS1⟩, ⟨%ds2, %fs2, -, HS2⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [HS0]; · iexists _; iexact HS0
    isplitl [HS1]; · iexists _; iexact HS1
    iexists _; iexact HS2

end Cert.KernelIdeal.Fr

end
-- ==== Proof.KI.RunB.lean ====
/-
  The body's run at a middle key tile (neither branch taken): the three running quantities are updated by this tile.
  On whole staging buffers holding the inputs' blocks and the scratch buffers at what the point before left, the body runs to
  its end, leaves the inputs as they were and each buffer it stores into with its stores written; the lists of stores are
  what the symbolic run finds.
-/
import proofs.«419049_j49134425866853_3_alg».proof.Proof.KI.RunA

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
noncomputable def kernelRun0_B (c : Dev nD) (i : grid0.Coords) (arg2 : Memref sig .tc .vmem S1024x512 .bf16) (harg2 : arg2.IsWhole) (arg3 : Memref sig .tc .vmem S1024x512 .bf16) (harg3 : arg3.IsWhole) (arg4 : Memref sig .tc .vmem S1024x512 .bf16) (harg4 : arg4.IsWhole) (arg5 : Memref sig .tc .vmem S1024x1024 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x512 .bf16) (harg8 : arg8.IsWhole) (arg9 : Memref sig .tc .vmem S1x512 .f32) (harg9 : arg9.IsWhole) (arg10 : Memref sig .tc .vmem S1024x512 .f32) (harg10 : arg10.IsWhole) (arg11 : Memref sig .tc .vmem S1024x512 .f32) (harg11 : arg11.IsWhole) (arg12 : Memref sig .tc .vmem S1024x1 .f32) (harg12 : arg12.IsWhole) (arg13 : Memref sig .tc .vmem S1024x1 .f32) (harg13 : arg13.IsWhole) (arg14 : Memref sig .tc .vmem S1024x512 .f32) (harg14 : arg14.IsWhole) (hc0 : ¬cond0_0 i) (hc1 : ¬cond0_1 i)
    (x0 : Vec F S1024x512 .bf16) (x1 : Vec F S1024x512 .bf16) (x2 : Vec F S1024x512 .bf16) (x3 : Vec F S1024x1024 .i32) (x4 : Vec F S1024x1 .f32) (x5 : Vec F S1024x1 .f32) (x6 : Vec F S1024x512 .bf16) (x7 : Vec F S1x512 .f32) (x8 : Vec F S1024x512 .f32) (xs0 : Vec F S1024x1 .f32) (xs1 : Vec F S1024x1 .f32) (xs2 : Vec F S1024x512 .f32) :
    Σ' (L9 : List (View.Piece (Elt F) S1024x512 .f32)) (LS0 : List (View.Piece (Elt F) S1024x1 .f32)) (LS1 : List (View.Piece (Elt F) S1024x1 .f32)), { LS2 : List (View.Piece (Elt F) S1024x512 .f32) //
      ∀ (xi9 : Vec F S1024x512 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare xi9 ∗ owns (c : Thread nD τ) arg12 fullShare xs0 ∗ owns (c : Thread nD τ) arg13 fullShare xs1 ∗ owns (c : Thread nD τ) arg14 fullShare xs2
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare xi9 ∗ (∃ f, arg12.view.loc (c : Thread nD τ) ↦[arg12.view.set]{fullShare} arg12.view.writes (Elt F) f LS0) ∗ (∃ f, arg13.view.loc (c : Thread nD τ) ↦[arg13.view.set]{fullShare} arg13.view.writes (Elt F) f LS1) ∗ (∃ f, arg14.view.loc (c : Thread nD τ) ↦[arg14.view.set]{fullShare} arg14.view.writes (Elt F) f LS2)) -∗ K ⟨⟩))
          ⊢ wp frame (wpE (defs₀ (F := F)) Variants.none c none) E (cc0__attn_kernel i arg2 harg2 arg3 harg3 arg4 harg4 arg5 harg5 arg6 harg6 arg7 harg7 arg8 harg8 arg9 harg9 arg10 harg10 arg11 harg11 arg12 harg12 arg13 harg13 arg14 harg14) K } := by
  refine ⟨[], ?_, ?_, ?_, fun xi9 E K => ?run⟩
  case run =>
    simp only [cc0__attn_kernel_eq_skeleton]; unfold cc0__attn_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hfs0; obtain rfl := harg13.eq_unread hfs1; obtain rfl := harg14.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [HS0]; · iexists _; iexact HS0
    isplitl [HS1]; · iexists _; iexact HS1
    iexists _; iexact HS2

end Cert.KernelIdeal.Fr

end
-- ==== Proof.KI.RunC.lean ====
/-
  The body's run at a last key tile (the second branch taken): the three running quantities are updated by this tile, and the accumulator divided by the denominator, joined with the masked input by a maximum, is stored into the result block.
  On whole staging buffers holding the inputs' blocks and the scratch buffers at what the point before left, the body runs to
  its end, leaves the inputs as they were and each buffer it stores into with its stores written; the lists of stores are
  what the symbolic run finds.
-/
import proofs.«419049_j49134425866853_3_alg».proof.Proof.KI.RunB

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
noncomputable def kernelRun0_C (c : Dev nD) (i : grid0.Coords) (arg2 : Memref sig .tc .vmem S1024x512 .bf16) (harg2 : arg2.IsWhole) (arg3 : Memref sig .tc .vmem S1024x512 .bf16) (harg3 : arg3.IsWhole) (arg4 : Memref sig .tc .vmem S1024x512 .bf16) (harg4 : arg4.IsWhole) (arg5 : Memref sig .tc .vmem S1024x1024 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x512 .bf16) (harg8 : arg8.IsWhole) (arg9 : Memref sig .tc .vmem S1x512 .f32) (harg9 : arg9.IsWhole) (arg10 : Memref sig .tc .vmem S1024x512 .f32) (harg10 : arg10.IsWhole) (arg11 : Memref sig .tc .vmem S1024x512 .f32) (harg11 : arg11.IsWhole) (arg12 : Memref sig .tc .vmem S1024x1 .f32) (harg12 : arg12.IsWhole) (arg13 : Memref sig .tc .vmem S1024x1 .f32) (harg13 : arg13.IsWhole) (arg14 : Memref sig .tc .vmem S1024x512 .f32) (harg14 : arg14.IsWhole) (hc0 : ¬cond0_0 i) (hc1 : cond0_1 i)
    (x0 : Vec F S1024x512 .bf16) (x1 : Vec F S1024x512 .bf16) (x2 : Vec F S1024x512 .bf16) (x3 : Vec F S1024x1024 .i32) (x4 : Vec F S1024x1 .f32) (x5 : Vec F S1024x1 .f32) (x6 : Vec F S1024x512 .bf16) (x7 : Vec F S1x512 .f32) (x8 : Vec F S1024x512 .f32) (xs0 : Vec F S1024x1 .f32) (xs1 : Vec F S1024x1 .f32) (xs2 : Vec F S1024x512 .f32) :
    Σ' (L9 : List (View.Piece (Elt F) S1024x512 .f32)) (LS0 : List (View.Piece (Elt F) S1024x1 .f32)) (LS1 : List (View.Piece (Elt F) S1024x1 .f32)), { LS2 : List (View.Piece (Elt F) S1024x512 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ (∃ d, owns (c : Thread nD τ) arg11 fullShare d) ∗ owns (c : Thread nD τ) arg12 fullShare xs0 ∗ owns (c : Thread nD τ) arg13 fullShare xs1 ∗ owns (c : Thread nD τ) arg14 fullShare xs2
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ (∃ f, arg11.view.loc (c : Thread nD τ) ↦[arg11.view.set]{fullShare} arg11.view.writes (Elt F) f L9) ∗ (∃ f, arg12.view.loc (c : Thread nD τ) ↦[arg12.view.set]{fullShare} arg12.view.writes (Elt F) f LS0) ∗ (∃ f, arg13.view.loc (c : Thread nD τ) ↦[arg13.view.set]{fullShare} arg13.view.writes (Elt F) f LS1) ∗ (∃ f, arg14.view.loc (c : Thread nD τ) ↦[arg14.view.set]{fullShare} arg14.view.writes (Elt F) f LS2)) -∗ K ⟨⟩))
          ⊢ wp frame (wpE (defs₀ (F := F)) Variants.none c none) E (cc0__attn_kernel i arg2 harg2 arg3 harg3 arg4 harg4 arg5 harg5 arg6 harg6 arg7 harg7 arg8 harg8 arg9 harg9 arg10 harg10 arg11 harg11 arg12 harg12 arg13 harg13 arg14 harg14) K } := by
  refine ⟨?_, ?_, ?_, ?_, fun E K => ?run⟩
  case run =>
    simp only [cc0__attn_kernel_eq_skeleton]; unfold cc0__attn_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg12.eq_unread hfs0; obtain rfl := harg13.eq_unread hfs1; obtain rfl := harg14.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]; · iexists _; iexact H9
    isplitl [HS0]; · iexists _; iexact HS0
    isplitl [HS1]; · iexists _; iexact HS1
    iexists _; iexact HS2

end Cert.KernelIdeal.Fr

end
-- ==== Proof.KI.Frame.lean ====
/-
  The pipeline's proof data and run. After the body at grid point `t` (query tile `t / 8`, key tile `t % 8`) the three
  scratch buffers hold the running row maximum, the running denominator and the accumulator of the query tile over the
  key tiles seen so far; they are reset at a first key tile and carried from point to point otherwise, and at a last key
  tile the result block is stored. What each buffer holds is stated as the stores the body's run found, read back; the
  contents after each point are defined by recursion on the point.
-/
import proofs.«419049_j49134425866853_3_alg».proof.Proof.KI.RunC

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The three cases of the body at a grid point -/

/-- The body's run at a first key tile, on the point's memrefs and input blocks. -/
abbrev runA (c : Dev nD) (t : Fin cfg0.N) (h0 : t.val % 8 = 0) (h1 : ¬t.val % 8 = 7) :=
  kernelRun0_A (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t)
/-- The body's run at a middle key tile, the scratch buffers at `xs·`. -/
abbrev runB (c : Dev nD) (t : Fin cfg0.N) (h0 : ¬t.val % 8 = 0) (h1 : ¬t.val % 8 = 7) (xs0 : Vec F S1024x1 .f32) (xs1 : Vec F S1024x1 .f32) (xs2 : Vec F S1024x512 .f32) :=
  kernelRun0_B (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (iblk m c 8 t) xs0 xs1 xs2
/-- The body's run at a last key tile, the scratch buffers at `xs·`. -/
abbrev runC (c : Dev nD) (t : Fin cfg0.N) (h0 : ¬t.val % 8 = 0) (h1 : t.val % 8 = 7) (xs0 : Vec F S1024x1 .f32) (xs1 : Vec F S1024x1 .f32) (xs2 : Vec F S1024x512 .f32) :=
  kernelRun0_C (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) xs0 xs1 xs2

/-- What a first key tile leaves: the result buffer's placeholder (nothing is stored there), then the three scratch
    buffers' stores read back. -/
def outA (c : Dev nD) (t : Fin cfg0.N) (h0 : t.val % 8 = 0) (h1 : ¬t.val % 8 = 7) : Vec F S1024x512 .f32 × Vec F S1024x1 .f32 × Vec F S1024x1 .f32 × Vec F S1024x512 .f32 :=
  (VO0_9.read (Elt F) (VO0_9.writes (Elt F) VO0_9.junk (runA m c t h0 h1).1),
    VS0_0.read (Elt F) (VS0_0.writes (Elt F) VS0_0.junk (runA m c t h0 h1).2.1),
    VS0_1.read (Elt F) (VS0_1.writes (Elt F) VS0_1.junk (runA m c t h0 h1).2.2.1),
    VS0_2.read (Elt F) (VS0_2.writes (Elt F) VS0_2.junk (runA m c t h0 h1).2.2.2.1))
/-- What a middle key tile leaves. -/
def outB (c : Dev nD) (t : Fin cfg0.N) (h0 : ¬t.val % 8 = 0) (h1 : ¬t.val % 8 = 7) (xs0 : Vec F S1024x1 .f32) (xs1 : Vec F S1024x1 .f32) (xs2 : Vec F S1024x512 .f32) : Vec F S1024x512 .f32 × Vec F S1024x1 .f32 × Vec F S1024x1 .f32 × Vec F S1024x512 .f32 :=
  (VO0_9.read (Elt F) (VO0_9.writes (Elt F) VO0_9.junk (runB m c t h0 h1 xs0 xs1 xs2).1),
    VS0_0.read (Elt F) (VS0_0.writes (Elt F) VS0_0.junk (runB m c t h0 h1 xs0 xs1 xs2).2.1),
    VS0_1.read (Elt F) (VS0_1.writes (Elt F) VS0_1.junk (runB m c t h0 h1 xs0 xs1 xs2).2.2.1),
    VS0_2.read (Elt F) (VS0_2.writes (Elt F) VS0_2.junk (runB m c t h0 h1 xs0 xs1 xs2).2.2.2.1))
/-- What a last key tile leaves: the result block, then the scratch buffers. -/
def outC (c : Dev nD) (t : Fin cfg0.N) (h0 : ¬t.val % 8 = 0) (h1 : t.val % 8 = 7) (xs0 : Vec F S1024x1 .f32) (xs1 : Vec F S1024x1 .f32) (xs2 : Vec F S1024x512 .f32) : Vec F S1024x512 .f32 × Vec F S1024x1 .f32 × Vec F S1024x1 .f32 × Vec F S1024x512 .f32 :=
  (VO0_9.read (Elt F) (VO0_9.writes (Elt F) VO0_9.junk (runC m c t h0 h1 xs0 xs1 xs2).1),
    VS0_0.read (Elt F) (VS0_0.writes (Elt F) VS0_0.junk (runC m c t h0 h1 xs0 xs1 xs2).2.1),
    VS0_1.read (Elt F) (VS0_1.writes (Elt F) VS0_1.junk (runC m c t h0 h1 xs0 xs1 xs2).2.2.1),
    VS0_2.read (Elt F) (VS0_2.writes (Elt F) VS0_2.junk (runC m c t h0 h1 xs0 xs1 xs2).2.2.2.1))

/-! ## The stores of each case cover the buffer they are made into -/

theorem scoverA_0 (c : Dev nD) (t : Fin cfg0.N) (h0 : t.val % 8 = 0) (h1 : ¬t.val % 8 = 7) (y : S1024x1.Idx) :
    ∃ pc ∈ (runA m c t h0 h1).2.1, y ∈ pc.1.set :=
  View.cover_of_tiledL (runA m c t h0 h1).2.1 S1024x1.size (by sl_kernel_rfl) y
theorem scoverA_1 (c : Dev nD) (t : Fin cfg0.N) (h0 : t.val % 8 = 0) (h1 : ¬t.val % 8 = 7) (y : S1024x1.Idx) :
    ∃ pc ∈ (runA m c t h0 h1).2.2.1, y ∈ pc.1.set :=
  View.cover_of_tiledL (runA m c t h0 h1).2.2.1 S1024x1.size (by sl_kernel_rfl) y
theorem scoverA_2 (c : Dev nD) (t : Fin cfg0.N) (h0 : t.val % 8 = 0) (h1 : ¬t.val % 8 = 7) (y : S1024x512.Idx) :
    ∃ pc ∈ (runA m c t h0 h1).2.2.2.1, y ∈ pc.1.set :=
  View.cover_of_tiledL (runA m c t h0 h1).2.2.2.1 S1024x512.size (by sl_kernel_rfl) y
theorem scoverB_0 (c : Dev nD) (t : Fin cfg0.N) (h0 : ¬t.val % 8 = 0) (h1 : ¬t.val % 8 = 7) (xs0 : Vec F S1024x1 .f32) (xs1 : Vec F S1024x1 .f32) (xs2 : Vec F S1024x512 .f32) (y : S1024x1.Idx) :
    ∃ pc ∈ (runB m c t h0 h1 xs0 xs1 xs2).2.1, y ∈ pc.1.set :=
  View.cover_of_tiledL (runB m c t h0 h1 xs0 xs1 xs2).2.1 S1024x1.size (by sl_kernel_rfl) y
theorem scoverB_1 (c : Dev nD) (t : Fin cfg0.N) (h0 : ¬t.val % 8 = 0) (h1 : ¬t.val % 8 = 7) (xs0 : Vec F S1024x1 .f32) (xs1 : Vec F S1024x1 .f32) (xs2 : Vec F S1024x512 .f32) (y : S1024x1.Idx) :
    ∃ pc ∈ (runB m c t h0 h1 xs0 xs1 xs2).2.2.1, y ∈ pc.1.set :=
  View.cover_of_tiledL (runB m c t h0 h1 xs0 xs1 xs2).2.2.1 S1024x1.size (by sl_kernel_rfl) y
theorem scoverB_2 (c : Dev nD) (t : Fin cfg0.N) (h0 : ¬t.val % 8 = 0) (h1 : ¬t.val % 8 = 7) (xs0 : Vec F S1024x1 .f32) (xs1 : Vec F S1024x1 .f32) (xs2 : Vec F S1024x512 .f32) (y : S1024x512.Idx) :
    ∃ pc ∈ (runB m c t h0 h1 xs0 xs1 xs2).2.2.2.1, y ∈ pc.1.set :=
  View.cover_of_tiledL (runB m c t h0 h1 xs0 xs1 xs2).2.2.2.1 S1024x512.size (by sl_kernel_rfl) y
theorem scoverC_0 (c : Dev nD) (t : Fin cfg0.N) (h0 : ¬t.val % 8 = 0) (h1 : t.val % 8 = 7) (xs0 : Vec F S1024x1 .f32) (xs1 : Vec F S1024x1 .f32) (xs2 : Vec F S1024x512 .f32) (y : S1024x1.Idx) :
    ∃ pc ∈ (runC m c t h0 h1 xs0 xs1 xs2).2.1, y ∈ pc.1.set :=
  View.cover_of_tiledL (runC m c t h0 h1 xs0 xs1 xs2).2.1 S1024x1.size (by sl_kernel_rfl) y
theorem scoverC_1 (c : Dev nD) (t : Fin cfg0.N) (h0 : ¬t.val % 8 = 0) (h1 : t.val % 8 = 7) (xs0 : Vec F S1024x1 .f32) (xs1 : Vec F S1024x1 .f32) (xs2 : Vec F S1024x512 .f32) (y : S1024x1.Idx) :
    ∃ pc ∈ (runC m c t h0 h1 xs0 xs1 xs2).2.2.1, y ∈ pc.1.set :=
  View.cover_of_tiledL (runC m c t h0 h1 xs0 xs1 xs2).2.2.1 S1024x1.size (by sl_kernel_rfl) y
theorem scoverC_2 (c : Dev nD) (t : Fin cfg0.N) (h0 : ¬t.val % 8 = 0) (h1 : t.val % 8 = 7) (xs0 : Vec F S1024x1 .f32) (xs1 : Vec F S1024x1 .f32) (xs2 : Vec F S1024x512 .f32) (y : S1024x512.Idx) :
    ∃ pc ∈ (runC m c t h0 h1 xs0 xs1 xs2).2.2.2.1, y ∈ pc.1.set :=
  View.cover_of_tiledL (runC m c t h0 h1 xs0 xs1 xs2).2.2.2.1 S1024x512.size (by sl_kernel_rfl) y
theorem coverC_9 (c : Dev nD) (t : Fin cfg0.N) (h0 : ¬t.val % 8 = 0) (h1 : t.val % 8 = 7) (xs0 : Vec F S1024x1 .f32) (xs1 : Vec F S1024x1 .f32) (xs2 : Vec F S1024x512 .f32) (y : S1024x512.Idx) :
    ∃ pc ∈ (runC m c t h0 h1 xs0 xs1 xs2).1, y ∈ pc.1.set :=
  View.cover_of_tiledL (runC m c t h0 h1 xs0 xs1 xs2).1 S1024x512.size (by sl_kernel_rfl) y

/-! ## What the buffers hold after each point -/

/-- The result buffer and the three scratch buffers after the body at position `n`: the case the point is in, run on
    what the point before left in the scratch buffers. -/
def outsAt0 (c : Dev nD) : (n : ℕ) → n < cfg0.N → Vec F S1024x512 .f32 × Vec F S1024x1 .f32 × Vec F S1024x1 .f32 × Vec F S1024x512 .f32
  | 0, hn => outA m c ⟨0, hn⟩ (Nat.zero_mod _) (by simp)
  | n + 1, hn =>
    if h0 : (n + 1) % 8 = 0 then
      if h1 : (n + 1) % 8 = 7 then
        False.elim (by omega)
      else
        outA m c ⟨n + 1, hn⟩ h0 h1
    else
      if h1 : (n + 1) % 8 = 7 then
        outC m c ⟨n + 1, hn⟩ h0 h1 (outsAt0 c n (Nat.lt_of_succ_lt hn)).2.1 (outsAt0 c n (Nat.lt_of_succ_lt hn)).2.2.1 (outsAt0 c n (Nat.lt_of_succ_lt hn)).2.2.2
      else
        outB m c ⟨n + 1, hn⟩ h0 h1 (outsAt0 c n (Nat.lt_of_succ_lt hn)).2.1 (outsAt0 c n (Nat.lt_of_succ_lt hn)).2.2.1 (outsAt0 c n (Nat.lt_of_succ_lt hn)).2.2.2

/-- What the point before `t` left (at `t = 0` this is the point itself, and is not used). -/
abbrev prevAt (c : Dev nD) (t : Fin cfg0.N) : Vec F S1024x512 .f32 × Vec F S1024x1 .f32 × Vec F S1024x1 .f32 × Vec F S1024x512 .f32 :=
  outsAt0 m c (t.val - 1) (Nat.lt_of_le_of_lt (Nat.sub_le _ _) t.isLt)

theorem outsAt0_A (c : Dev nD) (t : Fin cfg0.N) (h0 : t.val % 8 = 0) (h1 : ¬t.val % 8 = 7) :
    outsAt0 m c t.val t.isLt = outA m c t h0 h1 := by
  obtain ⟨n, hn⟩ := t
  cases n with
  | zero => exact rfl
  | succ n => exact (dif_pos h0).trans ((dif_neg h1).trans rfl)

theorem outsAt0_B (c : Dev nD) (t : Fin cfg0.N) (h0 : ¬t.val % 8 = 0) (h1 : ¬t.val % 8 = 7) :
    outsAt0 m c t.val t.isLt = outB m c t h0 h1 (prevAt m c t).2.1 (prevAt m c t).2.2.1 (prevAt m c t).2.2.2 := by
  obtain ⟨n, hn⟩ := t
  cases n with
  | zero => exact (by exfalso; (try dsimp only at h0); exact absurd (Nat.zero_mod _) h0)
  | succ n => exact (dif_neg h0).trans ((dif_neg h1).trans rfl)

theorem outsAt0_C (c : Dev nD) (t : Fin cfg0.N) (h0 : ¬t.val % 8 = 0) (h1 : t.val % 8 = 7) :
    outsAt0 m c t.val t.isLt = outC m c t h0 h1 (prevAt m c t).2.1 (prevAt m c t).2.2.1 (prevAt m c t).2.2.2 := by
  obtain ⟨n, hn⟩ := t
  cases n with
  | zero => exact (by exfalso; (try dsimp only at h0); exact absurd (Nat.zero_mod _) h0)
  | succ n => exact (dif_neg h0).trans ((dif_pos h1).trans rfl)

/-- The pipeline's invariant before position `n`: before the first point the scratch buffers hold anything; afterwards
    each holds what the point before left in it. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2.1) ∗ owns (c : Thread nD τ) scM0_1 fullShare ((outsAt0 m c n hn).2.2.1) ∗ owns (c : Thread nD τ) scM0_2 fullShare ((outsAt0 m c n hn).2.2.2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare ((outsAt0 m c n hn).2.1) ∗ owns (c : Thread nD τ) scM0_1 fullShare ((outsAt0 m c n hn).2.2.1) ∗ owns (c : Thread nD τ) scM0_2 fullShare ((outsAt0 m c n hn).2.2.2)) ∗ (∃ r, prngReg c r)) := rfl

theorem PhiS_pos (c : Dev nD) (n : ℕ) (h : n ≤ cfg0.N) (hz : n ≠ 0) :
    PhiS m c n h = iprop(iprop(owns (c : Thread nD τ) scM0_0 fullShare ((outsAt0 m c (n - 1) (by omega)).2.1) ∗ owns (c : Thread nD τ) scM0_1 fullShare ((outsAt0 m c (n - 1) (by omega)).2.2.1) ∗ owns (c : Thread nD τ) scM0_2 fullShare ((outsAt0 m c (n - 1) (by omega)).2.2.2)) ∗ (∃ r, prngReg c r)) := by
  cases n with
  | zero => exact absurd rfl hz
  | succ n => rfl

/-! ## The pipeline's proof data -/

/-- The arrays as the pipeline finds them; after the body each input's buffer at its block and the result's at
    `outsAt0`; the invariant `PhiS`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => (outsAt0 m c t.val t.isLt).1
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = (outsAt0 m c t.val t.isLt).1 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t)

set_option maxHeartbeats 8000000 in
/-- The body at any point: the inputs' buffers hold their blocks; the point's residue modulo 8 says which case it is in;
    the invariant hands the body the scratch buffers (at anything before the first point, at what the point before left
    otherwise) and takes them back at this point's contents. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8]
  rw [show (dats m 0 c).owesAt () t.succ = (dats m 0 c).owesAt () t.castSucc from rfl]
  rw [show (dats m 0 c).Φ t.succ = PhiS m c (t.val + 1) t.isLt from rfl, PhiS_succ]
  have hN : t.val < 64 := lt_of_lt_of_eq t.isLt (show cfg0.N = 64 from N_0)
  by_cases h0 : t.val % 8 = 0
  · by_cases h1 : t.val % 8 = 7
    · exfalso; omega
    ·
      rw [show (dats m 0 c).leavesExact 0 t = owns (c : Thread nD τ) (ms0_0 t) fullShare ((dats m 0 c).after 0 t) from by
        unfold Dat.leavesExact; rw [liveAt0_0 t], after0_0]
      rw [show (dats m 0 c).leavesExact 1 t = owns (c : Thread nD τ) (ms0_1 t) fullShare ((dats m 0 c).after 1 t) from by
        unfold Dat.leavesExact; rw [liveAt0_1 t], after0_1]
      rw [show (dats m 0 c).leavesExact 2 t = owns (c : Thread nD τ) (ms0_2 t) fullShare ((dats m 0 c).after 2 t) from by
        unfold Dat.leavesExact; rw [liveAt0_2 t], after0_2]
      rw [show (dats m 0 c).leavesExact 3 t = owns (c : Thread nD τ) (ms0_3 t) fullShare ((dats m 0 c).after 3 t) from by
        unfold Dat.leavesExact; rw [liveAt0_3 t], after0_3]
      rw [show (dats m 0 c).leavesExact 4 t = owns (c : Thread nD τ) (ms0_4 t) fullShare ((dats m 0 c).after 4 t) from by
        unfold Dat.leavesExact; rw [liveAt0_4 t], after0_4]
      rw [show (dats m 0 c).leavesExact 5 t = owns (c : Thread nD τ) (ms0_5 t) fullShare ((dats m 0 c).after 5 t) from by
        unfold Dat.leavesExact; rw [liveAt0_5 t], after0_5]
      rw [show (dats m 0 c).leavesExact 6 t = owns (c : Thread nD τ) (ms0_6 t) fullShare ((dats m 0 c).after 6 t) from by
        unfold Dat.leavesExact; rw [liveAt0_6 t], after0_6]
      rw [show (dats m 0 c).leavesExact 7 t = owns (c : Thread nD τ) (ms0_7 t) fullShare ((dats m 0 c).after 7 t) from by
        unfold Dat.leavesExact; rw [liveAt0_7 t], after0_7]
      rw [show (dats m 0 c).leavesExact 8 t = owns (c : Thread nD τ) (ms0_8 t) fullShare ((dats m 0 c).after 8 t) from by
        unfold Dat.leavesExact; rw [liveAt0_8 t], after0_8]
      rw [Dat.leavesExact_idle (dats m 0 c) 9 t (idleAt0_9_A t ((hcond0_0 t).mpr h0) (fun h => h1 ((hcond0_1 t).mp h))) (noFlush0_9_A t ((hcond0_0 t).mpr h0) (fun h => h1 ((hcond0_1 t).mp h)))]
      rw [outsAt0_A m c t h0 h1]
      unfold outA; (try dsimp only)
      by_cases hz : t.val = 0
      · rw [PhiS_castSucc m c t, PhiS_zero m c _ _ hz, PhiA0_eq]
        iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
        iapply ((runA m c t h0 h1).2.2.2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [HS0]; · iexact HS0
        isplitl [HS1]; · iexact HS1
        isplitl [HS2]; · iexact HS2
        iintro ⟨H0, H1, H2, H3, H4, H5, H6, H7, H8, H9, ⟨%es0, HS0⟩, ⟨%es1, HS1⟩, ⟨%es2, HS2⟩⟩
        isplitl [HS0 HS1 HS2 Hg]
        · isplitl [HS0 HS1 HS2]
          · isplitl [HS0]
            · unfold owns; iexists _; isplitr
              swap; · iexact HS0
              ipureintro; exact View.read_writes_of_cover _ _ _ _ _ (scoverA_0 m c t h0 h1)
            isplitl [HS1]
            · unfold owns; iexists _; isplitr
              swap; · iexact HS1
              ipureintro; exact View.read_writes_of_cover _ _ _ _ _ (scoverA_1 m c t h0 h1)
            unfold owns; iexists _; isplitr
            swap; · iexact HS2
            ipureintro; exact View.read_writes_of_cover _ _ _ _ _ (scoverA_2 m c t h0 h1)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        iexists _; iexact H9
      · rw [PhiS_castSucc m c t, PhiS_pos m c _ _ hz]
        iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
        iapply ((runA m c t h0 h1).2.2.2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [HS0]; · iexists _; iexact HS0
        isplitl [HS1]; · iexists _; iexact HS1
        isplitl [HS2]; · iexists _; iexact HS2
        iintro ⟨H0, H1, H2, H3, H4, H5, H6, H7, H8, H9, ⟨%es0, HS0⟩, ⟨%es1, HS1⟩, ⟨%es2, HS2⟩⟩
        isplitl [HS0 HS1 HS2 Hg]
        · isplitl [HS0 HS1 HS2]
          · isplitl [HS0]
            · unfold owns; iexists _; isplitr
              swap; · iexact HS0
              ipureintro; exact View.read_writes_of_cover _ _ _ _ _ (scoverA_0 m c t h0 h1)
            isplitl [HS1]
            · unfold owns; iexists _; isplitr
              swap; · iexact HS1
              ipureintro; exact View.read_writes_of_cover _ _ _ _ _ (scoverA_1 m c t h0 h1)
            unfold owns; iexists _; isplitr
            swap; · iexact HS2
            ipureintro; exact View.read_writes_of_cover _ _ _ _ _ (scoverA_2 m c t h0 h1)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        iexists _; iexact H9
  · by_cases h1 : t.val % 8 = 7
    ·
      rw [show (dats m 0 c).leavesExact 0 t = owns (c : Thread nD τ) (ms0_0 t) fullShare ((dats m 0 c).after 0 t) from by
        unfold Dat.leavesExact; rw [liveAt0_0 t], after0_0]
      rw [show (dats m 0 c).leavesExact 1 t = owns (c : Thread nD τ) (ms0_1 t) fullShare ((dats m 0 c).after 1 t) from by
        unfold Dat.leavesExact; rw [liveAt0_1 t], after0_1]
      rw [show (dats m 0 c).leavesExact 2 t = owns (c : Thread nD τ) (ms0_2 t) fullShare ((dats m 0 c).after 2 t) from by
        unfold Dat.leavesExact; rw [liveAt0_2 t], after0_2]
      rw [show (dats m 0 c).leavesExact 3 t = owns (c : Thread nD τ) (ms0_3 t) fullShare ((dats m 0 c).after 3 t) from by
        unfold Dat.leavesExact; rw [liveAt0_3 t], after0_3]
      rw [show (dats m 0 c).leavesExact 4 t = owns (c : Thread nD τ) (ms0_4 t) fullShare ((dats m 0 c).after 4 t) from by
        unfold Dat.leavesExact; rw [liveAt0_4 t], after0_4]
      rw [show (dats m 0 c).leavesExact 5 t = owns (c : Thread nD τ) (ms0_5 t) fullShare ((dats m 0 c).after 5 t) from by
        unfold Dat.leavesExact; rw [liveAt0_5 t], after0_5]
      rw [show (dats m 0 c).leavesExact 6 t = owns (c : Thread nD τ) (ms0_6 t) fullShare ((dats m 0 c).after 6 t) from by
        unfold Dat.leavesExact; rw [liveAt0_6 t], after0_6]
      rw [show (dats m 0 c).leavesExact 7 t = owns (c : Thread nD τ) (ms0_7 t) fullShare ((dats m 0 c).after 7 t) from by
        unfold Dat.leavesExact; rw [liveAt0_7 t], after0_7]
      rw [show (dats m 0 c).leavesExact 8 t = owns (c : Thread nD τ) (ms0_8 t) fullShare ((dats m 0 c).after 8 t) from by
        unfold Dat.leavesExact; rw [liveAt0_8 t], after0_8]
      rw [show (dats m 0 c).leavesExact 9 t = owns (c : Thread nD τ) (ms0_9 t) fullShare ((dats m 0 c).after 9 t) from by
        unfold Dat.leavesExact; rw [liveAt0_9_C t (fun h => h0 ((hcond0_0 t).mp h)) ((hcond0_1 t).mpr h1)], after0_9]
      rw [outsAt0_C m c t h0 h1]
      unfold outC; (try dsimp only)
      have hz : t.val ≠ 0 := by omega
      rw [PhiS_castSucc m c t, PhiS_pos m c _ _ hz]
      iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      iapply ((runC m c t h0 h1 _ _ _).2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexists _; iexact H9
      isplitl [HS0]; · iexact HS0
      isplitl [HS1]; · iexact HS1
      isplitl [HS2]; · iexact HS2
      iintro ⟨H0, H1, H2, H3, H4, H5, H6, H7, H8, ⟨%e9, H9⟩, ⟨%es0, HS0⟩, ⟨%es1, HS1⟩, ⟨%es2, HS2⟩⟩
      isplitl [HS0 HS1 HS2 Hg]
      · isplitl [HS0 HS1 HS2]
        · isplitl [HS0]
          · unfold owns; iexists _; isplitr
            swap; · iexact HS0
            ipureintro; exact View.read_writes_of_cover _ _ _ _ _ (scoverC_0 m c t h0 h1 _ _ _)
          isplitl [HS1]
          · unfold owns; iexists _; isplitr
            swap; · iexact HS1
            ipureintro; exact View.read_writes_of_cover _ _ _ _ _ (scoverC_1 m c t h0 h1 _ _ _)
          unfold owns; iexists _; isplitr
          swap; · iexact HS2
          ipureintro; exact View.read_writes_of_cover _ _ _ _ _ (scoverC_2 m c t h0 h1 _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      unfold owns; iexists _; isplitr
      swap; · iexact H9
      ipureintro; exact View.read_writes_of_cover _ _ _ _ _ (coverC_9 m c t h0 h1 _ _ _)
    ·
      rw [show (dats m 0 c).leavesExact 0 t = owns (c : Thread nD τ) (ms0_0 t) fullShare ((dats m 0 c).after 0 t) from by
        unfold Dat.leavesExact; rw [liveAt0_0 t], after0_0]
      rw [show (dats m 0 c).leavesExact 1 t = owns (c : Thread nD τ) (ms0_1 t) fullShare ((dats m 0 c).after 1 t) from by
        unfold Dat.leavesExact; rw [liveAt0_1 t], after0_1]
      rw [show (dats m 0 c).leavesExact 2 t = owns (c : Thread nD τ) (ms0_2 t) fullShare ((dats m 0 c).after 2 t) from by
        unfold Dat.leavesExact; rw [liveAt0_2 t], after0_2]
      rw [show (dats m 0 c).leavesExact 3 t = owns (c : Thread nD τ) (ms0_3 t) fullShare ((dats m 0 c).after 3 t) from by
        unfold Dat.leavesExact; rw [liveAt0_3 t], after0_3]
      rw [show (dats m 0 c).leavesExact 4 t = owns (c : Thread nD τ) (ms0_4 t) fullShare ((dats m 0 c).after 4 t) from by
        unfold Dat.leavesExact; rw [liveAt0_4 t], after0_4]
      rw [show (dats m 0 c).leavesExact 5 t = owns (c : Thread nD τ) (ms0_5 t) fullShare ((dats m 0 c).after 5 t) from by
        unfold Dat.leavesExact; rw [liveAt0_5 t], after0_5]
      rw [show (dats m 0 c).leavesExact 6 t = owns (c : Thread nD τ) (ms0_6 t) fullShare ((dats m 0 c).after 6 t) from by
        unfold Dat.leavesExact; rw [liveAt0_6 t], after0_6]
      rw [show (dats m 0 c).leavesExact 7 t = owns (c : Thread nD τ) (ms0_7 t) fullShare ((dats m 0 c).after 7 t) from by
        unfold Dat.leavesExact; rw [liveAt0_7 t], after0_7]
      rw [show (dats m 0 c).leavesExact 8 t = owns (c : Thread nD τ) (ms0_8 t) fullShare ((dats m 0 c).after 8 t) from by
        unfold Dat.leavesExact; rw [liveAt0_8 t], after0_8]
      rw [Dat.leavesExact_idle (dats m 0 c) 9 t (idleAt0_9_B t (fun h => h0 ((hcond0_0 t).mp h)) (fun h => h1 ((hcond0_1 t).mp h))) (noFlush0_9_B t (fun h => h0 ((hcond0_0 t).mp h)) (fun h => h1 ((hcond0_1 t).mp h)))]
      rw [outsAt0_B m c t h0 h1]
      unfold outB; (try dsimp only)
      have hz : t.val ≠ 0 := by omega
      rw [PhiS_castSucc m c t, PhiS_pos m c _ _ hz]
      iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      iapply ((runB m c t h0 h1 _ _ _).2.2.2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [HS0]; · iexact HS0
      isplitl [HS1]; · iexact HS1
      isplitl [HS2]; · iexact HS2
      iintro ⟨H0, H1, H2, H3, H4, H5, H6, H7, H8, H9, ⟨%es0, HS0⟩, ⟨%es1, HS1⟩, ⟨%es2, HS2⟩⟩
      isplitl [HS0 HS1 HS2 Hg]
      · isplitl [HS0 HS1 HS2]
        · isplitl [HS0]
          · unfold owns; iexists _; isplitr
            swap; · iexact HS0
            ipureintro; exact View.read_writes_of_cover _ _ _ _ _ (scoverB_0 m c t h0 h1 _ _ _)
          isplitl [HS1]
          · unfold owns; iexists _; isplitr
            swap; · iexact HS1
            ipureintro; exact View.read_writes_of_cover _ _ _ _ _ (scoverB_1 m c t h0 h1 _ _ _)
          unfold owns; iexists _; isplitr
          swap; · iexact HS2
          ipureintro; exact View.read_writes_of_cover _ _ _ _ _ (scoverB_2 m c t h0 h1 _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      iexists _; iexact H9

/-- The library's body obligation, at every point. -/
theorem body_obligation (c : Dev nD) : BodyObligation (dats (F := F) m 0 c) (defs₀ (F := F)) Variants.none () Set.univ := fun t => by
  rw [bigSep_W0, bigSep_W0]
  exact sound_body m c t

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1, HS2⟩, Hg⟩
  isplitl [HS0 HS1 HS2]
  · isplitl [HS0]; · iexists _; iexact HS0
    isplitl [HS1]; · iexists _; iexact HS1
    iexists _; iexact HS2
  iexact Hg

theorem hout (c : Dev nD) : (dats m 0 c).Φ (Fin.last cfg0.N) ⊢ Pipeline.ΦA spec0 c :=
  Phi_out m c _ (by rw [Fin.val_last]; have : cfg0.N = 64 := N_0; omega)

/-! ## The run and the frame -/

set_option backward.isDefEq.respectTransparency.types false in
/-- Every weakly fair execution of the entry point terminates, with every array of the pipeline at what the proof data
    computes and every other buffer as the pipeline found it. -/
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The frame: the program runs to its end without a fault and its arguments end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  frame_of m ρ (dats m) (A_eq m) (run_main m ρ)

end Cert.KernelIdeal.Fr

end
-- ==== Proof.Steps.lean ====
/-
  One key tile's work on a query tile, as functions of whole blocks: from the query block, the key block and the mask
  block, the new running row maximum, the new running denominator and the new accumulator (which also reads the
  value block); the three starting values from the global-score and essential-score columns, the global value row
  and the essential value block; and the final quotient joined with the masked input. Each is the body's own
  arithmetic, composed.
-/
import proofs.«419049_j49134425866853_3_alg».proof.Proof.Gen.KernelIdeal.Skeleton

noncomputable section

namespace Cert.KernelIdeal.Val

open Cert.KernelIdeal Cert.KernelIdeal.Gen
open Idealize.ShloMosaic Idealize.SL.Sem

variable {F : FTy → Type} [FloatOps F]

/-- The running maximum before any key tile: the larger of the global and the essential score, row by row. -/
def initM (g e : Vec F S1024x1 .f32) : Vec F S1024x1 .f32 := k0_pay7 g e
/-- The running denominator before any key tile. -/
def initL (g e : Vec F S1024x1 .f32) : Vec F S1024x1 .f32 := k0_pay10 g e
/-- The accumulator before any key tile: the global value row and the essential value block, weighted. -/
def initA (g e : Vec F S1024x1 .f32) (ev : Vec F S1024x512 .bf16) (gv : Vec F S1x512 .f32) : Vec F S1024x512 .f32 :=
  k0_pay11 g e gv ev
/-- The running maximum after a key tile. -/
def updM (q k : Vec F S1024x512 .bf16) (adj : Vec F S1024x1024 .i32) (ms : Vec F S1024x1 .f32) : Vec F S1024x1 .f32 :=
  k0_pay2 (k0_pay14 q k adj ms)
/-- The running denominator after a key tile. -/
def updL (q k : Vec F S1024x512 .bf16) (adj : Vec F S1024x1024 .i32) (ms ls : Vec F S1024x1 .f32) : Vec F S1024x1 .f32 :=
  k0_pay17 q k adj ms ls
/-- The accumulator after a key tile. -/
def updA (q k v : Vec F S1024x512 .bf16) (adj : Vec F S1024x1024 .i32) (ms : Vec F S1024x1 .f32) (acc : Vec F S1024x512 .f32) :
    Vec F S1024x512 .f32 :=
  k0_pay1 (k0_pay12 v) (k0_pay15 q k adj ms) (k0_pay16 q k adj ms) acc
/-- The result block: the accumulator over the denominator, joined with the masked input by a maximum. -/
def finO (acc : Vec F S1024x512 .f32) (ls : Vec F S1024x1 .f32) (mx : Vec F S1024x512 .f32) : Vec F S1024x512 .f32 :=
  k0_pay3 acc ls mx

end Cert.KernelIdeal.Val

end
-- ==== Proof.Pieces.lean ====
/-
  What each case of the body leaves in the scratch buffers and in the result block, as the body's own arithmetic on
  the point's input blocks and on what the scratch buffers held.
-/
import proofs.«419049_j49134425866853_3_alg».proof.Proof.KI.Frame
import proofs.«419049_j49134425866853_3_alg».proof.Proof.Steps
import Idealize.ShloMosaic.Lib.ValueIdx
import Idealize.ShloMosaic.Lib.Tactic
import Idealize.ShloMosaic.Lib.Pipeline.Value

set_option maxRecDepth 16384

noncomputable section

open scoped BigOperators

namespace Cert.KernelIdeal.Val

open Cert.KernelIdeal Cert.KernelIdeal.Gen Cert.KernelIdeal.Fr
open Idealize.ShloMosaic Idealize.ShloMosaic.TcCoe Idealize.ShloMosaic.ValueIdx Idealize.SL.Sem
open Idealize.ShloMosaic.Tactic

variable {F : FTy → Type} [FloatOps F]
variable (m : (ℓ : Loc nD τ sig) → Buf (Elt F) ℓ)

/-- The offsets of every load and store of the body: zero along both axes. -/
private theorem hz : (![0, 0] : Fin 2 → Nat) = fun _ => 0 := funext fun a => by fin_cases a <;> rfl

/-- A load through the whole-shape rectangle at zero offsets reads the whole block: of an input's buffer, the
    block it holds; of a scratch buffer before any store of the case, what it held; after one covering store, that
    store's value. -/
local macro "read_blocks" : tactic => `(tactic| simp only [View.readAt_eq_ld, Memref.IsWhole.read_unread,
  (Memref.isWhole_whole _).read_unread,
  View.ld_unit_zero (S := S1024x512) hz, View.ld_unit_zero (S := S1024x1024) hz, View.ld_unit_zero (S := S1024x1) hz,
  View.ld_unit_zero (S := S1x512) hz,
  View.readCov_unit_zero (S := S1024x512) _ hz, View.readCov_unit_zero (S := S1024x1) _ hz])

/-- A first key tile: the starting values, then this tile folded in. -/
theorem outA_s0 (c : Dev nD) (t : Fin cfg0.N) (h0 : t.val % 8 = 0) (h1 : ¬t.val % 8 = 7) :
    (outA m c t h0 h1).2.1 = updM (F := F) (iblk m c 0 t) (iblk m c 1 t) (iblk m c 3 t) (initM (F := F) (iblk m c 4 t) (iblk m c 5 t)) := by
  unfold outA; dsimp only
  rw [View.read_writes_eq_canon _ _ _ (scoverA_0 m c t h0 h1)]
  unfold runA kernelRun0_A
  dsimp only
  sl_unfold_words
  rw [View.canon_cons_unit_zero (S := S1024x1) hz]
  unfold updM initM
  read_blocks
theorem outA_s1 (c : Dev nD) (t : Fin cfg0.N) (h0 : t.val % 8 = 0) (h1 : ¬t.val % 8 = 7) :
    (outA m c t h0 h1).2.2.1 = updL (F := F) (iblk m c 0 t) (iblk m c 1 t) (iblk m c 3 t) (initM (F := F) (iblk m c 4 t) (iblk m c 5 t)) (initL (F := F) (iblk m c 4 t) (iblk m c 5 t)) := by
  unfold outA; dsimp only
  rw [View.read_writes_eq_canon _ _ _ (scoverA_1 m c t h0 h1)]
  unfold runA kernelRun0_A
  dsimp only
  sl_unfold_words
  rw [View.canon_cons_unit_zero (S := S1024x1) hz]
  unfold updL initM initL
  read_blocks
theorem outA_s2 (c : Dev nD) (t : Fin cfg0.N) (h0 : t.val % 8 = 0) (h1 : ¬t.val % 8 = 7) :
    (outA m c t h0 h1).2.2.2 = updA (F := F) (iblk m c 0 t) (iblk m c 1 t) (iblk m c 2 t) (iblk m c 3 t) (initM (F := F) (iblk m c 4 t) (iblk m c 5 t)) (initA (F := F) (iblk m c 4 t) (iblk m c 5 t) (iblk m c 6 t) (iblk m c 7 t)) := by
  unfold outA; dsimp only
  rw [View.read_writes_eq_canon _ _ _ (scoverA_2 m c t h0 h1)]
  unfold runA kernelRun0_A
  dsimp only
  sl_unfold_words
  rw [View.canon_cons_unit_zero (S := S1024x512) hz]
  unfold updA initM initA
  read_blocks

/-- A middle key tile: this tile folded into what the scratch buffers held. -/
theorem outB_s0 (c : Dev nD) (t : Fin cfg0.N) (h0 : ¬t.val % 8 = 0) (h1 : ¬t.val % 8 = 7) (xs0 xs1 : Vec F S1024x1 .f32) (xs2 : Vec F S1024x512 .f32) :
    (outB m c t h0 h1 xs0 xs1 xs2).2.1 = updM (F := F) (iblk m c 0 t) (iblk m c 1 t) (iblk m c 3 t) xs0 := by
  unfold outB; dsimp only
  rw [View.read_writes_eq_canon _ _ _ (scoverB_0 m c t h0 h1 xs0 xs1 xs2)]
  unfold runB kernelRun0_B
  dsimp only
  sl_unfold_words
  rw [View.canon_unit_zero hz]
  unfold updM
  read_blocks
theorem outB_s1 (c : Dev nD) (t : Fin cfg0.N) (h0 : ¬t.val % 8 = 0) (h1 : ¬t.val % 8 = 7) (xs0 xs1 : Vec F S1024x1 .f32) (xs2 : Vec F S1024x512 .f32) :
    (outB m c t h0 h1 xs0 xs1 xs2).2.2.1 = updL (F := F) (iblk m c 0 t) (iblk m c 1 t) (iblk m c 3 t) xs0 xs1 := by
  unfold outB; dsimp only
  rw [View.read_writes_eq_canon _ _ _ (scoverB_1 m c t h0 h1 xs0 xs1 xs2)]
  unfold runB kernelRun0_B
  dsimp only
  sl_unfold_words
  rw [View.canon_unit_zero hz]
  unfold updL
  read_blocks
theorem outB_s2 (c : Dev nD) (t : Fin cfg0.N) (h0 : ¬t.val % 8 = 0) (h1 : ¬t.val % 8 = 7) (xs0 xs1 : Vec F S1024x1 .f32) (xs2 : Vec F S1024x512 .f32) :
    (outB m c t h0 h1 xs0 xs1 xs2).2.2.2 = updA (F := F) (iblk m c 0 t) (iblk m c 1 t) (iblk m c 2 t) (iblk m c 3 t) xs0 xs2 := by
  unfold outB; dsimp only
  rw [View.read_writes_eq_canon _ _ _ (scoverB_2 m c t h0 h1 xs0 xs1 xs2)]
  unfold runB kernelRun0_B
  dsimp only
  sl_unfold_words
  rw [View.canon_unit_zero hz]
  unfold updA
  read_blocks

/-- A last key tile: the same, and the result block from the new accumulator and denominator. -/
theorem outC_s0 (c : Dev nD) (t : Fin cfg0.N) (h0 : ¬t.val % 8 = 0) (h1 : t.val % 8 = 7) (xs0 xs1 : Vec F S1024x1 .f32) (xs2 : Vec F S1024x512 .f32) :
    (outC m c t h0 h1 xs0 xs1 xs2).2.1 = updM (F := F) (iblk m c 0 t) (iblk m c 1 t) (iblk m c 3 t) xs0 := by
  unfold outC; dsimp only
  rw [View.read_writes_eq_canon _ _ _ (scoverC_0 m c t h0 h1 xs0 xs1 xs2)]
  unfold runC kernelRun0_C
  dsimp only
  sl_unfold_words
  rw [View.canon_unit_zero hz]
  unfold updM
  read_blocks
theorem outC_s1 (c : Dev nD) (t : Fin cfg0.N) (h0 : ¬t.val % 8 = 0) (h1 : t.val % 8 = 7) (xs0 xs1 : Vec F S1024x1 .f32) (xs2 : Vec F S1024x512 .f32) :
    (outC m c t h0 h1 xs0 xs1 xs2).2.2.1 = updL (F := F) (iblk m c 0 t) (iblk m c 1 t) (iblk m c 3 t) xs0 xs1 := by
  unfold outC; dsimp only
  rw [View.read_writes_eq_canon _ _ _ (scoverC_1 m c t h0 h1 xs0 xs1 xs2)]
  unfold runC kernelRun0_C
  dsimp only
  sl_unfold_words
  rw [View.canon_unit_zero hz]
  unfold updL
  read_blocks
theorem outC_s2 (c : Dev nD) (t : Fin cfg0.N) (h0 : ¬t.val % 8 = 0) (h1 : t.val % 8 = 7) (xs0 xs1 : Vec F S1024x1 .f32) (xs2 : Vec F S1024x512 .f32) :
    (outC m c t h0 h1 xs0 xs1 xs2).2.2.2 = updA (F := F) (iblk m c 0 t) (iblk m c 1 t) (iblk m c 2 t) (iblk m c 3 t) xs0 xs2 := by
  unfold outC; dsimp only
  rw [View.read_writes_eq_canon _ _ _ (scoverC_2 m c t h0 h1 xs0 xs1 xs2)]
  unfold runC kernelRun0_C
  dsimp only
  sl_unfold_words
  rw [View.canon_unit_zero hz]
  unfold updA
  read_blocks
theorem outC_o9 (c : Dev nD) (t : Fin cfg0.N) (h0 : ¬t.val % 8 = 0) (h1 : t.val % 8 = 7) (xs0 xs1 : Vec F S1024x1 .f32) (xs2 : Vec F S1024x512 .f32) :
    (outC m c t h0 h1 xs0 xs1 xs2).1
      = finO (F := F) (updA (F := F) (iblk m c 0 t) (iblk m c 1 t) (iblk m c 2 t) (iblk m c 3 t) xs0 xs2) (updL (F := F) (iblk m c 0 t) (iblk m c 1 t) (iblk m c 3 t) xs0 xs1) (iblk m c 8 t) := by
  unfold outC; dsimp only
  rw [View.read_writes_eq_canon _ _ _ (coverC_9 m c t h0 h1 xs0 xs1 xs2)]
  unfold runC kernelRun0_C
  dsimp only
  sl_unfold_words
  rw [View.canon_unit_zero hz]
  unfold finO updA updL
  read_blocks

end Cert.KernelIdeal.Val

end
-- ==== Proof.Spec.lean ====
/-
  The attention core both programs compute, as plain functions on the extended reals.

  Nine arrays enter: queries, keys and values of the local attention (`q`, `k`, `v`: 8192 rows of 512), the
  adjacency mask, one global and one essential score per row (`gs`, `es`), an essential value row per query
  (`ev`), one global value row (`gv`), and the masked input (`mx`) the result is joined with; and two constants,
  the score scale and the finite fill of a masked-out score.

  A row's 8192 local scores, its global score and its essential score go through ONE softmax; the result is the
  softmax-weighted sum of the value rows, then the maximum with the masked input.

  `refOut` is that formula as it stands: the row maximum first, the exponentials of the differences, the
  denominator, each weight a quotient. `out` is the same quantity accumulated key tile by key tile (8 tiles of
  1024 keys): a running maximum, a running denominator and a running weighted sum, each rescaled by
  `exp (old maximum - new maximum)` when a tile raises the maximum, started from the global and essential terms
  alone, divided once at the end.
-/
import Idealize.ShloMosaic.PureOps.Ideal
import Mathlib.Algebra.BigOperators.Group.Finset.Basic

noncomputable section

open scoped BigOperators

namespace Cert.Spec

open Idealize.ShloMosaic

/-- The arrays and constants the attention core reads. -/
structure Ops where
  q : Fin 8192 → Fin 512 → EReal
  k : Fin 8192 → Fin 512 → EReal
  v : Fin 8192 → Fin 512 → EReal
  adj : Fin 8192 → Fin 8192 → Bool
  gs : Fin 8192 → EReal
  es : Fin 8192 → EReal
  ev : Fin 8192 → Fin 512 → EReal
  gv : Fin 512 → EReal
  mx : Fin 8192 → Fin 512 → EReal
  scale : EReal
  fill : EReal

variable (A : Ops)

/-- The local score of query row `R` against key row `j`: the scaled inner product where the mask has an edge,
    the fill elsewhere. -/
def score (R j : Fin 8192) : EReal :=
  if A.adj R j then (∑ d : Fin 512, A.q R d * A.k j d) * A.scale else A.fill

/-- Key `b` of key tile `kv`. -/
def pos (kv : Fin 8) (b : Fin 1024) : Fin 8192 := ⟨1024 * kv.val + b.val, by omega⟩

/-- The largest local score of row `R` within key tile `kv` (a fold of `max` from `-∞`). -/
def tileMax (R : Fin 8192) (kv : Fin 8) : EReal :=
  (Finset.univ : Finset (Fin 1024)).fold max ⊥ (fun b => score A R (pos kv b))

/-- The running state of one row: maximum, denominator, weighted sum (one entry per output column). -/
structure St where
  m : EReal
  l : EReal
  a : Fin 512 → EReal

/-- Before any key tile: the global and the essential score alone. -/
def init (R : Fin 8192) : St :=
  let m0 := max (A.gs R) (A.es R)
  ⟨m0, Ideal.exp (A.gs R - m0) + Ideal.exp (A.es R - m0),
    fun d => Ideal.exp (A.gs R - m0) * A.gv d + Ideal.exp (A.es R - m0) * A.ev R d⟩

/-- One key tile folded into the running state. -/
def step (R : Fin 8192) (s : St) (kv : Fin 8) : St :=
  let m' := max s.m (tileMax A R kv)
  let α := Ideal.exp (s.m - m')
  ⟨m', α * s.l + ∑ b : Fin 1024, Ideal.exp (score A R (pos kv b) - m'),
    fun d => α * s.a d + ∑ b : Fin 1024, Ideal.exp (score A R (pos kv b) - m') * A.v (pos kv b) d⟩

/-- Tile number `n` as an index of the 8 tiles (numbers past 7 wrap; only 0..7 are used). -/
def kvOf (n : ℕ) : Fin 8 := ⟨n % 8, Nat.mod_lt _ (by norm_num)⟩

/-- The state after key tiles `0 … n`. -/
def run (R : Fin 8192) : ℕ → St
  | 0 => step A R (init A R) (kvOf 0)
  | n + 1 => step A R (run R n) (kvOf (n + 1))

/-- The tiled result: the weighted sum over the denominator after the last tile, joined with the masked input. -/
def out (R : Fin 8192) (d : Fin 512) : EReal :=
  max (Ideal.div ((run A R 7).a d) (run A R 7).l) (A.mx R d)

/-- The joint maximum of a row: its largest local score against the larger of the global and essential scores. -/
def rowMax (R : Fin 8192) : EReal :=
  max ((Finset.univ : Finset (Fin 8192)).fold max ⊥ (fun j => score A R j)) (max (A.gs R) (A.es R))

/-- The joint softmax's denominator. -/
def denom (R : Fin 8192) : EReal :=
  ((∑ j : Fin 8192, Ideal.exp (score A R j - rowMax A R)) + Ideal.exp (A.gs R - rowMax A R))
    + Ideal.exp (A.es R - rowMax A R)

/-- The result in one piece. -/
def refOut (R : Fin 8192) (d : Fin 512) : EReal :=
  max (((∑ j : Fin 8192, Ideal.div (Ideal.exp (score A R j - rowMax A R)) (denom A R) * A.v j d)
        + Ideal.div (Ideal.exp (A.gs R - rowMax A R)) (denom A R) * A.gv d)
      + Ideal.div (Ideal.exp (A.es R - rowMax A R)) (denom A R) * A.ev R d)
    (A.mx R d)

/-- Every entry the softmax reads is a real number (no infinity). -/
structure Ops.Finite : Prop where
  q : ∀ R d, ∃ r : ℝ, A.q R d = (r : EReal)
  k : ∀ R d, ∃ r : ℝ, A.k R d = (r : EReal)
  v : ∀ R d, ∃ r : ℝ, A.v R d = (r : EReal)
  gs : ∀ R, ∃ r : ℝ, A.gs R = (r : EReal)
  es : ∀ R, ∃ r : ℝ, A.es R = (r : EReal)
  ev : ∀ R d, ∃ r : ℝ, A.ev R d = (r : EReal)
  gv : ∀ d, ∃ r : ℝ, A.gv d = (r : EReal)
  scale : ∃ r : ℝ, A.scale = (r : EReal)
  fill : ∃ r : ℝ, A.fill = (r : EReal)

end Cert.Spec

end
-- ==== Proof.SpecTile.lean ====
/-
  The tiled accumulation with a tile's scores and values as plain functions of the key's place in the tile, so that
  one step can be stated for a block without saying where in the array the block lies.
-/
import proofs.«419049_j49134425866853_3_alg».proof.Proof.Spec

noncomputable section

open scoped BigOperators

namespace Cert.Spec

open Idealize.ShloMosaic

/-- A tile's local scores of one query row: scaled inner products where the mask has an edge, the fill elsewhere. -/
def scoreT (scale fill : EReal) (q : Fin 512 → EReal) (k : Fin 1024 → Fin 512 → EReal) (adj : Fin 1024 → Bool)
    (b : Fin 1024) : EReal :=
  if adj b then (∑ d : Fin 512, q d * k b d) * scale else fill

/-- One key tile folded into a row's running state, the tile given by its scores `sc` and its value rows `vv`. -/
def stepT (sc : Fin 1024 → EReal) (vv : Fin 1024 → Fin 512 → EReal) (s : St) : St :=
  let m' := max s.m ((Finset.univ : Finset (Fin 1024)).fold max ⊥ sc)
  let α := Ideal.exp (s.m - m')
  ⟨m', α * s.l + ∑ b : Fin 1024, Ideal.exp (sc b - m'),
    fun d => α * s.a d + ∑ b : Fin 1024, Ideal.exp (sc b - m') * vv b d⟩

/-- A row's state before any key tile, from its global score `g`, its essential score `e`, the global value row and
    its essential value row. -/
def initT (g e : EReal) (gv ev : Fin 512 → EReal) : St :=
  let m0 := max g e
  ⟨m0, Ideal.exp (g - m0) + Ideal.exp (e - m0), fun d => Ideal.exp (g - m0) * gv d + Ideal.exp (e - m0) * ev d⟩

variable (A : Ops)

theorem score_eq_scoreT (R : Fin 8192) (kv : Fin 8) (b : Fin 1024) :
    score A R (pos kv b) = scoreT A.scale A.fill (A.q R) (fun b d => A.k (pos kv b) d) (fun b => A.adj R (pos kv b)) b := rfl

theorem step_eq_stepT (R : Fin 8192) (s : St) (kv : Fin 8) :
    step A R s kv = stepT (fun b => score A R (pos kv b)) (fun b d => A.v (pos kv b) d) s := rfl

theorem init_eq_initT (R : Fin 8192) : init A R = initT (A.gs R) (A.es R) A.gv (A.ev R) := rfl

end Cert.Spec

end
-- ==== Proof.LibPlainDot.lean ====
/-
  A plain matrix product read at an element, on the extended reals.

  For the dimension numbers of a plain product — `[M, K]` by `[K, N]`, the left operand's axis 1 contracted with the
  right operand's axis 0, no batch axes — the operand indices at output element `(a, b)` and contraction coordinate
  `k` are `(a, k)` and `(k, b)`. So a product accumulated into the zero splat is, at `(a, b)`, the plain sum
  `∑ k : Fin K, lhs (a, k) * rhs (k, b)`, and so is the host's `dot_general`.
-/
import Idealize.ShloMosaic.PureOps.Ideal.Laws
import Idealize.ShloMosaic.Lib.ValueIdx

noncomputable section

open scoped BigOperators

namespace Cert.Lib

open Idealize.ShloMosaic Idealize.ShloMosaic.ValueIdx

/-- The dimension numbers of a plain product `[M, K] × [K, N] → [M, N]`: `lhs_contracting = [1]`,
    `rhs_contracting = [0]`, the other axes the result's, no batch axes. At a printed record every field is `rfl`. -/
structure PlainDot {M K N : Nat} (d : DotDims ⟨2, ![M, K]⟩ ⟨2, ![K, N]⟩ ⟨2, ![M, N]⟩) : Prop where
  lc : d.lhsContracting = [1]
  rc : d.rhsContracting = [0]
  ln : d.lhsNonContracting = [0]
  rn : d.rhsNonContracting = [1]
  lb : d.lhsBatch = []
  rb : d.rhsBatch = []

variable {M K N : Nat} {d : DotDims ⟨2, ![M, K]⟩ ⟨2, ![K, N]⟩ ⟨2, ![M, N]⟩}

/-- A plain product contracts one axis. -/
theorem PlainDot.rank_contr (hd : PlainDot d) : d.contr.rank = 1 := by
  rw [d.rank_contr, hd.lc]; rfl

/-- The contracted axis has extent `K`. -/
theorem PlainDot.size_contr (hd : PlainDot d) : d.contr.size ⟨0, by rw [hd.rank_contr]; exact Nat.one_pos⟩ = K := by
  obtain ⟨h1, h2, h3, h4, h5, h6⟩ := hd
  obtain ⟨lc, rc, ln, rn, lb, rb, wf⟩ := d
  simp only at h1 h2 h3 h4 h5 h6
  subst h1 h2 h3 h4 h5 h6
  rfl

/-- The left operand's row is the output's row. -/
theorem PlainDot.lhs0 (hd : PlainDot d) (i : (⟨2, ![M, N]⟩ : Shape).Idx) (q : d.contr.Idx) :
    (d.lhsIdx i q 0).val = (i 0).val := by
  obtain ⟨h1, h2, h3, h4, h5, h6⟩ := hd
  obtain ⟨lc, rc, ln, rn, lb, rb, wf⟩ := d
  simp only at h1 h2 h3 h4 h5 h6
  subst h1 h2 h3 h4 h5 h6
  unfold DotDims.lhsIdx
  rw [dif_neg (by simp), dif_pos (by simp)]
  rfl

/-- The left operand's column is the contraction coordinate. -/
theorem PlainDot.lhs1 (hd : PlainDot d) (i : (⟨2, ![M, N]⟩ : Shape).Idx) (q : d.contr.Idx) :
    (d.lhsIdx i q 1).val = (q ⟨0, by rw [hd.rank_contr]; exact Nat.one_pos⟩).val :=
  d.lhsIdx_val_of_single hd.lc i q

/-- The right operand's row is the contraction coordinate. -/
theorem PlainDot.rhs0 (hd : PlainDot d) (i : (⟨2, ![M, N]⟩ : Shape).Idx) (q : d.contr.Idx) :
    (d.rhsIdx i q 0).val = (q ⟨0, by rw [hd.rank_contr]; exact Nat.one_pos⟩).val :=
  d.rhsIdx_val_of_single hd.rc i q

/-- The right operand's column is the output's column. -/
theorem PlainDot.rhs1 (hd : PlainDot d) (i : (⟨2, ![M, N]⟩ : Shape).Idx) (q : d.contr.Idx) :
    (d.rhsIdx i q 1).val = (i 1).val := by
  obtain ⟨h1, h2, h3, h4, h5, h6⟩ := hd
  obtain ⟨lc, rc, ln, rn, lb, rb, wf⟩ := d
  simp only at h1 h2 h3 h4 h5 h6
  subst h1 h2 h3 h4 h5 h6
  unfold DotDims.rhsIdx
  rw [dif_neg (by simp), dif_pos (by simp)]
  rfl

/-- The contraction of a plain product, re-indexed by the contracted coordinate: at output element `(a, b)` it is
    `∑ k : Fin K, lhs (a, k) * rhs (k, b)`. -/
theorem PlainDot.sum_contr (hd : PlainDot d) (lhs : (⟨2, ![M, K]⟩ : Shape).Idx → EReal)
    (rhs : (⟨2, ![K, N]⟩ : Shape).Idx → EReal) (a : Fin M) (b : Fin N) :
    ∑ q : d.contr.Idx, lhs (d.lhsIdx (ix2 a b) q) * rhs (d.rhsIdx (ix2 a b) q)
      = ∑ k : Fin K, lhs (ix2 a k) * rhs (ix2 k b) := by
  rw [← Equiv.sum_comp (contrEquiv1 d K hd.rank_contr hd.size_contr).symm]
  refine Finset.sum_congr rfl fun k _ => ?_
  have hk := contrEquiv1_symm_val d K hd.rank_contr hd.size_contr k
  have el : d.lhsIdx (ix2 a b) ((contrEquiv1 d K hd.rank_contr hd.size_contr).symm k) = ix2 a k :=
    funext fun x => Fin.ext (by
      match x with
      | ⟨0, _⟩ => exact hd.lhs0 _ _
      | ⟨1, _⟩ => exact (hd.lhs1 _ _).trans hk)
  have er : d.rhsIdx (ix2 a b) ((contrEquiv1 d K hd.rank_contr hd.size_contr).symm k) = ix2 k b :=
    funext fun x => Fin.ext (by
      match x with
      | ⟨0, _⟩ => exact (hd.rhs0 _ _).trans hk
      | ⟨1, _⟩ => exact hd.rhs1 _ _)
  rw [el, er]

/-- A plain product accumulated into the zero splat, at element `(a, b)`: `∑ k, lhs (a, k) * rhs (k, b)`. -/
theorem PlainDot.matmul_zero_apply (hd : PlainDot d) {φ₁ φ₂ : FTy} (prec : Option ContractPrecision)
    (lhs : FVec Ideal ⟨2, ![M, K]⟩ φ₁) (rhs : FVec Ideal ⟨2, ![K, N]⟩ φ₂) (a : Fin M) (b : Fin N) :
    FloatOps.matmul d prec lhs rhs (constant ⟨2, ![M, N]⟩ .f32 0x00000000#32) (ix2 a b)
      = ∑ k : Fin K, lhs (ix2 a k) * rhs (ix2 k b) :=
  (Ideal.matmul_constant_zero_apply d prec lhs rhs (ix2 a b)).trans (hd.sum_contr lhs rhs a b)

/-- The host's plain `dot_general` at element `(a, b)`: the same sum. -/
theorem PlainDot.dotGeneral_apply (hd : PlainDot d) {φ₁ φ₂ : FTy} (prec : Option ContractPrecision) (sched : HostSchedule)
    (lhs : FVec Ideal ⟨2, ![M, K]⟩ φ₁) (rhs : FVec Ideal ⟨2, ![K, N]⟩ φ₂) (a : Fin M) (b : Fin N) :
    FloatOps.dotGeneral d prec sched lhs rhs (ix2 a b) = ∑ k : Fin K, lhs (ix2 a k) * rhs (ix2 k b) :=
  (Ideal.dotGeneral_apply d prec sched lhs rhs (ix2 a b)).trans (hd.sum_contr lhs rhs a b)

end Cert.Lib

end
-- ==== Proof.LibRowReduce.lean ====
/-
  Row reductions of a matrix and the "keepdims" column they are carried in, read at coordinates.

  A matrix of shape `[a, b]` reduced along its second axis gives one number per row. Kept as a column `[a, 1]`
  (a shape cast of the `[a]` vector) and broadcast back over the `b` columns, entry `(r, c)` of the broadcast is
  the number of row `r`. At the extended reals the sum along a row is the finite sum of the row's entries, and the
  maximum along a row is the fold of `max` over them from the accumulator's value.
-/
import Idealize.ShloMosaic.Lib.ValueLayout
import Idealize.ShloMosaic.PureOps.Ideal.Laws

noncomputable section

namespace Cert.RowReduce

open Idealize.ShloMosaic Idealize.ShloMosaic.ValueIdx

variable {α : Type}

/-- A vector `[a]` cast to the column `[a, 1]` reads, at `(i, u)`, the vector at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast over `b` columns reads, at `(i, j)`, the column at row `i`. -/
theorem broadcastTo_a1_ab_apply {a b : ℕ} (v : (⟨2, ![a, 1]⟩ : Shape).Idx → α) (h : (⟨2, ![a, 1]⟩ : Shape).Broadcasts ⟨2, ![a, b]⟩)
    (i : Fin a) (j : Fin b) : broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

/-- Along the second axis of `[a, b]`, the source index over row `r` with coordinate `k` inserted is `(r, k)`. -/
theorem lift_row {a b : ℕ} (h : (⟨2, ![a, b]⟩ : Shape).Reduces [1] (⟨1, ![a]⟩ : Shape)) (r : Fin a)
    (k : Fin ((⟨2, ![a, b]⟩ : Shape).size 1)) : h.lift (ix1 r) k = ix2 r (⟨k.val, k.isLt⟩ : Fin b) := by
  funext c; apply Fin.ext
  fin_cases c <;> rfl

variable {φ : FTy}

/-- A sum along the rows of a matrix of extended reals, at row `r`: the finite sum of that row's entries. -/
theorem rowSum_apply {a b : ℕ} (src : FVec Ideal ⟨2, ![a, b]⟩ φ) (acc : BitVec φ.bits)
    (h : (⟨2, ![a, b]⟩ : Shape).Reduces [1] (⟨1, ![a]⟩ : Shape)) (hφ : FKind.Formats φ) (hacc : acc = FKind.add.neutral φ hφ) (r : Fin a) :
    multiReduction .add [1] ⟨1, ![a]⟩ src acc h hφ hacc (ix1 r) = ∑ k : Fin b, src (ix2 r k) := by
  rw [Ideal.multiReduction_add_single]
  exact Finset.sum_congr rfl fun k _ => congrArg src (lift_row h r k)

/-- A maximum along the rows of a matrix of extended reals, at row `r`: the fold of `max` over that row's entries
    from the accumulator's value. -/
theorem rowMax_apply {a b : ℕ} (src : FVec Ideal ⟨2, ![a, b]⟩ φ) (acc : BitVec φ.bits)
    (h : (⟨2, ![a, b]⟩ : Shape).Reduces [1] (⟨1, ![a]⟩ : Shape)) (hφ : FKind.Formats φ) (hacc : acc = FKind.maximumf.neutral φ hφ) (r : Fin a) :
    multiReduction .maximumf [1] ⟨1, ![a]⟩ src acc h hφ hacc (ix1 r)
      = (Finset.univ : Finset (Fin b)).fold max (Ideal.ofBits φ acc) (fun k => src (ix2 r k)) := by
  rw [Ideal.multiReduction_maximumf_single]
  exact congrArg (fun f => Finset.fold max (Ideal.ofBits φ acc) f (Finset.univ : Finset (Fin b)))
    (funext fun k => congrArg src (lift_row h r k))

end Cert.RowReduce

end
-- ==== Proof.PayIdx.lean ====
/-
  One key tile's work read row by row on the extended reals: row `r` of the new running maximum, denominator and
  accumulator is one step of the tiled accumulation on row `r` of the old ones, with the tile's scores the scaled inner
  products of query row `r` with the tile's key rows under the mask; likewise the starting values and the result.
-/
import proofs.«419049_j49134425866853_3_alg».proof.Proof.Steps
import proofs.«419049_j49134425866853_3_alg».proof.Proof.SpecTile
import proofs.«419049_j49134425866853_3_alg».proof.Proof.LibPlainDot
import proofs.«419049_j49134425866853_3_alg».proof.Proof.LibRowReduce
import Idealize.ShloMosaic.Lib.ValueIdx
import Idealize.ShloMosaic.Lib.ValueLayout
import Idealize.ShloMosaic.PureOps.Ideal.Laws

noncomputable section

open scoped BigOperators

namespace Cert.KernelIdeal.Val

open Cert.KernelIdeal Cert.KernelIdeal.Gen
open Idealize.ShloMosaic Idealize.ShloMosaic.TcCoe Idealize.ShloMosaic.ValueIdx Idealize.SL.Sem

/-- Row `r` of a tile's local scores, from the query block, the key block and the mask block. -/
def tileScore (q k : Vec Ideal S1024x512 .bf16) (adj : Vec Ideal S1024x1024 .i32) (r : Fin 1024) : Fin 1024 → EReal :=
  Cert.Spec.scoreT (Ideal.ofBits .f32 0x3D3504F3#32) (Ideal.ofBits .f32 0xCE6E6B28#32) (fun d => q (ix2 r d)) (fun b d => k (ix2 b d))
    (fun b => decide (adj (ix2 r b) ≠ 0#32))

/-! ## The starting values and the result -/

/-- A row `[1, n]` broadcast over `m` rows reads, at `(i, j)`, the row at column `j`. -/
private theorem broadcastTo_1b_ab_apply {α : Type} (v : (⟨2, ![1, 512]⟩ : Shape).Idx → α)
    (h : (⟨2, ![1, 512]⟩ : Shape).Broadcasts ⟨2, ![1024, 512]⟩) (i : Fin 1024) (j : Fin 512) :
    broadcastTo ⟨2, ![1024, 512]⟩ v h (ix2 i j) = v (ix2 (0 : Fin 1) j) := by
  refine broadcastTo_apply v h (ix2 i j) (ix2 (0 : Fin 1) j) fun ax => ?_
  match ax with
  | ⟨0, _⟩ => rfl
  | ⟨1, _⟩ => rfl

/-- The joint maximum of the global and the essential score, as a column. -/
private theorem pay6_eq (g e : Vec Ideal S1024x1 .f32) : k0_pay6 g e = maximumf g e := by
  unfold k0_pay6 k0_pay4 k0_pay5
  rw [shapeCast_self, shapeCast_self]

private theorem pay8_eq (g e : Vec Ideal S1024x1 .f32) : k0_pay8 g e = exp (subf g (maximumf g e)) := by
  unfold k0_pay8 k0_pay4
  rw [pay6_eq, shapeCast_self]

private theorem pay9_eq (g e : Vec Ideal S1024x1 .f32) : k0_pay9 g e = exp (subf e (maximumf g e)) := by
  unfold k0_pay9 k0_pay5
  rw [pay6_eq, shapeCast_self]

private theorem initM_apply (g e : Vec Ideal S1024x1 .f32) (r : Fin 1024) :
    initM g e (ix2 r (0 : Fin 1)) = max (g (ix2 r (0 : Fin 1))) (e (ix2 r (0 : Fin 1))) := by
  unfold initM k0_pay7
  rw [shapeCast_self, pay6_eq]
  rfl

private theorem initL_apply (g e : Vec Ideal S1024x1 .f32) (r : Fin 1024) :
    initL g e (ix2 r (0 : Fin 1))
      = Ideal.exp (g (ix2 r (0 : Fin 1)) - max (g (ix2 r (0 : Fin 1))) (e (ix2 r (0 : Fin 1))))
        + Ideal.exp (e (ix2 r (0 : Fin 1)) - max (g (ix2 r (0 : Fin 1))) (e (ix2 r (0 : Fin 1)))) := by
  unfold initL k0_pay10
  rw [shapeCast_self, pay8_eq, pay9_eq]
  rfl

private theorem initA_apply (g e : Vec Ideal S1024x1 .f32) (ev : Vec Ideal S1024x512 .bf16) (gv : Vec Ideal S1x512 .f32)
    (r : Fin 1024) (d : Fin 512) :
    initA g e ev gv (ix2 r d)
      = Ideal.exp (g (ix2 r (0 : Fin 1)) - max (g (ix2 r (0 : Fin 1))) (e (ix2 r (0 : Fin 1)))) * gv (ix2 (0 : Fin 1) d)
        + Ideal.exp (e (ix2 r (0 : Fin 1)) - max (g (ix2 r (0 : Fin 1))) (e (ix2 r (0 : Fin 1)))) * ev (ix2 r d) := by
  unfold initA k0_pay11
  rw [shapeCast_self, shapeCast_self, shapeCast_self, pay8_eq, pay9_eq]
  rw [addf_apply, mulf_apply, mulf_apply, Cert.RowReduce.broadcastTo_a1_ab_apply, Cert.RowReduce.broadcastTo_a1_ab_apply,
    broadcastTo_1b_ab_apply, extf_apply]
  rfl

/-! ## One key tile -/

/-- The accumulator of the row maximum is `-∞`. -/
private theorem ofBits_neg_inf_f32 : Ideal.ofBits .f32 0xFF800000#32 = ⊥ := by simp [Ideal.ofBits, Ideal.ieee]

/-- The masked, scaled score matrix at `(r, b)`: the local score of query row `r` against the tile's key `b`. -/
private theorem pay13_apply (q k : Vec Ideal S1024x512 .bf16) (adj : Vec Ideal S1024x1024 .i32) (r b : Fin 1024) :
    k0_pay13 q k adj (ix2 r b) = tileScore q k adj r b := by
  unfold k0_pay13
  rw [shapeCast_self, shapeCast_self]
  have hsum : ∑ d : Fin 512, q (ix2 r d) * transpose S512x1024 [1, 0] k transposes_S1024x512_p1_0_S512x1024 (ix2 d b)
      = ∑ d : Fin 512, q (ix2 r d) * k (ix2 b d) :=
    Finset.sum_congr rfl fun d _ => by rw [transpose_ix2_apply]
  refine (congrArg (fun x : EReal => Scalar.select (IntOp.cmpi .ne (adj (ix2 r b)) 0#32)
      (x * Ideal.ofBits .f32 0x3D3504F3#32) (Ideal.ofBits .f32 0xCE6E6B28#32))
    ((Cert.Lib.PlainDot.matmul_zero_apply (d := dot_S1024x512_S512x1024_S1024x1024_1_0_0_1_n_n) ⟨rfl, rfl, rfl, rfl, rfl, rfl⟩
      none q (transpose S512x1024 [1, 0] k transposes_S1024x512_p1_0_S512x1024) r b).trans hsum)).trans ?_
  unfold tileScore Cert.Spec.scoreT
  by_cases h : adj (ix2 r b) = 0#32
  · have h0 : IntOp.cmpi .ne (adj (ix2 r b)) 0#32 = 0#1 := by rw [h]; decide
    rw [h0, select_zero, if_neg (by simp [h])]
  · have hb : (adj (ix2 r b) != 0#32) = true := bne_iff_ne.mpr h
    have h1 : IntOp.cmpi .ne (adj (ix2 r b)) 0#32 = 1#1 := by
      show BitVec.ofBool (adj (ix2 r b) != 0#32) = 1#1
      rw [hb]; rfl
    rw [h1, select_one, if_pos (by simp [h])]

/-- The new running maximum of row `r`: the old one against the largest score of the tile. -/
private theorem pay14_apply (q k : Vec Ideal S1024x512 .bf16) (adj : Vec Ideal S1024x1024 .i32) (ms : Vec Ideal S1024x1 .f32) (r : Fin 1024) :
    k0_pay14 q k adj ms (ix2 r (0 : Fin 1))
      = max (ms (ix2 r (0 : Fin 1))) ((Finset.univ : Finset (Fin 1024)).fold max ⊥ (tileScore q k adj r)) := by
  unfold k0_pay14
  rw [maximumf_apply, Cert.RowReduce.shapeCast_a_a1_apply]
  refine congrArg (max (ms (ix2 r (0 : Fin 1)))) ?_
  refine (Cert.RowReduce.rowMax_apply (k0_pay13 q k adj) _ _ _ _ r).trans ?_
  have hf : (fun b : Fin 1024 => k0_pay13 q k adj (ix2 r b)) = tileScore q k adj r := funext (pay13_apply q k adj r)
  rw [ofBits_neg_inf_f32, hf]

/-- The weight of score `b` of row `r` against the new running maximum. -/
private theorem pay16_apply (q k : Vec Ideal S1024x512 .bf16) (adj : Vec Ideal S1024x1024 .i32) (ms : Vec Ideal S1024x1 .f32) (r b : Fin 1024) :
    k0_pay16 q k adj ms (ix2 r b)
      = Ideal.exp (tileScore q k adj r b - k0_pay14 q k adj ms (ix2 r (0 : Fin 1))) := by
  unfold k0_pay16
  show Ideal.exp (k0_pay13 q k adj (ix2 r b)
    - broadcastTo S1024x1024 (k0_pay14 q k adj ms) broadcasts_S1024x1_S1024x1024 (ix2 r b)) = _
  rw [pay13_apply, Cert.RowReduce.broadcastTo_a1_ab_apply]

private theorem updM_apply (q k : Vec Ideal S1024x512 .bf16) (adj : Vec Ideal S1024x1024 .i32) (ms : Vec Ideal S1024x1 .f32) (r : Fin 1024) :
    updM q k adj ms (ix2 r (0 : Fin 1))
      = max (ms (ix2 r (0 : Fin 1))) ((Finset.univ : Finset (Fin 1024)).fold max ⊥ (tileScore q k adj r)) := by
  unfold updM k0_pay2
  rw [shapeCast_self]
  exact pay14_apply q k adj ms r

private theorem updL_apply (q k : Vec Ideal S1024x512 .bf16) (adj : Vec Ideal S1024x1024 .i32) (ms ls : Vec Ideal S1024x1 .f32) (r : Fin 1024) :
    updL q k adj ms ls (ix2 r (0 : Fin 1))
      = Ideal.exp (ms (ix2 r (0 : Fin 1))
            - max (ms (ix2 r (0 : Fin 1))) ((Finset.univ : Finset (Fin 1024)).fold max ⊥ (tileScore q k adj r)))
          * ls (ix2 r (0 : Fin 1))
        + ∑ b : Fin 1024, Ideal.exp (tileScore q k adj r b
            - max (ms (ix2 r (0 : Fin 1))) ((Finset.univ : Finset (Fin 1024)).fold max ⊥ (tileScore q k adj r))) := by
  unfold updL k0_pay17
  rw [shapeCast_self, addf_apply, mulf_apply, Cert.RowReduce.shapeCast_a_a1_apply]
  refine (congrArg (fun x : EReal => k0_pay15 q k adj ms (ix2 r (0 : Fin 1)) * ls (ix2 r (0 : Fin 1)) + x)
    (Cert.RowReduce.rowSum_apply (k0_pay16 q k adj ms) _ _ _ _ r)).trans ?_
  simp only [pay16_apply]
  rw [← pay14_apply q k adj ms r]
  rfl

private theorem updA_apply (q k v : Vec Ideal S1024x512 .bf16) (adj : Vec Ideal S1024x1024 .i32) (ms : Vec Ideal S1024x1 .f32)
    (acc : Vec Ideal S1024x512 .f32) (r : Fin 1024) (d : Fin 512) :
    updA q k v adj ms acc (ix2 r d)
      = Ideal.exp (ms (ix2 r (0 : Fin 1))
            - max (ms (ix2 r (0 : Fin 1))) ((Finset.univ : Finset (Fin 1024)).fold max ⊥ (tileScore q k adj r)))
          * acc (ix2 r d)
        + ∑ b : Fin 1024, Ideal.exp (tileScore q k adj r b
            - max (ms (ix2 r (0 : Fin 1))) ((Finset.univ : Finset (Fin 1024)).fold max ⊥ (tileScore q k adj r)))
          * v (ix2 b d) := by
  unfold updA k0_pay1 k0_pay12
  rw [shapeCast_self, shapeCast_self, addf_apply, mulf_apply, Cert.RowReduce.broadcastTo_a1_ab_apply]
  refine (congrArg (fun x : EReal => k0_pay15 q k adj ms (ix2 r (0 : Fin 1)) * acc (ix2 r d) + x)
    (Cert.Lib.PlainDot.matmul_zero_apply (d := dot_S1024x1024_S1024x512_S1024x512_1_0_0_1_n_n) ⟨rfl, rfl, rfl, rfl, rfl, rfl⟩
      none (truncf .bf16 (k0_pay16 q k adj ms) bitsLt_bf16_f32) v r d)).trans ?_
  simp only [truncf_apply, pay16_apply]
  rw [← pay14_apply q k adj ms r]
  rfl

theorem upd_apply (q k v : Vec Ideal S1024x512 .bf16) (adj : Vec Ideal S1024x1024 .i32) (ms ls : Vec Ideal S1024x1 .f32)
    (acc : Vec Ideal S1024x512 .f32) (r : Fin 1024) :
    (⟨updM q k adj ms (ix2 r (0 : Fin 1)), updL q k adj ms ls (ix2 r (0 : Fin 1)), fun d => updA q k v adj ms acc (ix2 r d)⟩ : Cert.Spec.St)
      = Cert.Spec.stepT (tileScore q k adj r) (fun b d => v (ix2 b d))
          ⟨ms (ix2 r (0 : Fin 1)), ls (ix2 r (0 : Fin 1)), fun d => acc (ix2 r d)⟩ := by
  have h := congr (congr (congrArg Cert.Spec.St.mk (updM_apply q k adj ms r)) (updL_apply q k adj ms ls r))
    (funext fun d => updA_apply q k v adj ms acc r d)
  exact h

theorem init_apply (g e : Vec Ideal S1024x1 .f32) (ev : Vec Ideal S1024x512 .bf16) (gv : Vec Ideal S1x512 .f32) (r : Fin 1024) :
    (⟨initM g e (ix2 r (0 : Fin 1)), initL g e (ix2 r (0 : Fin 1)), fun d => initA g e ev gv (ix2 r d)⟩ : Cert.Spec.St)
      = Cert.Spec.initT (g (ix2 r (0 : Fin 1))) (e (ix2 r (0 : Fin 1))) (fun d => gv (ix2 (0 : Fin 1) d)) (fun d => ev (ix2 r d)) := by
  have h := congr (congr (congrArg Cert.Spec.St.mk (initM_apply g e r)) (initL_apply g e r))
    (funext fun d => initA_apply g e ev gv r d)
  exact h

theorem finO_apply (acc : Vec Ideal S1024x512 .f32) (ls : Vec Ideal S1024x1 .f32) (mx : Vec Ideal S1024x512 .f32) (r : Fin 1024) (d : Fin 512) :
    finO acc ls mx (ix2 r d) = max (Ideal.div (acc (ix2 r d)) (ls (ix2 r (0 : Fin 1)))) (mx (ix2 r d)) := by
  unfold finO k0_pay3
  rw [maximumf_apply, divf_apply, Cert.RowReduce.broadcastTo_a1_ab_apply]

end Cert.KernelIdeal.Val

end
-- ==== Proof.SpecArgs.lean ====
/-
  The attention core's nine arrays as functions of the program's fourteen arguments.

  The mean row of `x` is `x̄ = (Σ_r x[r, ·]) / 8192`. Queries, the global-score factor and the essential values are
  products of the masked input with `Wlq`, `Wgq`, `Wev` (the last plus the bias `bev`); keys and values are products
  of `x` with `Wlk`, `Wlv` (the last plus `blv`); the global key and value rows are products of `x̄` with `Wgk`, `Wgv`
  (the last plus `bgv`); the global score of a row is its `Wgq` product against the global key row, scaled; the
  essential score is the product with the one column `Wes`.
-/
import proofs.«419049_j49134425866853_3_alg».proof.Proof.Spec

noncomputable section

open scoped BigOperators

namespace Cert.Spec

open Idealize.ShloMosaic

/-- The fourteen arguments, read at coordinates. -/
structure Args where
  adj : Fin 8192 → Fin 8192 → Bool
  x : Fin 8192 → Fin 512 → EReal
  mxin : Fin 8192 → Fin 512 → EReal
  wlq : Fin 512 → Fin 512 → EReal
  wlk : Fin 512 → Fin 512 → EReal
  wlv : Fin 512 → Fin 512 → EReal
  blv : Fin 512 → EReal
  wgq : Fin 512 → Fin 512 → EReal
  wgk : Fin 512 → Fin 512 → EReal
  wgv : Fin 512 → Fin 512 → EReal
  bgv : Fin 512 → EReal
  wes : Fin 512 → EReal
  wev : Fin 512 → Fin 512 → EReal
  bev : Fin 512 → EReal

variable (a : Args)

/-- The number of rows, as the float the mean divides by. -/
def nRows : EReal := Ideal.ofBits .f32 0x46000000#32

/-- The mean row of `x`. -/
def Args.xbar (k : Fin 512) : EReal := Ideal.div (∑ r : Fin 8192, a.x r k) nRows

/-- The global key row. -/
def Args.gk (d : Fin 512) : EReal := ∑ k : Fin 512, a.xbar k * a.wgk k d

/-- The attention core's arrays. -/
def Args.ops : Ops where
  q R d := ∑ k : Fin 512, a.mxin R k * a.wlq k d
  k R d := ∑ k : Fin 512, a.x R k * a.wlk k d
  v R d := (∑ k : Fin 512, a.x R k * a.wlv k d) + a.blv d
  adj := a.adj
  gs R := (∑ d : Fin 512, (∑ k : Fin 512, a.mxin R k * a.wgq k d) * a.gk d) * Ideal.ofBits .f32 0x3D3504F3#32
  es R := ∑ k : Fin 512, a.mxin R k * a.wes k
  ev R d := (∑ k : Fin 512, a.mxin R k * a.wev k d) + a.bev d
  gv d := (∑ k : Fin 512, a.xbar k * a.wgv k d) + a.bgv d
  mx := a.mxin
  scale := Ideal.ofBits .f32 0x3D3504F3#32
  fill := Ideal.ofBits .f32 0xCE6E6B28#32

/-- Every float argument entry is a real number. -/
structure Args.Finite : Prop where
  x : ∀ r k, ∃ t : ℝ, a.x r k = (t : EReal)
  mxin : ∀ r k, ∃ t : ℝ, a.mxin r k = (t : EReal)
  wlq : ∀ r k, ∃ t : ℝ, a.wlq r k = (t : EReal)
  wlk : ∀ r k, ∃ t : ℝ, a.wlk r k = (t : EReal)
  wlv : ∀ r k, ∃ t : ℝ, a.wlv r k = (t : EReal)
  blv : ∀ k, ∃ t : ℝ, a.blv k = (t : EReal)
  wgq : ∀ r k, ∃ t : ℝ, a.wgq r k = (t : EReal)
  wgk : ∀ r k, ∃ t : ℝ, a.wgk r k = (t : EReal)
  wgv : ∀ r k, ∃ t : ℝ, a.wgv r k = (t : EReal)
  bgv : ∀ k, ∃ t : ℝ, a.bgv k = (t : EReal)
  wes : ∀ k, ∃ t : ℝ, a.wes k = (t : EReal)
  wev : ∀ r k, ∃ t : ℝ, a.wev r k = (t : EReal)
  bev : ∀ k, ∃ t : ℝ, a.bev k = (t : EReal)

end Cert.Spec

end
-- ==== Proof.SpecArrays.lean ====
/-
  The fourteen arguments as arrays over their shapes, read at coordinates.
-/
import proofs.«419049_j49134425866853_3_alg».proof.Proof.SpecArgs
import Idealize.ShloMosaic.Lib.ValueIdx

noncomputable section

namespace Cert.Spec

open Idealize.ShloMosaic Idealize.ShloMosaic.ValueIdx

/-- The arguments from the fourteen arrays: the mask bit is an edge when it is one. -/
def Args.ofArrays
    (a0 : (⟨2, ![8192, 8192]⟩ : Shape).Idx → BitVec 1)
    (a1 a2 : (⟨2, ![8192, 512]⟩ : Shape).Idx → EReal)
    (a3 a4 a5 : (⟨2, ![512, 512]⟩ : Shape).Idx → EReal) (a6 : (⟨1, ![512]⟩ : Shape).Idx → EReal)
    (a7 a8 a9 : (⟨2, ![512, 512]⟩ : Shape).Idx → EReal) (a10 : (⟨1, ![512]⟩ : Shape).Idx → EReal)
    (a11 : (⟨2, ![512, 1]⟩ : Shape).Idx → EReal) (a12 : (⟨2, ![512, 512]⟩ : Shape).Idx → EReal)
    (a13 : (⟨1, ![512]⟩ : Shape).Idx → EReal) : Args where
  adj R j := decide (a0 (ix2 R j) = 1#1)
  x r k := a1 (ix2 r k)
  mxin r k := a2 (ix2 r k)
  wlq r k := a3 (ix2 r k)
  wlk r k := a4 (ix2 r k)
  wlv r k := a5 (ix2 r k)
  blv k := a6 (ix1 k)
  wgq r k := a7 (ix2 r k)
  wgk r k := a8 (ix2 r k)
  wgv r k := a9 (ix2 r k)
  bgv k := a10 (ix1 k)
  wes k := a11 (ix2 k (0 : Fin 1))
  wev r k := a12 (ix2 r k)
  bev k := a13 (ix1 k)

end Cert.Spec

end
-- ==== Proof.WinOps.lean ====
/-
  The nine arrays the pipeline reads, as it finds them on a core, packaged as the attention core's inputs; and the
  program's fourteen arguments read at coordinates.
-/
import proofs.«419049_j49134425866853_3_alg».proof.Proof.KI.Kit
import proofs.«419049_j49134425866853_3_alg».proof.Proof.SpecArrays
import Idealize.ShloMosaic.Lib.ValueIdx

noncomputable section

namespace Cert.KernelIdeal.Val

open Cert.KernelIdeal Cert.KernelIdeal.Gen Cert.KernelIdeal.Fr
open Idealize.ShloMosaic Idealize.ShloMosaic.TcCoe Idealize.ShloMosaic.ValueIdx Idealize.SL.Sem

variable (m : (ℓ : Loc nD τ sig) → Buf (Elt Ideal) ℓ)

/-- The pipeline's input arrays on core `c`, at the moment it starts. -/
abbrev arrQ (c : Dev nD) : S8192x512.Idx → EReal := V m c main_v23
abbrev arrK (c : Dev nD) : S8192x512.Idx → EReal := V m c main_v24
abbrev arrV (c : Dev nD) : S8192x512.Idx → EReal := V m c main_v25
abbrev arrAdj (c : Dev nD) : S8192x8192.Idx → BitVec 32 := V m c main_v38
abbrev arrGs (c : Dev nD) : S8192x1.Idx → EReal := V m c main_v37
abbrev arrEs (c : Dev nD) : S8192x1.Idx → EReal := V m c main_v29
abbrev arrEv (c : Dev nD) : S8192x512.Idx → EReal := V m c main_v26
abbrev arrGv (c : Dev nD) : S1x512.Idx → EReal := V m c main_v33
abbrev arrMx (c : Dev nD) : S8192x512.Idx → EReal := V m c main_arg2

/-- The attention core's inputs as the pipeline finds them. -/
def winOps (c : Dev nD) : Cert.Spec.Ops where
  q R d := arrQ m c (ix2 R d)
  k R d := arrK m c (ix2 R d)
  v R d := arrV m c (ix2 R d)
  adj R j := decide (arrAdj m c (ix2 R j) ≠ 0#32)
  gs R := arrGs m c (ix2 R (0 : Fin 1))
  es R := arrEs m c (ix2 R (0 : Fin 1))
  ev R d := arrEv m c (ix2 R d)
  gv d := arrGv m c (ix2 (0 : Fin 1) d)
  mx R d := arrMx m c (ix2 R d)
  scale := Ideal.ofBits .f32 0x3D3504F3#32
  fill := Ideal.ofBits .f32 0xCE6E6B28#32

/-- The program's arguments on core `c`, read at coordinates. -/
def argsOf (c : Dev nD) : Cert.Spec.Args :=
  Cert.Spec.Args.ofArrays (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13))

end Cert.KernelIdeal.Val

end
-- ==== Proof.BlockIdx.lean ====
/-
  Each window's block at a grid point, read at coordinates inside the block, is its array read at the global
  coordinates: grid point `t` is query tile `t / 8` and key tile `t % 8`; row `r` of a query-side block is array row
  `1024 · (t / 8) + r`, row `b` of a key-side block is array row `1024 · (t % 8) + b`.
-/
import proofs.«419049_j49134425866853_3_alg».proof.Proof.WinOps

noncomputable section

open scoped BigOperators

namespace Cert.KernelIdeal.Val

open Cert.KernelIdeal Cert.KernelIdeal.Gen Cert.KernelIdeal.Fr
open Idealize.ShloMosaic Idealize.ShloMosaic.TcCoe Idealize.ShloMosaic.ValueIdx Idealize.SL.Sem

variable (m : (ℓ : Loc nD τ sig) → Buf (Elt Ideal) ℓ)

/-- The array row of row `r` of grid point `t`'s query tile. -/
def rowOf (t : Fin cfg0.N) (r : Fin 1024) : Fin 8192 :=
  ⟨1024 * (t.val / 8) + r.val, by have : t.val < 64 := lt_of_lt_of_eq t.isLt N_0; omega⟩
/-- Grid point `t`'s key tile. -/
def kvOfPt (t : Fin cfg0.N) : Fin 8 := ⟨t.val % 8, Nat.mod_lt _ (by norm_num)⟩
/-- The array row of key `b` of grid point `t`'s key tile. -/
def keyOf (t : Fin cfg0.N) (b : Fin 1024) : Fin 8192 := Cert.Spec.pos (kvOfPt t) b

/-- The blocks at their literal types. -/
abbrev blkQ (c : Dev nD) (t : Fin cfg0.N) : Vec Ideal S1024x512 .bf16 := iblk m c 0 t
abbrev blkK (c : Dev nD) (t : Fin cfg0.N) : Vec Ideal S1024x512 .bf16 := iblk m c 1 t
abbrev blkV (c : Dev nD) (t : Fin cfg0.N) : Vec Ideal S1024x512 .bf16 := iblk m c 2 t
abbrev blkAdj (c : Dev nD) (t : Fin cfg0.N) : Vec Ideal S1024x1024 .i32 := iblk m c 3 t
abbrev blkGs (c : Dev nD) (t : Fin cfg0.N) : Vec Ideal S1024x1 .f32 := iblk m c 4 t
abbrev blkEs (c : Dev nD) (t : Fin cfg0.N) : Vec Ideal S1024x1 .f32 := iblk m c 5 t
abbrev blkEv (c : Dev nD) (t : Fin cfg0.N) : Vec Ideal S1024x512 .bf16 := iblk m c 6 t
abbrev blkGv (c : Dev nD) (t : Fin cfg0.N) : Vec Ideal S1x512 .f32 := iblk m c 7 t
abbrev blkMx (c : Dev nD) (t : Fin cfg0.N) : Vec Ideal S1024x512 .f32 := iblk m c 8 t

/-- The printed index maps over the grid: query-side windows sit at block row `t / 8`, key-side windows at block row
    `t % 8`, the adjacency window at block `(t / 8, t % 8)`, and the per-column scale at the single block. -/
private theorem idxQ : ∀ t : Fin cfg0.N, win0_0.index t (0 : Fin 2) = t.val / 8 ∧ win0_0.index t (1 : Fin 2) = 0 :=
  (by decide +kernel : ∀ t : Fin grid0.N, _)
private theorem idxK : ∀ t : Fin cfg0.N, win0_1.index t (0 : Fin 2) = t.val % 8 ∧ win0_1.index t (1 : Fin 2) = 0 :=
  (by decide +kernel : ∀ t : Fin grid0.N, _)
private theorem idxV : ∀ t : Fin cfg0.N, win0_2.index t (0 : Fin 2) = t.val % 8 ∧ win0_2.index t (1 : Fin 2) = 0 :=
  (by decide +kernel : ∀ t : Fin grid0.N, _)
private theorem idxAdj : ∀ t : Fin cfg0.N, win0_3.index t (0 : Fin 2) = t.val / 8 ∧ win0_3.index t (1 : Fin 2) = t.val % 8 :=
  (by decide +kernel : ∀ t : Fin grid0.N, _)
private theorem idxGs : ∀ t : Fin cfg0.N, win0_4.index t (0 : Fin 2) = t.val / 8 ∧ win0_4.index t (1 : Fin 2) = 0 :=
  (by decide +kernel : ∀ t : Fin grid0.N, _)
private theorem idxEs : ∀ t : Fin cfg0.N, win0_5.index t (0 : Fin 2) = t.val / 8 ∧ win0_5.index t (1 : Fin 2) = 0 :=
  (by decide +kernel : ∀ t : Fin grid0.N, _)
private theorem idxEv : ∀ t : Fin cfg0.N, win0_6.index t (0 : Fin 2) = t.val / 8 ∧ win0_6.index t (1 : Fin 2) = 0 :=
  (by decide +kernel : ∀ t : Fin grid0.N, _)
private theorem idxGv : ∀ t : Fin cfg0.N, win0_7.index t (0 : Fin 2) = 0 ∧ win0_7.index t (1 : Fin 2) = 0 :=
  (by decide +kernel : ∀ t : Fin grid0.N, _)
private theorem idxMx : ∀ t : Fin cfg0.N, win0_8.index t (0 : Fin 2) = t.val / 8 ∧ win0_8.index t (1 : Fin 2) = 0 :=
  (by decide +kernel : ∀ t : Fin grid0.N, _)

theorem blkQ_apply (c : Dev nD) (t : Fin cfg0.N) (r : Fin 1024) (d : Fin 512) :
    blkQ m c t (ix2 r d) = arrQ m c (ix2 (rowOf t r) d) := by
  show V m c main_v23 (((cfg0.win 0).blk t).view.emb (ix2 r d)) = V m c main_v23 (ix2 (rowOf t r) d)
  congr 1
  funext a; apply Fin.ext
  match a with
  | ⟨0, _⟩ =>
    show win0_0.index t (0 : Fin 2) * 1024 + 1 * r.val = 1024 * (t.val / 8) + r.val
    rw [(idxQ t).1]; omega
  | ⟨1, _⟩ =>
    show win0_0.index t (1 : Fin 2) * 512 + 1 * d.val = d.val
    rw [(idxQ t).2]; omega
theorem blkK_apply (c : Dev nD) (t : Fin cfg0.N) (b : Fin 1024) (d : Fin 512) :
    blkK m c t (ix2 b d) = arrK m c (ix2 (keyOf t b) d) := by
  show V m c main_v24 (((cfg0.win 1).blk t).view.emb (ix2 b d)) = V m c main_v24 (ix2 (keyOf t b) d)
  congr 1
  funext a; apply Fin.ext
  match a with
  | ⟨0, _⟩ =>
    show win0_1.index t (0 : Fin 2) * 1024 + 1 * b.val = 1024 * (t.val % 8) + b.val
    rw [(idxK t).1]; omega
  | ⟨1, _⟩ =>
    show win0_1.index t (1 : Fin 2) * 512 + 1 * d.val = d.val
    rw [(idxK t).2]; omega
theorem blkV_apply (c : Dev nD) (t : Fin cfg0.N) (b : Fin 1024) (d : Fin 512) :
    blkV m c t (ix2 b d) = arrV m c (ix2 (keyOf t b) d) := by
  show V m c main_v25 (((cfg0.win 2).blk t).view.emb (ix2 b d)) = V m c main_v25 (ix2 (keyOf t b) d)
  congr 1
  funext a; apply Fin.ext
  match a with
  | ⟨0, _⟩ =>
    show win0_2.index t (0 : Fin 2) * 1024 + 1 * b.val = 1024 * (t.val % 8) + b.val
    rw [(idxV t).1]; omega
  | ⟨1, _⟩ =>
    show win0_2.index t (1 : Fin 2) * 512 + 1 * d.val = d.val
    rw [(idxV t).2]; omega
theorem blkAdj_apply (c : Dev nD) (t : Fin cfg0.N) (r b : Fin 1024) :
    blkAdj m c t (ix2 r b) = arrAdj m c (ix2 (rowOf t r) (keyOf t b)) := by
  show V m c main_v38 (((cfg0.win 3).blk t).view.emb (ix2 r b)) = V m c main_v38 (ix2 (rowOf t r) (keyOf t b))
  congr 1
  funext a; apply Fin.ext
  match a with
  | ⟨0, _⟩ =>
    show win0_3.index t (0 : Fin 2) * 1024 + 1 * r.val = 1024 * (t.val / 8) + r.val
    rw [(idxAdj t).1]; omega
  | ⟨1, _⟩ =>
    show win0_3.index t (1 : Fin 2) * 1024 + 1 * b.val = 1024 * (t.val % 8) + b.val
    rw [(idxAdj t).2]; omega
theorem blkGs_apply (c : Dev nD) (t : Fin cfg0.N) (r : Fin 1024) :
    blkGs m c t (ix2 r (0 : Fin 1)) = arrGs m c (ix2 (rowOf t r) (0 : Fin 1)) := by
  show V m c main_v37 (((cfg0.win 4).blk t).view.emb (ix2 r (0 : Fin 1))) = V m c main_v37 (ix2 (rowOf t r) (0 : Fin 1))
  congr 1
  funext a; apply Fin.ext
  match a with
  | ⟨0, _⟩ =>
    show win0_4.index t (0 : Fin 2) * 1024 + 1 * r.val = 1024 * (t.val / 8) + r.val
    rw [(idxGs t).1]; omega
  | ⟨1, _⟩ =>
    show win0_4.index t (1 : Fin 2) * 1 + 1 * 0 = 0
    rw [(idxGs t).2]
theorem blkEs_apply (c : Dev nD) (t : Fin cfg0.N) (r : Fin 1024) :
    blkEs m c t (ix2 r (0 : Fin 1)) = arrEs m c (ix2 (rowOf t r) (0 : Fin 1)) := by
  show V m c main_v29 (((cfg0.win 5).blk t).view.emb (ix2 r (0 : Fin 1))) = V m c main_v29 (ix2 (rowOf t r) (0 : Fin 1))
  congr 1
  funext a; apply Fin.ext
  match a with
  | ⟨0, _⟩ =>
    show win0_5.index t (0 : Fin 2) * 1024 + 1 * r.val = 1024 * (t.val / 8) + r.val
    rw [(idxEs t).1]; omega
  | ⟨1, _⟩ =>
    show win0_5.index t (1 : Fin 2) * 1 + 1 * 0 = 0
    rw [(idxEs t).2]
theorem blkEv_apply (c : Dev nD) (t : Fin cfg0.N) (r : Fin 1024) (d : Fin 512) :
    blkEv m c t (ix2 r d) = arrEv m c (ix2 (rowOf t r) d) := by
  show V m c main_v26 (((cfg0.win 6).blk t).view.emb (ix2 r d)) = V m c main_v26 (ix2 (rowOf t r) d)
  congr 1
  funext a; apply Fin.ext
  match a with
  | ⟨0, _⟩ =>
    show win0_6.index t (0 : Fin 2) * 1024 + 1 * r.val = 1024 * (t.val / 8) + r.val
    rw [(idxEv t).1]; omega
  | ⟨1, _⟩ =>
    show win0_6.index t (1 : Fin 2) * 512 + 1 * d.val = d.val
    rw [(idxEv t).2]; omega
theorem blkGv_apply (c : Dev nD) (t : Fin cfg0.N) (d : Fin 512) :
    blkGv m c t (ix2 (0 : Fin 1) d) = arrGv m c (ix2 (0 : Fin 1) d) := by
  show V m c main_v33 (((cfg0.win 7).blk t).view.emb (ix2 (0 : Fin 1) d)) = V m c main_v33 (ix2 (0 : Fin 1) d)
  congr 1
  funext a; apply Fin.ext
  match a with
  | ⟨0, _⟩ =>
    show win0_7.index t (0 : Fin 2) * 1 + 1 * 0 = 0
    rw [(idxGv t).1]
  | ⟨1, _⟩ =>
    show win0_7.index t (1 : Fin 2) * 512 + 1 * d.val = d.val
    rw [(idxGv t).2]; omega
theorem blkMx_apply (c : Dev nD) (t : Fin cfg0.N) (r : Fin 1024) (d : Fin 512) :
    blkMx m c t (ix2 r d) = arrMx m c (ix2 (rowOf t r) d) := by
  show V m c main_arg2 (((cfg0.win 8).blk t).view.emb (ix2 r d)) = V m c main_arg2 (ix2 (rowOf t r) d)
  congr 1
  funext a; apply Fin.ext
  match a with
  | ⟨0, _⟩ =>
    show win0_8.index t (0 : Fin 2) * 1024 + 1 * r.val = 1024 * (t.val / 8) + r.val
    rw [(idxMx t).1]; omega
  | ⟨1, _⟩ =>
    show win0_8.index t (1 : Fin 2) * 512 + 1 * d.val = d.val
    rw [(idxMx t).2]; omega

end Cert.KernelIdeal.Val

end
-- ==== Proof.PointInv.lean ====
/-
  What the scratch buffers hold after each grid point, row by row: after the point of query tile `qi` and key tile
  `kv`, row `r` of the three buffers is the running state of array row `1024 · qi + r` after key tiles `0 … kv`.
  By induction on the point: a first key tile starts from the global and essential terms and folds its tile in; every
  other key tile folds its tile into what the point before left, which belongs to the same query tile.
-/
import proofs.«419049_j49134425866853_3_alg».proof.Proof.Pieces
import proofs.«419049_j49134425866853_3_alg».proof.Proof.PayIdx
import proofs.«419049_j49134425866853_3_alg».proof.Proof.BlockIdx

noncomputable section

open scoped BigOperators

namespace Cert.KernelIdeal.Val

open Cert.KernelIdeal Cert.KernelIdeal.Gen Cert.KernelIdeal.Fr
open Idealize.ShloMosaic Idealize.ShloMosaic.TcCoe Idealize.ShloMosaic.ValueIdx Idealize.SL.Sem

variable (m : (ℓ : Loc nD τ sig) → Buf (Elt Ideal) ℓ)

/-- The result block and the three scratch buffers. -/
abbrev Tup := Vec Ideal S1024x512 .f32 × Vec Ideal S1024x1 .f32 × Vec Ideal S1024x1 .f32 × Vec Ideal S1024x512 .f32

/-- Row `r` of the three scratch buffers as a running state. -/
def stOf (x : Tup) (r : Fin 1024) : Cert.Spec.St :=
  ⟨x.2.1 (ix2 r (0 : Fin 1)), x.2.2.1 (ix2 r (0 : Fin 1)), fun d => x.2.2.2 (ix2 r d)⟩

/-- Row `r` of the point's tile scores is the array's scores of row `rowOf t r` against the keys of the point's tile. -/
theorem tileScore_blk (c : Dev nD) (t : Fin cfg0.N) (r : Fin 1024) :
    tileScore (blkQ m c t) (blkK m c t) (blkAdj m c t) r
      = fun b => Cert.Spec.score (winOps m c) (rowOf t r) (Cert.Spec.pos (kvOfPt t) b) := by
  funext b
  unfold tileScore Cert.Spec.scoreT Cert.Spec.score
  simp only [blkQ_apply, blkK_apply, blkAdj_apply]
  rfl

/-- The point's value block, row `b`, is the array's value row of key `b` of the point's tile. -/
theorem blkV_rows (c : Dev nD) (t : Fin cfg0.N) :
    (fun (b : Fin 1024) (d : Fin 512) => blkV m c t (ix2 b d))
      = fun b d => (winOps m c).v (Cert.Spec.pos (kvOfPt t) b) d := by
  funext b d
  rw [blkV_apply]; rfl

/-- One key tile folded in: if the scratch buffers held row `r`'s state `s`, the updated buffers hold the state after
    the point's tile. -/
theorem upd_row (c : Dev nD) (t : Fin cfg0.N) (r : Fin 1024) (ms ls : Vec Ideal S1024x1 .f32) (acc : Vec Ideal S1024x512 .f32)
    (x : Tup)
    (hx0 : x.2.1 = updM (blkQ m c t) (blkK m c t) (blkAdj m c t) ms)
    (hx1 : x.2.2.1 = updL (blkQ m c t) (blkK m c t) (blkAdj m c t) ms ls)
    (hx2 : x.2.2.2 = updA (blkQ m c t) (blkK m c t) (blkV m c t) (blkAdj m c t) ms acc) :
    stOf x r = Cert.Spec.step (winOps m c) (rowOf t r)
      ⟨ms (ix2 r (0 : Fin 1)), ls (ix2 r (0 : Fin 1)), fun d => acc (ix2 r d)⟩ (kvOfPt t) := by
  unfold stOf
  rw [hx0, hx1, hx2, upd_apply, tileScore_blk, blkV_rows, Cert.Spec.step_eq_stepT]

/-- The starting state of row `r` from the point's blocks. -/
theorem init_row (c : Dev nD) (t : Fin cfg0.N) (r : Fin 1024) :
    (⟨initM (blkGs m c t) (blkEs m c t) (ix2 r (0 : Fin 1)), initL (blkGs m c t) (blkEs m c t) (ix2 r (0 : Fin 1)),
        fun d => initA (blkGs m c t) (blkEs m c t) (blkEv m c t) (blkGv m c t) (ix2 r d)⟩ : Cert.Spec.St)
      = Cert.Spec.init (winOps m c) (rowOf t r) := by
  rw [init_apply, Cert.Spec.init_eq_initT, blkGs_apply, blkEs_apply]
  simp only [blkGv_apply, blkEv_apply]
  rfl

theorem kvOf_pt (t : Fin cfg0.N) : Cert.Spec.kvOf (t.val % 8) = kvOfPt t :=
  Fin.ext (Nat.mod_mod _ _)

/-- A first key tile. -/
theorem point_first (c : Dev nD) (t : Fin cfg0.N) (h0 : t.val % 8 = 0) (r : Fin 1024) :
    stOf (outsAt0 m c t.val t.isLt) r = Cert.Spec.run (winOps m c) (rowOf t r) (t.val % 8) := by
  have h1 : ¬t.val % 8 = 7 := by omega
  rw [outsAt0_A m c t h0 h1]
  rw [upd_row m c t r _ _ _ _ (outA_s0 m c t h0 h1) (outA_s1 m c t h0 h1) (outA_s2 m c t h0 h1), init_row]
  rw [← kvOf_pt, h0]
  rfl

/-- Every other key tile, from the state the point before left. -/
theorem point_next (c : Dev nD) (t : Fin cfg0.N) (h0 : ¬t.val % 8 = 0) (r : Fin 1024)
    (ih : stOf (prevAt m c t) r = Cert.Spec.run (winOps m c) (rowOf t r) (t.val % 8 - 1)) :
    stOf (outsAt0 m c t.val t.isLt) r = Cert.Spec.run (winOps m c) (rowOf t r) (t.val % 8) := by
  obtain ⟨k, hk⟩ : ∃ k, t.val % 8 = k + 1 := ⟨t.val % 8 - 1, by omega⟩
  have hrun : Cert.Spec.run (winOps m c) (rowOf t r) (t.val % 8)
      = Cert.Spec.step (winOps m c) (rowOf t r) (Cert.Spec.run (winOps m c) (rowOf t r) (t.val % 8 - 1)) (kvOfPt t) := by
    rw [← kvOf_pt, hk]; rfl
  rw [hrun, ← ih]
  by_cases h1 : t.val % 8 = 7
  · rw [outsAt0_C m c t h0 h1]
    exact upd_row m c t r _ _ _ _ (outC_s0 m c t h0 h1 _ _ _) (outC_s1 m c t h0 h1 _ _ _) (outC_s2 m c t h0 h1 _ _ _)
  · rw [outsAt0_B m c t h0 h1]
    exact upd_row m c t r _ _ _ _ (outB_s0 m c t h0 h1 _ _ _) (outB_s1 m c t h0 h1 _ _ _) (outB_s2 m c t h0 h1 _ _ _)

/-- The point before a point that is not a first key tile belongs to the same query tile. -/
theorem rowOf_pred (t : Fin cfg0.N) (h0 : ¬t.val % 8 = 0) (r : Fin 1024) (hlt : t.val - 1 < cfg0.N) :
    rowOf ⟨t.val - 1, hlt⟩ r = rowOf t r := by
  apply Fin.ext
  show 1024 * ((t.val - 1) / 8) + r.val = 1024 * (t.val / 8) + r.val
  have : (t.val - 1) / 8 = t.val / 8 := by omega
  rw [this]

/-- After every grid point, row `r` of the scratch buffers is the running state of its array row after the key tiles
    seen so far. -/
theorem point_inv (c : Dev nD) : ∀ (n : ℕ) (hn : n < cfg0.N) (r : Fin 1024),
    stOf (outsAt0 m c n hn) r = Cert.Spec.run (winOps m c) (rowOf ⟨n, hn⟩ r) (n % 8) := by
  intro n
  induction n with
  | zero => intro hn r; exact point_first m c ⟨0, hn⟩ (Nat.zero_mod _) r
  | succ k ih =>
    intro hn r
    by_cases h0 : (k + 1) % 8 = 0
    · exact point_first m c ⟨k + 1, hn⟩ h0 r
    · refine point_next m c ⟨k + 1, hn⟩ h0 r ?_
      have hk := ih (Nat.lt_of_succ_lt hn) r
      have e1 : (k + 1) % 8 - 1 = k % 8 := by omega
      have e2 := rowOf_pred ⟨k + 1, hn⟩ h0 r (Nat.lt_of_succ_lt hn)
      show stOf (outsAt0 m c (k + 1 - 1) _) r = Cert.Spec.run (winOps m c) (rowOf ⟨k + 1, hn⟩ r) ((k + 1) % 8 - 1)
      rw [e1, ← e2]
      exact hk

end Cert.KernelIdeal.Val

end
-- ==== Proof.Final.lean ====
/-
  The result array after the run. A query tile's block is written back after its last key tile; there the stored block
  is, row by row, the accumulator over the denominator joined with the masked input, and the three scratch buffers hold
  the running state after all eight key tiles, so entry `(R, d)` of the result array is the tiled result of array row `R`.
  The 8 written blocks of 1024 rows cover the 8192 rows.
-/
import proofs.«419049_j49134425866853_3_alg».proof.Proof.PointInv
import Idealize.ShloMosaic.Lib.Pipeline.Value

noncomputable section

open scoped BigOperators

namespace Cert.KernelIdeal.Val

open Cert.KernelIdeal Cert.KernelIdeal.Gen Cert.KernelIdeal.Fr
open Idealize.ShloMosaic Idealize.ShloMosaic.TcCoe Idealize.ShloMosaic.ValueIdx Idealize.SL.Sem

variable (m : (ℓ : Loc nD τ sig) → Buf (Elt Ideal) ℓ) (ρ : Dev nD → PrngReg)

/-- The result array as one function: entry `(R, d)` is the tiled result of row `R`, column `d`. -/
def Gout (c : Dev nD) : S8192x512.Idx → EReal :=
  fun i => Cert.Spec.out (winOps m c) ⟨(i 0).val, (i 0).isLt⟩ ⟨(i 1).val, (i 1).isLt⟩

/-- The result window's block index at grid point `t`: the query tile, and the only block of columns. -/
theorem idx9 : ∀ t : Fin cfg0.N, win0_9.index t (0 : Fin 2) = t.val / 8 ∧ win0_9.index t (1 : Fin 2) = 0 :=
  (by decide +kernel : ∀ t : Fin grid0.N, win0_9.index t (0 : Fin 2) = t.val / 8 ∧ win0_9.index t (1 : Fin 2) = 0)

/-- At a last key tile the result block is the quotient block of what the scratch buffers now hold. -/
theorem out_block (c : Dev nD) (t : Fin cfg0.N) (h1 : t.val % 8 = 7) :
    (outsAt0 m c t.val t.isLt).1
      = finO (outsAt0 m c t.val t.isLt).2.2.2 (outsAt0 m c t.val t.isLt).2.2.1 (blkMx m c t) := by
  have h0 : ¬t.val % 8 = 0 := by omega
  rw [outsAt0_C m c t h0 h1, outC_o9, outC_s2, outC_s1]

/-- What a last key tile writes back is its block of `Gout`. -/
theorem flushed9_eq (c : Dev nD) (t : Fin cfg0.N) (hf : (cfg0.win 9).flush t = true) :
    (dats m 0 c).flushed 9 t = ((cfg0.win 9).blk t).view.read (Elt Ideal) (Gout m c) := by
  have h1 : t.val % 8 = 7 := (flush0_9 t).mp hf
  show (cfg0.win 9).cut (grid0.coords t) ((dats m 0 c).after 9 t) = _
  rw [after0_9, out_block m c t h1]
  funext j
  obtain ⟨r, d, rfl⟩ : ∃ (r : Fin 1024) (d : Fin 512), j = ix2 r d := ⟨j 0, j 1, eq_ix2 (n0 := 1024) (n1 := 512) j⟩
  show finO (outsAt0 m c t.val t.isLt).2.2.2 (outsAt0 m c t.val t.isLt).2.2.1 (blkMx m c t) (ix2 r d)
    = Gout m c (((cfg0.win 9).blk t).view.emb (ix2 r d))
  have hst := point_inv m c t.val t.isLt r
  rw [h1] at hst
  have ha : (fun d => (outsAt0 m c t.val t.isLt).2.2.2 (ix2 r d)) = (Cert.Spec.run (winOps m c) (rowOf t r) 7).a :=
    congrArg Cert.Spec.St.a hst
  have hl : (outsAt0 m c t.val t.isLt).2.2.1 (ix2 r (0 : Fin 1)) = (Cert.Spec.run (winOps m c) (rowOf t r) 7).l :=
    congrArg Cert.Spec.St.l hst
  rw [finO_apply, hl, congrFun ha d, blkMx_apply]
  have e0 : (⟨((((cfg0.win 9).blk t).view.emb (ix2 r d)) 0).val, ((((cfg0.win 9).blk t).view.emb (ix2 r d)) 0).isLt⟩ : Fin 8192) = rowOf t r := by
    apply Fin.ext
    show win0_9.index t (0 : Fin 2) * 1024 + 1 * r.val = 1024 * (t.val / 8) + r.val
    rw [(idx9 t).1]; omega
  have e1 : (⟨((((cfg0.win 9).blk t).view.emb (ix2 r d)) 1).val, ((((cfg0.win 9).blk t).view.emb (ix2 r d)) 1).isLt⟩ : Fin 512) = d := by
    apply Fin.ext
    show win0_9.index t (1 : Fin 2) * 512 + 1 * d.val = d.val
    rw [(idx9 t).2]; omega
  unfold Gout Cert.Spec.out
  rw [e0, e1]
  rfl

/-- An index of the array is in point `t`'s block iff each coordinate is in the block's range. -/
theorem mem_blk9 (t : Fin cfg0.N) (i : S8192x512.Idx) :
    i ∈ ((cfg0.win 9).blk t).view.set ↔ ∀ a : Fin 2, win0_9.index t a * S1024x512.size a ≤ (i a).val ∧ (i a).val < win0_9.index t a * S1024x512.size a + S1024x512.size a := by
  show i ∈ ((View.whole main_v39).slice (win0_9.rect t)).set ↔ _
  rw [View.set_slice_whole, Rect.mem_set_unit]
  exact Iff.rfl

/-- Every entry of the result array lies in a block some last key tile writes back. -/
theorem cover9 (i : S8192x512.Idx) : ∃ t : Fin cfg0.N, (cfg0.win 9).flush t = true ∧ i ∈ ((cfg0.win 9).blk t).view.set := by
  have hi0 : (i 0).val < 8192 := (i 0).isLt
  have hi1 : (i 1).val < 512 := (i 1).isLt
  have hN : cfg0.N = 64 := N_0
  refine ⟨⟨8 * ((i 0).val / 1024) + 7, by omega⟩, (flush0_9 _).mpr (by show (8 * ((i 0).val / 1024) + 7) % 8 = 7; omega), ?_⟩
  rw [mem_blk9]
  have q := idx9 ⟨8 * ((i 0).val / 1024) + 7, by omega⟩
  intro a
  match a with
  | ⟨0, _⟩ =>
    show win0_9.index _ (0 : Fin 2) * 1024 ≤ (i 0).val ∧ (i 0).val < win0_9.index _ (0 : Fin 2) * 1024 + 1024
    rw [q.1]; show (8 * ((i 0).val / 1024) + 7) / 8 * 1024 ≤ (i 0).val ∧ (i 0).val < (8 * ((i 0).val / 1024) + 7) / 8 * 1024 + 1024
    omega
  | ⟨1, _⟩ =>
    show win0_9.index _ (1 : Fin 2) * 512 ≤ (i 1).val ∧ (i 1).val < win0_9.index _ (1 : Fin 2) * 512 + 512
    rw [q.2]; omega

/-- The result array after the run. -/
theorem final9 (c : Dev nD) : (dats m 0 c).arrAt 9 cfg0.N = Gout m c :=
  (dats m 0 c).arrAt_eq_of_cover 9 (Gout m c) (fun t hf => flushed9_eq m c t hf) (cover9)

/-- The run, read: the program runs to its end, the result array is the tiled result of the pipeline's inputs, and the
    arguments end as launched. -/
theorem run_val : θ_run defs (onTc (τ := τ) (main (F := Ideal))) ⟨m, fun _ => 0, ρ⟩ (fun r => ∀ c : Dev nD,
      r.2.mem ((c.tc : Thread nD τ).loc main_v39) = Gout m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun _ h c => ⟨((h c).1 9).trans (final9 m c),
      ((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).1 8).trans ((((dats m) 0 c).arrAt_in 8 rfl _).trans ((A_eq m c 8).trans (V_main_arg2 m c))),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c),
      ((h c).2 main_arg11 (Pipeline.mem_restRefs_of main_arg11 (by decide) (by decide))).trans (V_main_arg11 m c),
      ((h c).2 main_arg12 (Pipeline.mem_restRefs_of main_arg12 (by decide) (by decide))).trans (V_main_arg12 m c),
      ((h c).2 main_arg13 (Pipeline.mem_restRefs_of main_arg13 (by decide) (by decide))).trans (V_main_arg13 m c)⟩)
    (run_main m ρ)

end Cert.KernelIdeal.Val

end
-- ==== Proof.LibNary3.lean ====
/-
  A general lemma about the host operation builder of several operands (`StableHlo.nary`), for a literal
  family of THREE references — a `stablehlo.concatenate` of three operands prints so.
-/
import Idealize.ShloMosaic.Lib.StableHlo.Run

noncomputable section

namespace Idealize.ShloMosaic.StableHlo

open Idealize.SL.Sem

variable {τ : Topo} {sig : RefSig} {Val : EltTy → Type}
variable {x a b y : Ref sig .tc}

/-- `nary` over a literal family of three references writes, at its result reference, its function of the three
    operands' contents, each read AT ITS OWN REFERENCE: `Fin.cons (F ↑x) (Fin.cons (F ↑a) (Fin.cons (F ↑b) …))` in place
    of `fun k => F ↑(![x, a, b] k)`. Under the binder the reference `![x, a, b] k` is no literal, so no result lemma
    of an earlier operation applies to it; in this form the rewriting of the operands' contents goes on, and the
    function's body with `u k` read as operand `k`'s term is the result by β and `Fin.cons` at the literals 0, 1, 2.
    The three-operand companion of the library's `nary4_result`. -/
theorem nary3_result
    (f : ((k : Fin 3) → ((![x, a, b] : Fin 3 → Ref sig .tc) k).ty.Contents Val) → y.ty.Contents Val) (hxs hy)
    (F : Valuation τ sig Val) :
    (nary (τ := τ) ![x, a, b] y f hxs hy).result F (Proc.devRef .tc y)
      = f (Fin.cons (F (Proc.devRef .tc x)) (Fin.cons (F (Proc.devRef .tc a)) (Fin.cons (F (Proc.devRef .tc b)) (fun i => i.elim0)))) :=
  (nary_result ![x, a, b] y f hxs hy F).trans (congrArg f (funext fun k => by fin_cases k <;> rfl))

/-- `nary3_result` with the result reference un-indexed, for one rewriting pass over a whole stretch. -/
theorem nary3_result'
    (f : ((k : Fin 3) → ((![x, a, b] : Fin 3 → Ref sig .tc) k).ty.Contents Val) → y.ty.Contents Val) (hxs hy)
    (F : Valuation τ sig Val) :
    (nary (τ := τ) ![x, a, b] y f hxs hy).result F (no_index (Proc.devRef .tc y))
      = f (Fin.cons (F (Proc.devRef .tc x)) (Fin.cons (F (Proc.devRef .tc a)) (Fin.cons (F (Proc.devRef .tc b)) (fun i => i.elim0)))) :=
  nary3_result f hxs hy F

end Idealize.ShloMosaic.StableHlo

end
-- ==== Proof.HostValueB.lean ====
/-
  Five of the arrays the pipeline reads, as projections of the arguments: the scaled global score, the essential
  score, the global value row, the mask widened to words, and the masked input. Each is the composition of the host
  operations before the pipeline, read element by element; a change of float format is the identity on the
  extended reals.
-/
import proofs.«419049_j49134425866853_3_alg».proof.Proof.WinOps
import proofs.«419049_j49134425866853_3_alg».proof.Proof.LibNary3
import proofs.«419049_j49134425866853_3_alg».proof.Proof.LibPlainDot
import Idealize.ShloMosaic.Lib.StableHlo.Run
import Idealize.ShloMosaic.Lib.Pipeline.Value
import Idealize.ShloMosaic.Lib.ValueLayout
import Idealize.ShloMosaic.PureOps.Ideal.Laws

noncomputable section

open scoped BigOperators

namespace Cert.KernelIdeal.Val

open Cert.KernelIdeal Cert.KernelIdeal.Gen Cert.KernelIdeal.Fr
open Idealize.ShloMosaic Idealize.ShloMosaic.TcCoe Idealize.ShloMosaic.ValueIdx Idealize.SL.Sem
open Idealize.ShloMosaic.StableHlo

/-- The contents of a reference after a list of host operations, unfolded operation by operation: an operation's own
    result is its function of its operands' contents, any other reference is as before it. -/
local macro "host_results" : tactic =>
  `(tactic| (simp (disch := decide) only [after_cons, after_nil,
      nullary_result', unary_result', binary_result', nary3_result',
      nullary_result_ne', unary_result_ne', binary_result_ne', nary_result_ne']))

variable (m : (ℓ : Loc nD τ sig) → Buf (Elt Ideal) ℓ)

/-- A vector laid as the one row of a [1 × n] matrix reads, at (0, k), the vector at k. -/
private theorem row_of_vec_apply {n : Nat} (h : (⟨1, ![n]⟩ : Shape).BroadcastsInDim ⟨2, ![1, n]⟩ (![1] : Fin 1 → Fin 2))
    (v : (⟨1, ![n]⟩ : Shape).Idx → EReal) (k : Fin n) :
    broadcastInDim ⟨2, ![1, n]⟩ ![1] h v (ix2 (0 : Fin 1) k) = v (ix1 k) :=
  broadcastInDim_apply _ h v _ (ix1 k) (fun a => match a with
    | ⟨0, _⟩ => by
      show k.val = if n = 1 then 0 else k.val
      split
      · next h1 => have := k.isLt; omega
      · rfl)

/-- A scalar broadcast to any shape reads the scalar everywhere. -/
private theorem scalar_bcast_apply {t : Shape} (h : (⟨0, ![]⟩ : Shape).BroadcastsInDim t (![] : Fin 0 → Fin t.rank))
    (v : (⟨0, ![]⟩ : Shape).Idx → EReal) (j : t.Idx) : broadcastInDim t ![] h v j = v ix0 :=
  broadcastInDim_apply _ h v j ix0 (fun a => a.elim0)

/-- The mean row as the host computes it — the column sums of `x` from the zero literal, laid as a row, divided entrywise
    by the row of the literal 8192 — reads, at (0, k), the sum of column k divided by that literal. -/
private theorem meanRow_apply (x1 : FVec Ideal S8192x512 .f32)
    (hb1 : S512.BroadcastsInDim S1x512 (![1] : Fin 1 → Fin 2)) (hb0 : S_.BroadcastsInDim S1x512 (![] : Fin 0 → Fin 2))
    (hr : S8192x512.ReducesTo [0] S512) (h0 : 0 < S_.numel) (k : Fin 512) :
    Host.divf
        (broadcastInDim S1x512 ![1] hb1 (Host.reduceAdd x1 (constant (F := Ideal) S_ .f32 0x00000000#32) hr h0))
        (broadcastInDim S1x512 ![] hb0 (constant (F := Ideal) S_ .f32 0x46000000#32)) (ix2 (0 : Fin 1) k)
      = Ideal.div (∑ r : Fin 8192, x1 (ix2 r k)) (Ideal.ofBits .f32 0x46000000#32) := by
  simp only [Host.divf, Ideal.hostDivf_def]
  rw [row_of_vec_apply, scalar_bcast_apply]
  simp only [Host.reduceAdd, Ideal.hostReduceAdd_def]
  rw [Ideal.hostReduceAdd_single hr (by decide)]
  rw [constant_apply, constant_apply, Ideal.ofBits_zero_f32, zero_add]
  congr 1
  refine Finset.sum_congr rfl fun r _ => ?_
  exact congrArg x1 (funext fun a => Fin.ext (by match a with | ⟨0, _⟩ => rfl | ⟨1, _⟩ => rfl))

/-- Equal right factors give equal products. -/
private theorem mul_left_congr (a : EReal) {x y : EReal} (h : x = y) : a * x = a * y := by rw [h]

/-- Three [512 × 512] matrices side by side: column 512 + d of the [512 × 1536] concatenation is column d of the
    middle one. -/
private theorem concat3_mid_apply (A B C : S512x512.Idx → EReal)
    (h : Shape.Concatenates (([⟨S512x512, A⟩, ⟨S512x512, B⟩, ⟨S512x512, C⟩] : List ((s : Shape) × (s.Idx → EReal))).map (·.1)) S512x1536 1)
    (k d : Fin 512) (j : Fin 1536) (hj : j.val = 512 + d.val) :
    concatenate S512x1536 1 [⟨S512x512, A⟩, ⟨S512x512, B⟩, ⟨S512x512, C⟩] h (ix2 k j) = B (ix2 k d) :=
  concatenate_apply_piece (1 : Fin 2) _ h (ix2 k j) 1 (Nat.lt_of_sub_eq_succ rfl) S512x512 B rfl rfl 512 rfl (ix2 k d)
    (fun b hb => by
      match b with
      | ⟨0, _⟩ => rfl
      | ⟨1, _⟩ => exact absurd rfl hb)
    (by show 512 + d.val = j.val; omega)

/-- The masked input is an argument no host operation writes. -/
theorem arrMx_apply (c : Dev nD) (R : Fin 8192) (d : Fin 512) : arrMx m c (ix2 R d) = (argsOf m c).mxin R d := by
  dsimp only [arrMx]
  rw [V_main_arg2]
  rfl

/-- A bit widened to a word is non-zero exactly when the bit is one. -/
private theorem widened_bit_ne_zero (b : BitVec 1) : decide (b.setWidth 32 ≠ 0#32) = decide (b = 1#1) := by
  revert b; decide

/-- The mask widened to words: a word is non-zero exactly where the mask bit is one. -/
theorem arrAdj_apply (c : Dev nD) (R j : Fin 8192) : decide (arrAdj m c (ix2 R j) ≠ 0#32) = (argsOf m c).adj R j := by
  dsimp only [arrAdj, V, hostOps0]
  host_results
  exact widened_bit_ne_zero _

/-- The essential score of a row: the product of the masked input's row with the one column `Wes`. -/
theorem arrEs_apply (c : Dev nD) (R : Fin 8192) : arrEs m c (ix2 R (0 : Fin 1)) = (argsOf m c).ops.es R := by
  dsimp only [arrEs, V, hostOps0]
  host_results
  simp only [Host.dotGeneral]
  rw [Cert.Lib.PlainDot.dotGeneral_apply ⟨rfl, rfl, rfl, rfl, rfl, rfl⟩]
  rfl

/-- The global value row: the mean row times `Wgv`, plus the bias `bgv`. -/
theorem arrGv_apply (c : Dev nD) (d : Fin 512) : arrGv m c (ix2 (0 : Fin 1) d) = (argsOf m c).ops.gv d := by
  dsimp only [arrGv, V, hostOps0]
  host_results
  rw [addf_apply]
  simp only [Host.dotGeneral]
  rw [Cert.Lib.PlainDot.dotGeneral_apply ⟨rfl, rfl, rfl, rfl, rfl, rfl⟩, row_of_vec_apply]
  simp only [meanRow_apply (m (c, Proc.tc.devRef main_arg1))]
  rfl

/-- The global score of a row: the masked input's row times `Wgq` (columns 512 to 1023 of the fused product with the three
    weight matrices side by side), against the global key row (the mean row times `Wgk`), scaled. -/
theorem arrGs_apply (c : Dev nD) (R : Fin 8192) : arrGs m c (ix2 R (0 : Fin 1)) = (argsOf m c).ops.gs R := by
  dsimp only [arrGs, V, hostOps0]
  host_results
  repeat (first | (rw [nullary_result_ne]; rotate_left; decide) | (rw [unary_result_ne]; rotate_left; decide) | (rw [binary_result_ne]; rotate_left; decide))
  rw [mulf_apply, scalar_bcast_apply, constant_apply]
  simp only [Host.dotGeneral]
  rw [Cert.Lib.PlainDot.dotGeneral_apply ⟨rfl, rfl, rfl, rfl, rfl, rfl⟩]
  show _ = (∑ d : Fin 512, (∑ k : Fin 512, (argsOf m c).mxin R k * (argsOf m c).wgq k d) * (argsOf m c).gk d)
      * Ideal.ofBits .f32 0x3D3504F3#32
  refine congrArg (· * Ideal.ofBits .f32 0x3D3504F3#32) (Finset.sum_congr rfl fun d _ => ?_)
  rw [slice2_axis1_eq, transpose_ix2_apply,
    Cert.Lib.PlainDot.dotGeneral_apply (d := dot_S8192x512_S512x1536_S8192x1536_1_0_0_1_n_n) ⟨rfl, rfl, rfl, rfl, rfl, rfl⟩,
    Cert.Lib.PlainDot.dotGeneral_apply (d := dot_S1x512_S512x512_S1x512_1_0_0_1_n_n) ⟨rfl, rfl, rfl, rfl, rfl, rfl⟩]
  congr 1
  · refine Finset.sum_congr rfl fun k _ => ?_
    exact mul_left_congr _ (concat3_mid_apply _ _ _ concatenates_S512x512_S512x512_S512x512_S512x1536_d1 k d _ (by rfl))
  · refine Finset.sum_congr rfl fun k _ => ?_
    rw [meanRow_apply]
    rfl

end Cert.KernelIdeal.Val

end
-- ==== Proof.HostValueC.lean ====
/-
  The key and value arrays the pipeline reads are the products of `x` with `Wlk` and `Wlv` (the value plus the
  bias `blv`): the host multiplies `x` by the two weight matrices laid side by side and cuts the product's two
  column halves apart, so entry `(R, d)` of the left half is `∑ k, x (R, k) · Wlk (k, d)` and entry `(R, d)` of the
  right half is `∑ k, x (R, k) · Wlv (k, d)`. A change of float format is the identity on the extended reals.
-/
import proofs.«419049_j49134425866853_3_alg».proof.Proof.WinOps
import proofs.«419049_j49134425866853_3_alg».proof.Proof.LibNary3
import proofs.«419049_j49134425866853_3_alg».proof.Proof.LibPlainDot
import Idealize.ShloMosaic.Lib.StableHlo.Run
import Idealize.ShloMosaic.Lib.Pipeline.Value
import Idealize.ShloMosaic.Lib.ValueLayout
import Idealize.ShloMosaic.PureOps.Ideal.Laws

noncomputable section

open scoped BigOperators

namespace Cert.KernelIdeal.Val

open Cert.KernelIdeal Cert.KernelIdeal.Gen Cert.KernelIdeal.Fr
open Idealize.ShloMosaic Idealize.ShloMosaic.TcCoe Idealize.ShloMosaic.ValueIdx Idealize.SL.Sem
open Idealize.ShloMosaic.StableHlo

variable (m : (ℓ : Loc nD τ sig) → Buf (Elt Ideal) ℓ)

/-- Each host operation's result read at its own reference is its function of its operands' contents, and at any
    other reference what was there before. -/
macro "kv_host_results" : tactic =>
  `(tactic| (simp (disch := decide) only [after_cons, after_nil,
      nullary_result', unary_result', binary_result', nary3_result',
      nullary_result_ne', unary_result_ne', binary_result_ne', nary_result_ne']
             repeat (first
               | (rw [nullary_result_ne]; rotate_left; decide)
               | (rw [unary_result_ne]; rotate_left; decide)
               | (rw [binary_result_ne]; rotate_left; decide)
               | (rw [nary_result_ne]; rotate_left; decide))))

/-- Two square matrices laid side by side, read in the left half: the left matrix. -/
private theorem sideBySide_left {α : Type} (x0 x1 : S512x512.Idx → α)
    (h : Shape.Concatenates [S512x512, S512x512] S512x1024 1) (k d : Fin 512) (e : Fin 1024) (he : e.val = d.val) :
    concatenate S512x1024 1 [⟨S512x512, x0⟩, ⟨S512x512, x1⟩] h (ix2 k e) = x0 (ix2 k d) :=
  concatenate_apply_piece (t := S512x1024) (1 : Fin 2) [⟨S512x512, x0⟩, ⟨S512x512, x1⟩] h (ix2 k e) 0
    (by show 0 < 2; omega) S512x512 x0 rfl rfl 0 rfl (ix2 k d)
    (fun b hb => by match b with | ⟨0, _⟩ => rfl | ⟨1, _⟩ => exact absurd rfl hb) (by show 0 + d.val = e.val; omega)

/-- Two square matrices laid side by side, read in the right half: the right matrix. -/
private theorem sideBySide_right {α : Type} (x0 x1 : S512x512.Idx → α)
    (h : Shape.Concatenates [S512x512, S512x512] S512x1024 1) (k d : Fin 512) (e : Fin 1024)
    (he : e.val = 512 + d.val) :
    concatenate S512x1024 1 [⟨S512x512, x0⟩, ⟨S512x512, x1⟩] h (ix2 k e) = x1 (ix2 k d) :=
  concatenate_apply_piece (t := S512x1024) (1 : Fin 2) [⟨S512x512, x0⟩, ⟨S512x512, x1⟩] h (ix2 k e) 1
    (by show 1 < 2; omega) S512x512 x1 rfl rfl 512 rfl (ix2 k d)
    (fun b hb => by match b with | ⟨0, _⟩ => rfl | ⟨1, _⟩ => exact absurd rfl hb) (by show 512 + d.val = e.val; omega)

/-- A row vector spread over one row and then down every row, read at `(R, d)`: its entry `d`. -/
private theorem rowSpread_apply {α : Type} (b : S512.Idx → α) (h1 : Shape.BroadcastsInDim S512 S1x512 ![1])
    (h2 : Shape.BroadcastsInDim S1x512 S8192x512 ![0, 1]) (R : Fin 8192) (d : Fin 512) :
    broadcastInDim S8192x512 ![0, 1] h2 (broadcastInDim S1x512 ![1] h1 b) (ix2 R d) = b (ix1 d) :=
  (broadcastInDim_apply (s := S1x512) (t := S8192x512) ![0, 1] h2 (broadcastInDim S1x512 ![1] h1 b) (ix2 R d)
      (ix2 (0 : Fin 1) d) (fun a => match a with
        | ⟨0, _⟩ => by show (0 : Nat) = if (1 : Nat) = 1 then 0 else R.val; rw [if_pos rfl]
        | ⟨1, _⟩ => by show d.val = if (512 : Nat) = 1 then 0 else d.val; rw [if_neg (by decide)])).trans
    (broadcastInDim_apply (s := S512) (t := S1x512) ![1] h1 b (ix2 (0 : Fin 1) d) (ix1 d) (fun a => match a with
        | ⟨0, _⟩ => by show d.val = if (512 : Nat) = 1 then 0 else d.val; rw [if_neg (by decide)]))

theorem arrK_apply (c : Dev nD) (R : Fin 8192) (d : Fin 512) :
    arrK m c (ix2 R d) = (argsOf m c).ops.k R d := by
  dsimp only [arrK, V, hostOps0]
  kv_host_results
  simp only [Host.dotGeneral]
  rw [truncf_apply, slice2_axis1_apply 0 _ _ R d ⟨d.val, by have := d.isLt; omega⟩ (by show d.val = 0 + d.val; omega),
    Cert.Lib.PlainDot.dotGeneral_apply ⟨rfl, rfl, rfl, rfl, rfl, rfl⟩]
  show _ = ∑ k : Fin 512, (argsOf m c).x R k * (argsOf m c).wlk k d
  refine Finset.sum_congr rfl fun k _ => ?_
  rw [truncf_apply, truncf_apply, sideBySide_left _ _ _ k d _ rfl]
  rfl

theorem arrV_apply (c : Dev nD) (R : Fin 8192) (d : Fin 512) :
    arrV m c (ix2 R d) = (argsOf m c).ops.v R d := by
  dsimp only [arrV, V, hostOps0]
  kv_host_results
  simp only [Host.dotGeneral]
  rw [truncf_apply, addf_apply, rowSpread_apply,
    slice2_axis1_apply 512 _ _ R d ⟨512 + d.val, by have := d.isLt; omega⟩ rfl,
    Cert.Lib.PlainDot.dotGeneral_apply ⟨rfl, rfl, rfl, rfl, rfl, rfl⟩]
  show _ = (∑ k : Fin 512, (argsOf m c).x R k * (argsOf m c).wlv k d) + (argsOf m c).blv d
  congr 1
  refine Finset.sum_congr rfl fun k _ => ?_
  rw [truncf_apply, truncf_apply, sideBySide_right _ _ _ k d _ rfl]
  rfl

end Cert.KernelIdeal.Val

end
-- ==== Proof.HostValue.lean ====
/-
  The arrays the pipeline reads are the projections of the arguments: the host operations before the pipeline —
  the column mean of `x`, the fused products with the concatenated weights and their column slices, the biases,
  the global key and value rows, the scaled global score, the essential score, the mask widened to words — read
  element by element. A change of float format is the identity on the extended reals.
-/
import proofs.«419049_j49134425866853_3_alg».proof.Proof.WinOps
import proofs.«419049_j49134425866853_3_alg».proof.Proof.LibNary3
import proofs.«419049_j49134425866853_3_alg».proof.Proof.LibPlainDot
import proofs.«419049_j49134425866853_3_alg».proof.Proof.HostValueB
import proofs.«419049_j49134425866853_3_alg».proof.Proof.HostValueC
import Idealize.ShloMosaic.Lib.StableHlo.Run
import Idealize.ShloMosaic.Lib.Pipeline.Value
import Idealize.ShloMosaic.Lib.ValueLayout
import Idealize.ShloMosaic.PureOps.Ideal.Laws

noncomputable section

open scoped BigOperators

namespace Cert.KernelIdeal.Val

open Cert.KernelIdeal Cert.KernelIdeal.Gen Cert.KernelIdeal.Fr
open Idealize.ShloMosaic Idealize.ShloMosaic.TcCoe Idealize.ShloMosaic.ValueIdx Idealize.SL.Sem
open Idealize.ShloMosaic.StableHlo

variable (m : (ℓ : Loc nD τ sig) → Buf (Elt Ideal) ℓ)

/-- The composed host term of a reference: one rewriting pass over the host operations, then the arguments under
    the three-operand concatenation. -/
macro "host_results" : tactic =>
  `(tactic| (simp (disch := decide) only [after_cons, after_nil,
      nullary_result', unary_result', binary_result', nary3_result',
      nullary_result_ne', unary_result_ne', binary_result_ne', nary_result_ne']
             repeat (first
               | (rw [nullary_result_ne]; rotate_left; decide)
               | (rw [unary_result_ne]; rotate_left; decide)
               | (rw [binary_result_ne]; rotate_left; decide))))

section Concat
variable {α : Type}

/-- Three square blocks side by side, read in the first block's columns. -/
theorem concat3_apply0 (x0 x1 x2 : S512x512.Idx → α)
    (h : Shape.Concatenates [S512x512, S512x512, S512x512] S512x1536 1) (k d : Fin 512) (e : Fin 1536)
    (he : e.val = 0 + d.val) :
    concatenate S512x1536 1 [⟨S512x512, x0⟩, ⟨S512x512, x1⟩, ⟨S512x512, x2⟩] h (ix2 k e) = x0 (ix2 k d) :=
  concatenate_apply_piece (t := S512x1536) (1 : Fin 2) [⟨S512x512, x0⟩, ⟨S512x512, x1⟩, ⟨S512x512, x2⟩] h (ix2 k e) 0 (by show 0 < 3; omega) S512x512 x0 rfl rfl 0 rfl (ix2 k d)
    (fun b hb => by match b with | ⟨0, _⟩ => rfl | ⟨1, _⟩ => exact absurd rfl hb)
    (by show 0 + d.val = e.val; omega)

/-- … in the second block's columns. -/
theorem concat3_apply1 (x0 x1 x2 : S512x512.Idx → α)
    (h : Shape.Concatenates [S512x512, S512x512, S512x512] S512x1536 1) (k d : Fin 512) (e : Fin 1536)
    (he : e.val = 512 + d.val) :
    concatenate S512x1536 1 [⟨S512x512, x0⟩, ⟨S512x512, x1⟩, ⟨S512x512, x2⟩] h (ix2 k e) = x1 (ix2 k d) :=
  concatenate_apply_piece (t := S512x1536) (1 : Fin 2) [⟨S512x512, x0⟩, ⟨S512x512, x1⟩, ⟨S512x512, x2⟩] h (ix2 k e) 1 (by show 1 < 3; omega) S512x512 x1 rfl rfl 512 rfl (ix2 k d)
    (fun b hb => by match b with | ⟨0, _⟩ => rfl | ⟨1, _⟩ => exact absurd rfl hb)
    (by show 512 + d.val = e.val; omega)

/-- … in the third block's columns. -/
theorem concat3_apply2 (x0 x1 x2 : S512x512.Idx → α)
    (h : Shape.Concatenates [S512x512, S512x512, S512x512] S512x1536 1) (k d : Fin 512) (e : Fin 1536)
    (he : e.val = 1024 + d.val) :
    concatenate S512x1536 1 [⟨S512x512, x0⟩, ⟨S512x512, x1⟩, ⟨S512x512, x2⟩] h (ix2 k e) = x2 (ix2 k d) :=
  concatenate_apply_piece (t := S512x1536) (1 : Fin 2) [⟨S512x512, x0⟩, ⟨S512x512, x1⟩, ⟨S512x512, x2⟩] h (ix2 k e) 2 (by show 2 < 3; omega) S512x512 x2 rfl rfl 1024 rfl (ix2 k d)
    (fun b hb => by match b with | ⟨0, _⟩ => rfl | ⟨1, _⟩ => exact absurd rfl hb)
    (by show 1024 + d.val = e.val; omega)

/-- Two square blocks side by side, read in the first block's columns. -/
theorem concat2_apply0 (x0 x1 : S512x512.Idx → α)
    (h : Shape.Concatenates [S512x512, S512x512] S512x1024 1) (k d : Fin 512) (e : Fin 1024)
    (he : e.val = 0 + d.val) :
    concatenate S512x1024 1 [⟨S512x512, x0⟩, ⟨S512x512, x1⟩] h (ix2 k e) = x0 (ix2 k d) :=
  concatenate_apply_piece (t := S512x1024) (1 : Fin 2) [⟨S512x512, x0⟩, ⟨S512x512, x1⟩] h (ix2 k e) 0 (by show 0 < 2; omega) S512x512 x0 rfl rfl 0 rfl (ix2 k d)
    (fun b hb => by match b with | ⟨0, _⟩ => rfl | ⟨1, _⟩ => exact absurd rfl hb)
    (by show 0 + d.val = e.val; omega)

/-- … in the second block's columns. -/
theorem concat2_apply1 (x0 x1 : S512x512.Idx → α)
    (h : Shape.Concatenates [S512x512, S512x512] S512x1024 1) (k d : Fin 512) (e : Fin 1024)
    (he : e.val = 512 + d.val) :
    concatenate S512x1024 1 [⟨S512x512, x0⟩, ⟨S512x512, x1⟩] h (ix2 k e) = x1 (ix2 k d) :=
  concatenate_apply_piece (t := S512x1024) (1 : Fin 2) [⟨S512x512, x0⟩, ⟨S512x512, x1⟩] h (ix2 k e) 1 (by show 1 < 2; omega) S512x512 x1 rfl rfl 512 rfl (ix2 k d)
    (fun b hb => by match b with | ⟨0, _⟩ => rfl | ⟨1, _⟩ => exact absurd rfl hb)
    (by show 512 + d.val = e.val; omega)

end Concat

/-- The first fused product at `(R, e)`: a change of float format is the identity. -/
theorem fused3_apply (X : FVec Ideal S8192x512 .f32) (W : FVec Ideal S512x1536 .f32) (hb : FTy.bits .bf16 < FTy.bits .f32)
    (R : Fin 8192) (e : Fin 1536) :
    Host.dotGeneral dot_S8192x512_S512x1536_S8192x1536_1_0_0_1_n_n none (truncf .bf16 X hb) (truncf .bf16 W hb) (ix2 R e)
      = ∑ k : Fin 512, X (ix2 R k) * W (ix2 k e) :=
  Cert.Lib.PlainDot.dotGeneral_apply ⟨rfl, rfl, rfl, rfl, rfl, rfl⟩ none .single _ _ R e

/-- The first fused product in a column of the first block: the product with that block. -/
theorem fused3_apply0 (X : FVec Ideal S8192x512 .f32) (W0 W1 W2 : FVec Ideal S512x512 .f32)
    (hb : FTy.bits .bf16 < FTy.bits .f32) (hc : Shape.Concatenates [S512x512, S512x512, S512x512] S512x1536 1)
    (R : Fin 8192) (d : Fin 512) (e : Fin 1536) (he : e.val = 0 + d.val) :
    Host.dotGeneral dot_S8192x512_S512x1536_S8192x1536_1_0_0_1_n_n none (truncf .bf16 X hb)
        (truncf .bf16 (concatenate S512x1536 1 [⟨S512x512, W0⟩, ⟨S512x512, W1⟩, ⟨S512x512, W2⟩] hc) hb) (ix2 R e)
      = ∑ k : Fin 512, X (ix2 R k) * W0 (ix2 k d) :=
  (fused3_apply X _ hb R e).trans (Finset.sum_congr rfl fun k _ => by rw [concat3_apply0 W0 W1 W2 hc k d e he])

/-- The first fused product in a column of the second block: the product with that block. -/
theorem fused3_apply1 (X : FVec Ideal S8192x512 .f32) (W0 W1 W2 : FVec Ideal S512x512 .f32)
    (hb : FTy.bits .bf16 < FTy.bits .f32) (hc : Shape.Concatenates [S512x512, S512x512, S512x512] S512x1536 1)
    (R : Fin 8192) (d : Fin 512) (e : Fin 1536) (he : e.val = 512 + d.val) :
    Host.dotGeneral dot_S8192x512_S512x1536_S8192x1536_1_0_0_1_n_n none (truncf .bf16 X hb)
        (truncf .bf16 (concatenate S512x1536 1 [⟨S512x512, W0⟩, ⟨S512x512, W1⟩, ⟨S512x512, W2⟩] hc) hb) (ix2 R e)
      = ∑ k : Fin 512, X (ix2 R k) * W1 (ix2 k d) :=
  (fused3_apply X _ hb R e).trans (Finset.sum_congr rfl fun k _ => by rw [concat3_apply1 W0 W1 W2 hc k d e he])

/-- The first fused product in a column of the third block: the product with that block. -/
theorem fused3_apply2 (X : FVec Ideal S8192x512 .f32) (W0 W1 W2 : FVec Ideal S512x512 .f32)
    (hb : FTy.bits .bf16 < FTy.bits .f32) (hc : Shape.Concatenates [S512x512, S512x512, S512x512] S512x1536 1)
    (R : Fin 8192) (d : Fin 512) (e : Fin 1536) (he : e.val = 1024 + d.val) :
    Host.dotGeneral dot_S8192x512_S512x1536_S8192x1536_1_0_0_1_n_n none (truncf .bf16 X hb)
        (truncf .bf16 (concatenate S512x1536 1 [⟨S512x512, W0⟩, ⟨S512x512, W1⟩, ⟨S512x512, W2⟩] hc) hb) (ix2 R e)
      = ∑ k : Fin 512, X (ix2 R k) * W2 (ix2 k d) :=
  (fused3_apply X _ hb R e).trans (Finset.sum_congr rfl fun k _ => by rw [concat3_apply2 W0 W1 W2 hc k d e he])

/-- A bias row broadcast down the rows, read at `(R, d)`: the bias at `d`. -/
theorem bias_apply {α : Type} (b : S512.Idx → α)
    (h1 : S512.BroadcastsInDim S1x512 (![1] : Fin 1 → Fin S1x512.rank))
    (h2 : S1x512.BroadcastsInDim S8192x512 (![0, 1] : Fin 2 → Fin S8192x512.rank)) (R : Fin 8192) (d : Fin 512) :
    broadcastInDim S8192x512 ![0, 1] h2 (broadcastInDim S1x512 ![1] h1 b) (ix2 R d) = b (ix1 d) :=
  (broadcastInDim_apply _ h2 _ (ix2 R d) (ix2 (0 : Fin 1) d) (fun a => match a with
    | ⟨0, _⟩ => by show (0 : Nat) = if (1 : Nat) = 1 then 0 else R.val; rw [if_pos rfl]
    | ⟨1, _⟩ => by show d.val = if (512 : Nat) = 1 then 0 else d.val; rw [if_neg (by decide)])).trans
  (broadcastInDim_apply _ h1 b (ix2 (0 : Fin 1) d) (ix1 d) (fun a => match a with
    | ⟨0, _⟩ => by show d.val = if (512 : Nat) = 1 then 0 else d.val; rw [if_neg (by decide)]))

/-- The essential values: the third block's product plus its bias. -/
theorem ev_apply (X : FVec Ideal S8192x512 .f32) (W0 W1 W2 : FVec Ideal S512x512 .f32) (b : FVec Ideal S512 .f32)
    (hb : FTy.bits .bf16 < FTy.bits .f32) (hc : Shape.Concatenates [S512x512, S512x512, S512x512] S512x1536 1)
    (hs : S8192x1536.Slices ![0, 1024] S8192x512)
    (h1 : S512.BroadcastsInDim S1x512 (![1] : Fin 1 → Fin S1x512.rank))
    (h2 : S1x512.BroadcastsInDim S8192x512 (![0, 1] : Fin 2 → Fin S8192x512.rank)) (R : Fin 8192) (d : Fin 512) :
    truncf .bf16 (addf
        (extractStridedSlice S8192x512 ![0, 1024]
          (Host.dotGeneral dot_S8192x512_S512x1536_S8192x1536_1_0_0_1_n_n none (truncf .bf16 X hb)
            (truncf .bf16 (concatenate S512x1536 1 [⟨S512x512, W0⟩, ⟨S512x512, W1⟩, ⟨S512x512, W2⟩] hc) hb)) hs)
        (broadcastInDim S8192x512 ![0, 1] h2 (broadcastInDim S1x512 ![1] h1 b))) hb (ix2 R d)
      = (∑ k : Fin 512, X (ix2 R k) * W2 (ix2 k d)) + b (ix1 d) := by
  rw [truncf_apply, addf_apply, bias_apply b h1 h2 R d]
  refine congrArg (· + b (ix1 d)) ?_
  exact (slice2_axis1_apply (n0 := 8192) (n1 := 1536) (m := 512) 1024 _ hs R d ⟨1024 + d.val, by have := d.isLt; omega⟩ rfl).trans
    (fused3_apply2 X W0 W1 W2 hb hc R d _ rfl)

/-- The queries: the first block's product. -/
theorem q_apply (X : FVec Ideal S8192x512 .f32) (W0 W1 W2 : FVec Ideal S512x512 .f32)
    (hb : FTy.bits .bf16 < FTy.bits .f32) (hc : Shape.Concatenates [S512x512, S512x512, S512x512] S512x1536 1)
    (hs : S8192x1536.Slices ![0, 0] S8192x512) (R : Fin 8192) (d : Fin 512) :
    truncf .bf16
        (extractStridedSlice S8192x512 ![0, 0]
          (Host.dotGeneral dot_S8192x512_S512x1536_S8192x1536_1_0_0_1_n_n none (truncf .bf16 X hb)
            (truncf .bf16 (concatenate S512x1536 1 [⟨S512x512, W0⟩, ⟨S512x512, W1⟩, ⟨S512x512, W2⟩] hc) hb)) hs) hb (ix2 R d)
      = ∑ k : Fin 512, X (ix2 R k) * W0 (ix2 k d) := by
  rw [truncf_apply]
  exact (slice2_axis1_apply (n0 := 8192) (n1 := 1536) (m := 512) 0 _ hs R d ⟨d.val, by have := d.isLt; omega⟩ (Nat.zero_add _).symm).trans
    (fused3_apply0 X W0 W1 W2 hb hc R d _ (Nat.zero_add _).symm)

/-- The queries the pipeline finds are the masked input's products with `Wlq`. -/
theorem arrQ_apply (c : Dev nD) (R : Fin 8192) (d : Fin 512) :
    arrQ m c (ix2 R d) = (argsOf m c).ops.q R d := by
  show _ = ∑ k : Fin 512, (argsOf m c).mxin R k * (argsOf m c).wlq k d
  dsimp only [arrQ, V, hostOps0]
  host_results
  exact q_apply _ _ _ _ _ _ _ R d

/-- The essential values the pipeline finds are the masked input's products with `Wev`, plus `bev`. -/
theorem arrEv_apply (c : Dev nD) (R : Fin 8192) (d : Fin 512) :
    arrEv m c (ix2 R d) = (argsOf m c).ops.ev R d := by
  show _ = (∑ k : Fin 512, (argsOf m c).mxin R k * (argsOf m c).wev k d) + (argsOf m c).bev d
  dsimp only [arrEv, V, hostOps0]
  host_results
  exact ev_apply _ _ _ _ _ _ _ _ _ _ R d

/-- The pipeline's inputs as it finds them are the attention core's arrays of the arguments. -/
theorem winOps_eq (c : Dev nD) : winOps m c = (argsOf m c).ops := by
  have hq : (fun R d => arrQ m c (ix2 R d)) = (argsOf m c).ops.q := funext fun R => funext fun d => arrQ_apply m c R d
  have hk : (fun R d => arrK m c (ix2 R d)) = (argsOf m c).ops.k := funext fun R => funext fun d => arrK_apply m c R d
  have hv : (fun R d => arrV m c (ix2 R d)) = (argsOf m c).ops.v := funext fun R => funext fun d => arrV_apply m c R d
  have hadj : (fun R j => decide (arrAdj m c (ix2 R j) ≠ 0#32)) = (argsOf m c).ops.adj :=
    funext fun R => funext fun j => arrAdj_apply m c R j
  have hgs : (fun R => arrGs m c (ix2 R (0 : Fin 1))) = (argsOf m c).ops.gs := funext fun R => arrGs_apply m c R
  have hes : (fun R => arrEs m c (ix2 R (0 : Fin 1))) = (argsOf m c).ops.es := funext fun R => arrEs_apply m c R
  have hev : (fun R d => arrEv m c (ix2 R d)) = (argsOf m c).ops.ev := funext fun R => funext fun d => arrEv_apply m c R d
  have hgv : (fun d => arrGv m c (ix2 (0 : Fin 1) d)) = (argsOf m c).ops.gv := funext fun d => arrGv_apply m c d
  have hmx : (fun R d => arrMx m c (ix2 R d)) = (argsOf m c).ops.mx := funext fun R => funext fun d => arrMx_apply m c R d
  unfold winOps
  rw [hq, hk, hv, hadj, hgs, hes, hev, hgv, hmx]
  rfl

end Cert.KernelIdeal.Val

end
-- ==== Proof.Finite.lean ====
/-
  The precondition read entry by entry: every float argument holds real numbers.

  The precondition is a conjunction of thirteen statements "every entry x of this array has |x| < +∞", each an
  all-reduction by `and` of the entrywise comparison. An extended real whose absolute value max(x, -x) lies strictly
  below ⊤ is neither ⊤ nor ⊥, so it is a real number.
-/
import proofs.«419049_j49134425866853_3_alg».proof.Proof.WinOps
import proofs.«419049_j49134425866853_3_alg».proof.Defs
import proofs.«419049_j49134425866853_3_alg».proof.Proof.Gen.Pre_finite_inputs
import Idealize.ShloMosaic.Lib.ReduceAll

noncomputable section

open scoped BigOperators

namespace Cert.KernelIdeal.Val

open Cert.KernelIdeal Cert.KernelIdeal.Gen Cert.KernelIdeal.Fr
open Idealize.ShloMosaic Idealize.ShloMosaic.TcCoe Idealize.ShloMosaic.ValueIdx Idealize.SL.Sem

/-- The rank-0 shape has one index. -/
private instance subsingleton_scalar_idx : Subsingleton (⟨0, ![]⟩ : Shape).Idx :=
  ⟨fun a b => funext fun d => d.elim0⟩

/-- One entry: if |x| = max(x, -x) compares strictly below the pattern of +∞, then x is a real number. -/
private theorem real_of_abs_lt_inf (x : EReal)
    (h : FloatOps.cmpf (F := Ideal) (φ := .f32) .olt (FloatOps.hostAbsf (F := Ideal) (φ := .f32) x)
        (FloatOps.ofBits (F := Ideal) .f32 0x7F800000#32) = 1#1) :
    ∃ t : ℝ, x = (t : EReal) := by
  have htop : Ideal.ofBits .f32 0x7F800000#32 = ⊤ := by simp [Ideal.ofBits, Ideal.ieee]
  have h' : Ideal.cmp .olt (max x (-x)) (Ideal.ofBits .f32 0x7F800000#32) = 1#1 := h
  rw [htop] at h'
  unfold Ideal.cmp at h'
  induction x using EReal.rec with
  | bot => simp at h'
  | coe t => exact ⟨t, rfl⟩
  | top => simp at h'

/-- One array: if the all-reduction of the entrywise test |a| < +∞ is one, every entry of `a` is a real number. -/
private theorem entries_real {S : Shape} {axes : List (Fin S.rank)} (a : FVec Ideal S .f32)
    (hb : (⟨0, ![]⟩ : Shape).BroadcastsInDim S (![] : Fin 0 → Fin S.rank))
    (hr : S.ReducesTo axes ⟨0, ![]⟩) (h0 : 0 < (⟨0, ![]⟩ : Shape).numel)
    (h : Host.reduce IntOp.andi
        (cmpf .olt (Host.absf a) (broadcastInDim S ![] hb (constant (F := Ideal) ⟨0, ![]⟩ .f32 0x7F800000#32)))
        (constantI ⟨0, ![]⟩ 1 1#1) hr h0 ix0 = 1#1)
    (i : S.Idx) : ∃ t : ℝ, a i = (t : EReal) :=
  real_of_abs_lt_inf (a i) (Host.reduce_andi_all _ _ hr h0 ix0 h i)

/-- An entrywise `and` of two bit arrays is one at an index exactly when both are. -/
private theorem andi_apply_eq_one {s : Shape} (x y : IVec s 1) (i : s.Idx) :
    Idealize.ShloMosaic.andi x y i = 1#1 ↔ x i = 1#1 ∧ y i = 1#1 := IntOp.andi_eq_one

variable (m : (ℓ : Loc nD τ sig) → Buf (Elt Ideal) ℓ)

/-- Under the precondition every float argument entry on every core is a real number. -/
theorem args_finite (hpre : Cert.Pre_KernelIdeal m) (c : Dev nD) : (argsOf m c).Finite := by
  have h := congrFun (hpre c) ix0
  dsimp only [Cert.Pre_finite_inputs.fn, Cert.Pre_finite_inputs.fn_part1, Cert.Pre_finite_inputs.fn_part2,
    Cert.Pre_finite_inputs.fn_part3] at h
  simp only [andi_apply_eq_one] at h
  obtain ⟨⟨⟨⟨⟨⟨⟨⟨⟨⟨⟨⟨h1, h2⟩, h3⟩, h4⟩, h5⟩, h6⟩, h7⟩, h8⟩, h9⟩, h10⟩, h11⟩, h12⟩, h13⟩ := h
  exact
    { x := fun r k => entries_real _ _ _ _ h1 (ix2 r k)
      mxin := fun r k => entries_real _ _ _ _ h2 (ix2 r k)
      wlq := fun r k => entries_real _ _ _ _ h3 (ix2 r k)
      wlk := fun r k => entries_real _ _ _ _ h4 (ix2 r k)
      wlv := fun r k => entries_real _ _ _ _ h5 (ix2 r k)
      blv := fun k => entries_real _ _ _ _ h6 (ix1 k)
      wgq := fun r k => entries_real _ _ _ _ h7 (ix2 r k)
      wgk := fun r k => entries_real _ _ _ _ h8 (ix2 r k)
      wgv := fun r k => entries_real _ _ _ _ h9 (ix2 r k)
      bgv := fun k => entries_real _ _ _ _ h10 (ix1 k)
      wes := fun k => entries_real _ _ _ _ h11 (ix2 k (0 : Fin 1))
      wev := fun r k => entries_real _ _ _ _ h12 (ix2 r k)
      bev := fun k => entries_real _ _ _ _ h13 (ix1 k) }

end Cert.KernelIdeal.Val

end
-- ==== Proof.FiniteOps.lean ====
/-
  Finite arguments give finite projections: sums of products of real numbers are real, and so are the mean (a
  quotient by the real 8192), the two literals (the score scale and the finite fill), and a real plus a real.
-/
import proofs.«419049_j49134425866853_3_alg».proof.Proof.SpecArgs
import Mathlib.Data.EReal.Operations
import Mathlib.Tactic.NormNum

noncomputable section

open scoped BigOperators

namespace Cert.Spec

open Idealize.ShloMosaic

/-! ### Coerced reals are closed under sum, product and finite sums -/

theorem real_add {x y : EReal} (hx : ∃ t : ℝ, x = (t : EReal)) (hy : ∃ t : ℝ, y = (t : EReal)) :
    ∃ t : ℝ, x + y = (t : EReal) := by
  obtain ⟨s, rfl⟩ := hx
  obtain ⟨t, rfl⟩ := hy
  exact ⟨s + t, (EReal.coe_add s t).symm⟩

theorem real_mul {x y : EReal} (hx : ∃ t : ℝ, x = (t : EReal)) (hy : ∃ t : ℝ, y = (t : EReal)) :
    ∃ t : ℝ, x * y = (t : EReal) := by
  obtain ⟨s, rfl⟩ := hx
  obtain ⟨t, rfl⟩ := hy
  exact ⟨s * t, (EReal.coe_mul s t).symm⟩

theorem real_sum {ι : Type*} (s : Finset ι) (f : ι → EReal) (hf : ∀ i, ∃ t : ℝ, f i = (t : EReal)) :
    ∃ t : ℝ, ∑ i ∈ s, f i = (t : EReal) := by
  classical
  induction s using Finset.induction_on with
  | empty => exact ⟨0, by simp⟩
  | insert a s ha ih =>
    rw [Finset.sum_insert ha]
    exact real_add (hf a) ih

/-! ### The three literals -/

/-- The pattern 0x46000000 has exponent field 140 and zero fraction: 2 ^ 23 * 2 ^ (140 - 127 - 23) = 8192. -/
theorem nRows_eq : nRows = ((8192 : ℝ) : EReal) := by
  simp [nRows, Ideal.ofBits, Ideal.ieee, -EReal.coe_mul]; norm_num

/-- The score scale's exponent field is 122, neither all ones nor zero: a normal number, hence real. -/
theorem scale_real : ∃ t : ℝ, Ideal.ofBits .f32 0x3D3504F3#32 = (t : EReal) := by
  simp [Ideal.ofBits, Ideal.ieee, -EReal.coe_mul]

/-- The fill's exponent field is 156, neither all ones nor zero: a normal number, hence real. -/
theorem fill_real : ∃ t : ℝ, Ideal.ofBits .f32 0xCE6E6B28#32 = (t : EReal) := by
  simp [Ideal.ofBits, Ideal.ieee, -EReal.coe_mul]
  exact ⟨_, (EReal.coe_neg _).symm⟩

/-- If every argument entry is a real number, so is every entry the softmax reads. -/
theorem Args.Finite.ops {a : Args} (h : a.Finite) : a.ops.Finite := by
  have hxbar : ∀ k, ∃ t : ℝ, a.xbar k = (t : EReal) := fun k => by
    unfold Args.xbar
    rw [nRows_eq, Ideal.div_coe (by norm_num : (8192 : ℝ) ≠ 0)]
    exact real_mul (real_sum _ _ fun r => h.x r k) ⟨_, rfl⟩
  have hgk : ∀ d, ∃ t : ℝ, a.gk d = (t : EReal) := fun d =>
    real_sum _ _ fun k => real_mul (hxbar k) (h.wgk k d)
  refine ⟨?q, ?k, ?v, ?gs, ?es, ?ev, ?gv, scale_real, fill_real⟩
  case q =>
    intro R d; dsimp only [Args.ops]
    exact real_sum _ _ fun k => real_mul (h.mxin R k) (h.wlq k d)
  case k =>
    intro R d; dsimp only [Args.ops]
    exact real_sum _ _ fun k => real_mul (h.x R k) (h.wlk k d)
  case v =>
    intro R d; dsimp only [Args.ops]
    exact real_add (real_sum _ _ fun k => real_mul (h.x R k) (h.wlv k d)) (h.blv d)
  case gs =>
    intro R; dsimp only [Args.ops]
    exact real_mul
      (real_sum _ _ fun d => real_mul (real_sum _ _ fun k => real_mul (h.mxin R k) (h.wgq k d)) (hgk d))
      scale_real
  case es =>
    intro R; dsimp only [Args.ops]
    exact real_sum _ _ fun k => real_mul (h.mxin R k) (h.wes k)
  case ev =>
    intro R d; dsimp only [Args.ops]
    exact real_add (real_sum _ _ fun k => real_mul (h.mxin R k) (h.wev k d)) (h.bev d)
  case gv =>
    intro d; dsimp only [Args.ops]
    exact real_add (real_sum _ _ fun k => real_mul (hxbar k) (h.wgv k d)) (h.bgv d)

end Cert.Spec

end
-- ==== Proof.LibMaskSum.lean ====
/-
  A 0/1-masked contraction over the extended reals is a sum over the mask's support.

  On the extended reals `x * 0 = 0` and `x * 1 = x` for EVERY `x`, the infinities included (the extended reals are a
  commutative monoid with zero), so a mask factor `if g i = k then 1 else 0` inside a sum keeps exactly the terms with
  `g i = k`, with no finiteness side condition. When the index set is `H` consecutive blocks of `B` and `g` is
  "which block" (`c / B`), the support of block `k` is the `B` positions `B * k + b`, and the sum over it is a sum
  over `Fin B`. The one-hot expansion `∑ h, t h * [q = h] = t q` is the same fact read the other way.
-/
import Mathlib.Data.EReal.Inv
import Mathlib.Algebra.BigOperators.Group.Finset.Basic
import Mathlib.Algebra.BigOperators.Group.Finset.Piecewise

open scoped BigOperators

namespace Cert.Lib

/-- A 0/1 mask factor on the extended reals: `(if c then 1 else 0) * a` is `a` where the condition holds and `0`
    where it does not, for every `a` (infinite ones too). -/
theorem mask_mul (c : Prop) [Decidable c] (a : EReal) : (if c then (1 : EReal) else 0) * a = if c then a else 0 := by
  split_ifs <;> simp

/-- The same with the mask on the right. -/
theorem mul_mask (c : Prop) [Decidable c] (a : EReal) : a * (if c then (1 : EReal) else 0) = if c then a else 0 := by
  split_ifs <;> simp

/-- A masked term of a contraction: `p * ((if c then 1 else 0) * a)` is `p * a` where the condition holds and `0`
    where it does not, for every `p`, `a` on the extended reals. -/
theorem mul_mask_mul (c : Prop) [Decidable c] (p a : EReal) :
    p * ((if c then (1 : EReal) else 0) * a) = if c then p * a else 0 := by
  split_ifs <;> simp

/-- A 0/1-masked contraction is the sum over the mask's support: for finite `ι`, any `g : ι → κ`, `k : κ` and any
    `p a : ι → EReal`, `∑ i, p i * ((if g i = k then 1 else 0) * a i) = ∑ i ∈ univ.filter (g · = k), p i * a i`. -/
theorem sum_mul_mask_mul {ι κ : Type*} [Fintype ι] [DecidableEq κ] (g : ι → κ) (k : κ) (p a : ι → EReal) :
    ∑ i, p i * ((if g i = k then (1 : EReal) else 0) * a i)
      = ∑ i ∈ Finset.univ.filter (fun i => g i = k), p i * a i := by
  rw [Finset.sum_filter]
  exact Finset.sum_congr rfl fun i _ => mul_mask_mul _ _ _

/-- The same for a mask stated by any decidable predicate `q` on the index. -/
theorem sum_mul_maskP_mul {ι : Type*} [Fintype ι] (q : ι → Prop) [DecidablePred q] (p a : ι → EReal) :
    ∑ i, p i * ((if q i then (1 : EReal) else 0) * a i) = ∑ i ∈ Finset.univ.filter q, p i * a i := by
  rw [Finset.sum_filter]
  exact Finset.sum_congr rfl fun i _ => mul_mask_mul _ _ _

/-- A masked sum with the mask as the only other factor: `∑ i, (if q i then 1 else 0) * a i` is the sum of `a` over
    the indices where `q` holds. -/
theorem sum_maskP_mul {ι : Type*} [Fintype ι] (q : ι → Prop) [DecidablePred q] (a : ι → EReal) :
    ∑ i, (if q i then (1 : EReal) else 0) * a i = ∑ i ∈ Finset.univ.filter q, a i := by
  rw [Finset.sum_filter]
  exact Finset.sum_congr rfl fun i _ => mask_mul _ _

/-- Position `B * k + b` of block `k < H` at offset `b < B` lies below `H * B`. -/
theorem block_pos_lt {n H B : Nat} (hn : n = H * B) (k : Fin H) (b : Fin B) : B * k.val + b.val < n := by
  subst hn
  calc B * k.val + b.val < B * k.val + B := Nat.add_lt_add_left b.isLt _
    _ = B * (k.val + 1) := (Nat.mul_succ _ _).symm
    _ ≤ B * H := Nat.mul_le_mul_left B k.isLt
    _ = H * B := Nat.mul_comm _ _

/-- The sum over block `k` of an index set of `H` consecutive blocks of `B`: the indices `c : Fin n`
    (`n = H * B`) with `c / B = k` are the `B` positions `B * k + b`, so the filtered sum is a sum over `Fin B`.
    For any additive commutative monoid. -/
theorem sum_filter_block {α : Type*} [AddCommMonoid α] {n H B : Nat} (hn : n = H * B) (k : Fin H) (f : Fin n → α) :
    ∑ c ∈ Finset.univ.filter (fun c : Fin n => c.val / B = k.val), f c
      = ∑ b : Fin B, f ⟨B * k.val + b.val, block_pos_lt hn k b⟩ := by
  symm
  refine Finset.sum_bij (fun b _ => (⟨B * k.val + b.val, block_pos_lt hn k b⟩ : Fin n)) ?_ ?_ ?_ ?_
  · intro b _
    have hB : 0 < B := Nat.lt_of_le_of_lt (Nat.zero_le _) b.isLt
    simp only [Finset.mem_filter, Finset.mem_univ, true_and]
    rw [Nat.mul_add_div hB, Nat.div_eq_of_lt b.isLt, Nat.add_zero]
  · intro b₁ _ b₂ _ h
    have := congrArg Fin.val h
    simp only at this
    exact Fin.ext (by omega)
  · intro c hc
    simp only [Finset.mem_filter, Finset.mem_univ, true_and] at hc
    have hB : 0 < B := Nat.pos_of_ne_zero (by
      rintro rfl
      have h1 : c.val < H * 0 := lt_of_lt_of_eq c.isLt hn
      exact absurd h1 (by simp))
    refine ⟨⟨c.val % B, Nat.mod_lt _ hB⟩, Finset.mem_univ _, ?_⟩
    apply Fin.ext
    show B * k.val + c.val % B = c.val
    rw [← hc]; exact Nat.div_add_mod _ _
  · intro b _; rfl

/-- The block form of the masked contraction: over `Fin n` with `n = H * B` and the mask "`c` lies in block `k`"
    (`c / B = k`), `∑ c, p c * ((if c / B = k then 1 else 0) * a c) = ∑ b : Fin B, p (B·k + b) * a (B·k + b)`. -/
theorem sum_mul_blockmask_mul {n H B : Nat} (hn : n = H * B) (k : Fin H) (p a : Fin n → EReal) :
    ∑ c : Fin n, p c * ((if c.val / B = k.val then (1 : EReal) else 0) * a c)
      = ∑ b : Fin B, p ⟨B * k.val + b.val, block_pos_lt hn k b⟩ * a ⟨B * k.val + b.val, block_pos_lt hn k b⟩ := by
  rw [sum_mul_maskP_mul (fun c : Fin n => c.val / B = k.val) p a]
  exact sum_filter_block hn k fun c => p c * a c

/-- The one-hot expansion: `∑ h : Fin H, t h * (if j = h then 1 else 0) = t j` on the extended reals. -/
theorem sum_mul_onehot {H : Nat} (t : Fin H → EReal) (j : Fin H) :
    ∑ h : Fin H, t h * (if j = h then (1 : EReal) else 0) = t j := by
  simp only [mul_mask]
  rw [Finset.sum_ite_eq Finset.univ j t, if_pos (Finset.mem_univ _)]

/-- The one-hot expansion with the selected position a natural number `q < H` compared with the summation index's
    value: `∑ h : Fin H, t h * (if q = h then 1 else 0) = t q`. With `q = c / B` for `c < H * B` this is the block
    number of `c`. -/
theorem sum_mul_onehot_val {H : Nat} (t : Fin H → EReal) (q : Nat) (hq : q < H) :
    ∑ h : Fin H, t h * (if q = h.val then (1 : EReal) else 0) = t ⟨q, hq⟩ := by
  rw [← sum_mul_onehot t ⟨q, hq⟩]
  refine Finset.sum_congr rfl fun h _ => ?_
  have : (q = h.val) ↔ ((⟨q, hq⟩ : Fin H) = h) := ⟨fun e => Fin.ext e, fun e => congrArg Fin.val e⟩
  simp only [this]

/-- The block number of a position below `H * B` is below `H`. -/
theorem block_lt {n H B : Nat} (hn : n = H * B) (c : Fin n) : c.val / B < H := by
  have hc : c.val < H * B := lt_of_lt_of_eq c.isLt hn
  exact Nat.div_lt_of_lt_mul (lt_of_lt_of_eq hc (Nat.mul_comm H B))

/-- The one-hot expansion at a block number: for `c : Fin n`, `n = H * B`,
    `∑ h : Fin H, t h * (if c / B = h then 1 else 0) = t (c / B)`. -/
theorem sum_mul_onehot_block {n H B : Nat} (hn : n = H * B) (t : Fin H → EReal) (c : Fin n) :
    ∑ h : Fin H, t h * (if c.val / B = h.val then (1 : EReal) else 0) = t ⟨c.val / B, block_lt hn c⟩ :=
  sum_mul_onehot_val t _ _

end Cert.Lib
-- ==== Proof.LibBlockSum.lean ====
/-
  A sum over `H` consecutive blocks of `B` positions is the sum over all `H * B` positions; and a small natural
  number's 32-bit word is the word whose signed reading is that number.
-/
import proofs.«419049_j49134425866853_3_alg».proof.Proof.LibMaskSum
import Idealize.ShloMosaic.Lib.StableHlo.Predicate
import Mathlib.Algebra.BigOperators.Fin

open scoped BigOperators

namespace Cert.Lib

open Idealize.ShloMosaic

/-- Summing block by block: over `Fin n` with `n = H * B`, the double sum over the block `k` and the offset `b` of
    `f (B * k + b)` is the sum of `f` over every position. For any additive commutative monoid. -/
theorem sum_blocks {α : Type*} [AddCommMonoid α] {n H B : Nat} (hn : n = H * B) (f : Fin n → α) :
    ∑ k : Fin H, ∑ b : Fin B, f ⟨B * k.val + b.val, block_pos_lt hn k b⟩ = ∑ c : Fin n, f c := by
  subst hn
  rw [← Fintype.sum_prod_type (f := fun p : Fin H × Fin B => f ⟨B * p.1.val + p.2.val, block_pos_lt rfl p.1 p.2⟩)]
  refine Fintype.sum_equiv finProdFinEquiv _ _ fun p => congrArg f (Fin.ext ?_)
  show B * p.1.val + p.2.val = (finProdFinEquiv p).val
  rw [finProdFinEquiv_apply_val]
  exact Nat.add_comm _ _

/-- A 32-bit word is the word of a natural number `g < 2 ^ 31` exactly when its signed reading is `g`. -/
theorem ofNat_eq_iff_toInt (g : Nat) (hg : g < 2 ^ 31) (w : BitVec 32) :
    BitVec.ofNat 32 g = w ↔ w.toInt = (g : Int) := by
  constructor
  · rintro rfl
    exact StableHlo.Predicate.toInt_ofNat_small g hg
  · intro h
    apply BitVec.eq_of_toInt_eq
    rw [h, StableHlo.Predicate.toInt_ofNat_small g hg]

end Cert.Lib
-- ==== Proof.Algebra.lean ====
/-
  The tiled accumulation computes the one-piece softmax formula.

  Every entry is a coerced real, so the whole computation lives in the reals. After key tiles 0..n the running
  state holds, for the running maximum M: the denominator (sum over the keys seen so far of exp (score - M)) plus
  the global and essential exponentials, and the weighted sum with the same weights. A tile that moves the maximum
  from M to M' multiplies the old state by exp (M - M'), and exp (M - M') * exp (x - M) = exp (x - M'): the
  invariant holds for every maximum the run happens to carry, with no order condition. After the last tile the keys
  seen are all of them, the carried maximum is the row's joint maximum, the denominator is a positive real, and
  dividing the weighted sum once is dividing each weight.
-/
import proofs.«419049_j49134425866853_3_alg».proof.Proof.Spec
import proofs.«419049_j49134425866853_3_alg».proof.Proof.LibBlockSum
import Idealize.ShloMosaic.PureOps.Ideal
import Mathlib.Data.EReal.Operations
import Mathlib.Data.Finset.Fold
import Mathlib.Analysis.Complex.Exponential
import Mathlib.Algebra.BigOperators.Ring.Finset
import Mathlib.Algebra.BigOperators.Fin
import Mathlib.Algebra.Order.BigOperators.Group.Finset
import Mathlib.Tactic.Ring

noncomputable section

open scoped BigOperators

namespace Cert.Spec

open Idealize.ShloMosaic

/-! ### Coerced reals: sums, maxima, folds of maxima -/

/-- The coercion of a finite sum of reals is the sum of the coercions. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The coercion is monotone, so it commutes with the maximum. -/
theorem coe_max (x y : ℝ) : ((max x y : ℝ) : EReal) = max (x : EReal) (y : EReal) :=
  EReal.coe_strictMono.monotone.map_max

/-- The fold of max from -∞ over a non-empty family of coerced reals is a coerced real. -/
theorem fold_max_coe {ι : Type*} (s : Finset ι) (hs : s.Nonempty) (f : ι → ℝ) :
    ∃ t : ℝ, s.fold max ⊥ (fun i => (f i : EReal)) = (t : EReal) := by
  induction hs using Finset.Nonempty.cons_induction with
  | singleton a => exact ⟨f a, by rw [Finset.fold_singleton, max_eq_left bot_le]⟩
  | cons a s ha hs ih =>
    obtain ⟨t, ht⟩ := ih
    exact ⟨max (f a) t, by rw [Finset.fold_cons, ht, coe_max]⟩

/-- Rescaling: the factor that moves the reference point from M to M'. -/
theorem exp_shift (M M' x : ℝ) : Real.exp (M - M') * Real.exp (x - M) = Real.exp (x - M') := by
  rw [← Real.exp_add]; congr 1; ring

/-! ### The running maximum is the row's joint maximum -/

section Maxima

variable (A : Ops) (R : Fin 8192)

theorem score_pos_le_tileMax (kv : Fin 8) (b : Fin 1024) : score A R (pos kv b) ≤ tileMax A R kv :=
  (Finset.le_fold_max _).2 (Or.inr ⟨b, Finset.mem_univ _, le_rfl⟩)

theorem tileMax_le_rowMax (kv : Fin 8) : tileMax A R kv ≤ rowMax A R := by
  refine le_trans ?_ (le_max_left _ _)
  refine (Finset.fold_max_le _).2 ⟨bot_le, fun b _ => ?_⟩
  exact (Finset.le_fold_max _).2 (Or.inr ⟨pos kv b, Finset.mem_univ _, le_rfl⟩)

theorem run_zero : run A R 0 = step A R (init A R) (kvOf 0) := rfl

theorem run_succ (n : ℕ) : run A R (n + 1) = step A R (run A R n) (kvOf (n + 1)) := rfl

theorem step_m (st : St) (kv : Fin 8) : (step A R st kv).m = max st.m (tileMax A R kv) := rfl

theorem init_m : (init A R).m = max (A.gs R) (A.es R) := rfl

theorem run_m_le (n : ℕ) : (run A R n).m ≤ rowMax A R := by
  induction n with
  | zero =>
    rw [run_zero, step_m, init_m]
    exact max_le (le_max_right _ _) (tileMax_le_rowMax A R _)
  | succ n ih =>
    rw [run_succ, step_m]
    exact max_le ih (tileMax_le_rowMax A R _)

theorem base_le_run_m (n : ℕ) : max (A.gs R) (A.es R) ≤ (run A R n).m := by
  induction n with
  | zero =>
    rw [run_zero, step_m, init_m]
    exact le_max_left _ _
  | succ n ih =>
    rw [run_succ, step_m]
    exact le_trans ih (le_max_left _ _)

theorem tileMax_le_run_m (n i : ℕ) (hi : i ≤ n) : tileMax A R (kvOf i) ≤ (run A R n).m := by
  induction n with
  | zero =>
    obtain rfl : i = 0 := by omega
    rw [run_zero, step_m]
    exact le_max_right _ _
  | succ n ih =>
    rw [run_succ, step_m]
    rcases Nat.lt_or_ge i (n + 1) with h | h
    · exact le_trans (ih (by omega)) (le_max_left _ _)
    · obtain rfl : i = n + 1 := by omega
      exact le_max_right _ _

/-- After the eighth tile the carried maximum is the joint maximum of the row. -/
theorem rowMax_eq_run_m : rowMax A R = (run A R 7).m := by
  apply le_antisymm
  · refine max_le ((Finset.fold_max_le _).2 ⟨bot_le, fun j _ => ?_⟩) (base_le_run_m A R 7)
    have hj := j.isLt
    obtain ⟨i, b, hi, rfl⟩ : ∃ (i : ℕ) (b : Fin 1024), i ≤ 7 ∧ j = pos (kvOf i) b :=
      ⟨j.val / 1024, ⟨j.val % 1024, Nat.mod_lt _ (by norm_num)⟩, by omega,
        Fin.ext (by simp only [pos, kvOf]; omega)⟩
    exact (score_pos_le_tileMax A R _ _).trans (tileMax_le_run_m A R 7 i hi)
  · exact run_m_le A R 7

/-- The eight tiles of 1024 keys are all 8192 keys. -/
theorem sum_tiles {α : Type*} [AddCommMonoid α] (F : Fin 8192 → α) :
    ∑ i ∈ Finset.range 8, ∑ b : Fin 1024, F (pos (kvOf i) b) = ∑ j, F j := by
  rw [Finset.sum_range (fun i => ∑ b : Fin 1024, F (pos (kvOf i) b)),
    ← Cert.Lib.sum_blocks (n := 8192) (H := 8) (B := 1024) rfl F]
  refine Finset.sum_congr rfl fun k _ => Finset.sum_congr rfl fun b _ => congrArg F (Fin.ext ?_)
  have hk := k.isLt
  simp only [pos, kvOf]
  omega

end Maxima

/-! ### The real numbers behind one row -/

/-- Real witnesses for everything row R's softmax reads. -/
structure Reals (A : Ops) (R : Fin 8192) where
  s : Fin 8192 → ℝ
  g : ℝ
  e : ℝ
  v : Fin 8192 → Fin 512 → ℝ
  gv : Fin 512 → ℝ
  ev : Fin 512 → ℝ
  hs : ∀ j, score A R j = (s j : EReal)
  hg : A.gs R = (g : EReal)
  he : A.es R = (e : EReal)
  hv : ∀ j d, A.v j d = (v j d : EReal)
  hgv : ∀ d, A.gv d = (gv d : EReal)
  hev : ∀ d, A.ev R d = (ev d : EReal)

theorem exists_reals (A : Ops) (h : A.Finite) (R : Fin 8192) : Nonempty (Reals A R) := by
  obtain ⟨hq, hk, hv, hgs, hes, hev, hgv, ⟨sc, hsc⟩, ⟨fl, hfl⟩⟩ := h
  choose qf hq using hq
  choose kf hk using hk
  choose vf hv using hv
  choose gf hgs using hgs
  choose ef hes using hes
  choose evf hev using hev
  choose gvf hgv using hgv
  refine ⟨⟨fun j => if A.adj R j then (∑ d, qf R d * kf j d) * sc else fl, gf R, ef R, vf, gvf, evf R,
    ?_, hgs R, hes R, hv, hgv, hev R⟩⟩
  intro j
  unfold score
  split_ifs with hadj
  · simp only [hq, hk, hsc, ← EReal.coe_mul, ← coe_sum]
  · exact hfl

namespace Reals

variable {A : Ops} {R : Fin 8192} (W : Reals A R)

/-- The denominator over the keys of the tiles numbered in K, relative to the reference point M. -/
def den (K : Finset ℕ) (M : ℝ) : ℝ :=
  (∑ i ∈ K, ∑ b : Fin 1024, Real.exp (W.s (pos (kvOf i) b) - M)) + Real.exp (W.g - M) + Real.exp (W.e - M)

/-- The weighted sum of column d over the keys of the tiles numbered in K, relative to M. -/
def num (K : Finset ℕ) (M : ℝ) (d : Fin 512) : ℝ :=
  (∑ i ∈ K, ∑ b : Fin 1024, Real.exp (W.s (pos (kvOf i) b) - M) * W.v (pos (kvOf i) b) d)
    + Real.exp (W.g - M) * W.gv d + Real.exp (W.e - M) * W.ev d

/-- The full denominator relative to M. -/
def denAll (M : ℝ) : ℝ :=
  (∑ j : Fin 8192, Real.exp (W.s j - M)) + Real.exp (W.g - M) + Real.exp (W.e - M)

/-- The full weighted sum of column d relative to M. -/
def numAll (M : ℝ) (d : Fin 512) : ℝ :=
  (∑ j : Fin 8192, Real.exp (W.s j - M) * W.v j d) + Real.exp (W.g - M) * W.gv d + Real.exp (W.e - M) * W.ev d

theorem den_step (n : ℕ) (M M' : ℝ) :
    Real.exp (M - M') * W.den (Finset.range n) M + ∑ b : Fin 1024, Real.exp (W.s (pos (kvOf n) b) - M')
      = W.den (Finset.range (n + 1)) M' := by
  simp only [den, Finset.sum_range_succ, mul_add, Finset.mul_sum, exp_shift]
  ring

theorem num_step (n : ℕ) (M M' : ℝ) (d : Fin 512) :
    Real.exp (M - M') * W.num (Finset.range n) M d
        + ∑ b : Fin 1024, Real.exp (W.s (pos (kvOf n) b) - M') * W.v (pos (kvOf n) b) d
      = W.num (Finset.range (n + 1)) M' d := by
  simp only [num, Finset.sum_range_succ, mul_add, Finset.mul_sum, ← mul_assoc, exp_shift]
  ring

theorem den_range_eight (M : ℝ) : W.den (Finset.range 8) M = W.denAll M :=
  congrArg (fun x => x + Real.exp (W.g - M) + Real.exp (W.e - M))
    (sum_tiles (fun j => Real.exp (W.s j - M)))

theorem num_range_eight (M : ℝ) (d : Fin 512) : W.num (Finset.range 8) M d = W.numAll M d :=
  congrArg (fun x => x + Real.exp (W.g - M) * W.gv d + Real.exp (W.e - M) * W.ev d)
    (sum_tiles (fun j => Real.exp (W.s j - M) * W.v j d))

theorem denAll_pos (M : ℝ) : 0 < W.denAll M :=
  add_pos_of_nonneg_of_pos
    (add_nonneg (Finset.sum_nonneg fun _ _ => (Real.exp_pos _).le) (Real.exp_pos _).le) (Real.exp_pos _)

theorem tileMax_real (W : Reals A R) (kv : Fin 8) : ∃ t : ℝ, tileMax A R kv = (t : EReal) := by
  unfold tileMax
  simp only [W.hs]
  exact fold_max_coe _ Finset.univ_nonempty _

/-- What the running state holds once the tiles numbered in K are folded in. -/
def Inv (st : St) (K : Finset ℕ) : Prop :=
  ∃ M : ℝ, st.m = (M : EReal) ∧ st.l = ((W.den K M : ℝ) : EReal)
    ∧ ∀ d, st.a d = ((W.num K M d : ℝ) : EReal)

theorem inv_init : W.Inv (init A R) (Finset.range 0) := by
  refine ⟨max W.g W.e, ?_, ?_, fun d => ?_⟩
  · simp only [init, W.hg, W.he, coe_max]
  · simp only [init, den, W.hg, W.he, Finset.range_zero, Finset.sum_empty, zero_add, ← coe_max,
      ← EReal.coe_sub, Ideal.exp_coe, ← EReal.coe_add]
  · simp only [init, num, W.hg, W.he, W.hgv, W.hev, Finset.range_zero, Finset.sum_empty, zero_add, ← coe_max,
      ← EReal.coe_sub, Ideal.exp_coe, ← EReal.coe_mul, ← EReal.coe_add]

theorem inv_step (st : St) (n : ℕ) (hst : W.Inv st (Finset.range n)) :
    W.Inv (step A R st (kvOf n)) (Finset.range (n + 1)) := by
  obtain ⟨M, hm, hl, ha⟩ := hst
  obtain ⟨t, ht⟩ := W.tileMax_real (kvOf n)
  refine ⟨max M t, ?_, ?_, fun d => ?_⟩
  · simp only [step, hm, ht, coe_max]
  · rw [← W.den_step n M (max M t)]
    simp only [step, hm, hl, ht, W.hs, ← coe_max, ← EReal.coe_sub, Ideal.exp_coe, ← EReal.coe_mul,
      ← coe_sum, ← EReal.coe_add]
  · rw [← W.num_step n M (max M t) d]
    simp only [step, hm, ha, ht, W.hs, W.hv, ← coe_max, ← EReal.coe_sub, Ideal.exp_coe, ← EReal.coe_mul,
      ← coe_sum, ← EReal.coe_add]

theorem inv_run (n : ℕ) : W.Inv (run A R n) (Finset.range (n + 1)) := by
  induction n with
  | zero => exact W.inv_step _ 0 W.inv_init
  | succ n ih => exact W.inv_step _ (n + 1) ih

end Reals

/-- The tiled accumulation equals the one-piece formula. -/
theorem out_eq_refOut (A : Ops) (h : A.Finite) (R : Fin 8192) (d : Fin 512) : out A R d = refOut A R d := by
  obtain ⟨W⟩ := exists_reals A h R
  obtain ⟨M, hm, hl, ha⟩ := W.inv_run 7
  have hrow : rowMax A R = (M : EReal) := (rowMax_eq_run_m A R).trans hm
  have hpos : W.denAll M ≠ 0 := (W.denAll_pos M).ne'
  have hden : denom A R = ((W.denAll M : ℝ) : EReal) := by
    simp only [denom, Reals.denAll, hrow, W.hs, W.hg, W.he, ← EReal.coe_sub, Ideal.exp_coe, ← coe_sum,
      ← EReal.coe_add]
  unfold out refOut
  congr 1
  rw [ha d, hl, W.den_range_eight, W.num_range_eight, Ideal.div_coe hpos]
  simp only [hden, hrow, W.hs, W.hg, W.he, W.hv, W.hgv, W.hev, ← EReal.coe_sub, Ideal.exp_coe,
    Ideal.div_coe hpos, ← EReal.coe_mul, ← coe_sum, ← EReal.coe_add]
  refine congrArg Real.toEReal ?_
  rw [Reals.numAll, add_mul, add_mul, Finset.sum_mul]
  congr 1
  congr 1
  · exact Finset.sum_congr rfl fun j _ => by ring
  · ring
  · ring

end Cert.Spec

end
-- ==== Proof.RefValue.lean ====
/-
  The reference's result, read element by element: it is the one-piece softmax formula of the attention core's arrays
  of the arguments.
-/
import proofs.«419049_j49134425866853_3_alg».proof.Proof.Gen.ReferenceIdeal.Read
import proofs.«419049_j49134425866853_3_alg».proof.Proof.SpecArrays
import proofs.«419049_j49134425866853_3_alg».proof.Proof.LibPlainDot
import Idealize.ShloMosaic.Lib.ValueIdx
import Idealize.ShloMosaic.Lib.ValueLayout
import Idealize.ShloMosaic.PureOps.Ideal.Laws

noncomputable section

open scoped BigOperators

namespace Cert.ReferenceIdeal.RefVal

open Cert.ReferenceIdeal Cert.ReferenceIdeal.Gen
open Idealize.ShloMosaic Idealize.ShloMosaic.TcCoe Idealize.ShloMosaic.ValueIdx Idealize.SL.Sem

open Cert.ReferenceIdeal.Read

section Stages

variable (x0 : (⟨S8192x8192, .i1⟩ : BufTy).Contents (Elt Ideal))
  (x1 x2 : (⟨S8192x512, .f32⟩ : BufTy).Contents (Elt Ideal))
  (x3 x4 x5 : (⟨S512x512, .f32⟩ : BufTy).Contents (Elt Ideal)) (x6 : (⟨S512, .f32⟩ : BufTy).Contents (Elt Ideal))
  (x7 x8 x9 : (⟨S512x512, .f32⟩ : BufTy).Contents (Elt Ideal)) (x10 : (⟨S512, .f32⟩ : BufTy).Contents (Elt Ideal))
  (x11 : (⟨S512x1, .f32⟩ : BufTy).Contents (Elt Ideal)) (x12 : (⟨S512x512, .f32⟩ : BufTy).Contents (Elt Ideal))
  (x13 : (⟨S512, .f32⟩ : BufTy).Contents (Elt Ideal))

local notation "AA" => Cert.Spec.Args.ofArrays x0 x1 x2 x3 x4 x5 x6 x7 x8 x9 x10 x11 x12 x13

/-- Two rank-2 indices with the same coordinates are equal. -/
private theorem idx2_ext {n0 n1 : Nat} {i j : (⟨2, ![n0, n1]⟩ : Shape).Idx} (h0 : i 0 = j 0) (h1 : i 1 = j 1) : i = j :=
  funext fun a => by match a with | ⟨0, _⟩ => exact h0 | ⟨1, _⟩ => exact h1

/-- Two rank-1 indices with the same coordinate are equal. -/
private theorem idx1_ext {n0 : Nat} {i j : (⟨1, ![n0]⟩ : Shape).Idx} (h0 : i 0 = j 0) : i = j :=
  funext fun a => by match a with | ⟨0, _⟩ => exact h0

/-- A sum of products, factor by factor. -/
private theorem dot_congr {K : Nat} {f g f' g' : Fin K → EReal} (hf : ∀ k, f k = f' k) (hg : ∀ k, g k = g' k) :
    ∑ k, f k * g k = ∑ k, f' k * g' k :=
  Finset.sum_congr rfl fun k _ => by rw [hf k, hg k]

/-- The local queries: the masked input times `Wlq`. -/
theorem v4_at (R : Fin 8192) (d : Fin 512) :
    val_main_v4 (F := Ideal) x2 x3 (ix2 R d) = (AA).ops.q R d := by
  rw [val_main_v4_apply]
  show _ = ∑ k : Fin 512, x2 (ix2 R k) * x3 (ix2 k d)
  exact dot_congr (fun k => congrArg x2 (idx2_ext rfl rfl)) (fun k => congrArg x3 (idx2_ext rfl rfl))

/-- The local keys: `x` times `Wlk`. -/
theorem v5_at (j : Fin 8192) (d : Fin 512) :
    val_main_v5 (F := Ideal) x1 x4 (ix2 j d) = (AA).ops.k j d := by
  rw [val_main_v5_apply]
  show _ = ∑ k : Fin 512, x1 (ix2 j k) * x4 (ix2 k d)
  exact dot_congr (fun k => congrArg x1 (idx2_ext rfl rfl)) (fun k => congrArg x4 (idx2_ext rfl rfl))

/-- The local values: `x` times `Wlv`, plus the bias. -/
theorem v9_at (j : Fin 8192) (d : Fin 512) :
    val_main_v9 (F := Ideal) x1 x5 x6 (ix2 j d) = (AA).ops.v j d := by
  rw [val_main_v9_apply, val_main_v6_apply, val_main_v8_apply, val_main_v7_apply]
  show _ + _ = (∑ k : Fin 512, x1 (ix2 j k) * x5 (ix2 k d)) + x6 (ix1 d)
  exact congrArg₂ (· + ·)
    (dot_congr (fun k => congrArg x1 (idx2_ext rfl rfl)) (fun k => congrArg x5 (idx2_ext rfl rfl)))
    (congrArg x6 (idx1_ext rfl))

/-- The essential values: the masked input times `Wev`, plus the bias. -/
theorem v19_at (R : Fin 8192) (d : Fin 512) :
    val_main_v19 (F := Ideal) x2 x12 x13 (ix2 R d) = (AA).ops.ev R d := by
  rw [val_main_v19_apply, val_main_v16_apply, val_main_v18_apply, val_main_v17_apply]
  show _ + _ = (∑ k : Fin 512, x2 (ix2 R k) * x12 (ix2 k d)) + x13 (ix1 d)
  exact congrArg₂ (· + ·)
    (dot_congr (fun k => congrArg x2 (idx2_ext rfl rfl)) (fun k => congrArg x12 (idx2_ext rfl rfl)))
    (congrArg x13 (idx1_ext rfl))

/-- The essential score: the masked input against the column `Wes`. -/
theorem v15_at (R : Fin 8192) :
    val_main_v15 (F := Ideal) x2 x11 (ix2 R (0 : Fin 1)) = (AA).ops.es R := by
  rw [val_main_v15_apply]
  show _ = ∑ k : Fin 512, x2 (ix2 R k) * x11 (ix2 k (0 : Fin 1))
  exact dot_congr (fun k => congrArg x2 (idx2_ext rfl rfl)) (fun k => congrArg x11 (idx2_ext rfl rfl))

/-- The mean row of `x`. -/
theorem v3_at (k : Fin 512) :
    val_main_v3 (F := Ideal) x1 (ix2 (0 : Fin 1) k) = (AA).xbar k := by
  rw [val_main_v3_apply, val_main_v1_apply, val_main_v0_apply, val_main_v2_apply, val_main_cst_0_apply,
    val_main_cst_apply, Ideal.hostDivf_def, Ideal.ofBits_def, Ideal.ofBits_def, Ideal.ofBits_zero_f32, zero_add]
  show _ = Ideal.div (∑ r : Fin 8192, x1 (ix2 r k)) Cert.Spec.nRows
  exact congrArg (fun s => Ideal.div s Cert.Spec.nRows)
    (Finset.sum_congr rfl fun r _ => congrArg x1 (idx2_ext rfl rfl))

/-- The global key row: the mean row times `Wgk`. -/
theorem v11_at (d : Fin 512) :
    val_main_v11 (F := Ideal) x1 x8 (ix2 (0 : Fin 1) d) = (AA).gk d := by
  rw [val_main_v11_apply]
  show _ = ∑ k : Fin 512, (AA).xbar k * x8 (ix2 k d)
  refine dot_congr (fun k => ?_) (fun k => congrArg x8 (idx2_ext rfl rfl))
  have e : lidx_main_v11 (ix2 (0 : Fin 1) d) k = ix2 (0 : Fin 1) k := idx2_ext rfl rfl
  rw [e]; exact v3_at x0 x1 x2 x3 x4 x5 x6 x7 x8 x9 x10 x11 x12 x13 k

/-- The global value row: the mean row times `Wgv`, plus the bias. -/
theorem v14_at (d : Fin 512) :
    val_main_v14 (F := Ideal) x1 x9 x10 (ix2 (0 : Fin 1) d) = (AA).ops.gv d := by
  rw [val_main_v14_apply, val_main_v12_apply, val_main_v13_apply]
  show _ + _ = (∑ k : Fin 512, (AA).xbar k * x9 (ix2 k d)) + x10 (ix1 d)
  refine congrArg₂ (· + ·) (dot_congr (fun k => ?_) (fun k => congrArg x9 (idx2_ext rfl rfl))) (congrArg x10 (idx1_ext rfl))
  have e : lidx_main_v12 (ix2 (0 : Fin 1) d) k = ix2 (0 : Fin 1) k := idx2_ext rfl rfl
  rw [e]; exact v3_at x0 x1 x2 x3 x4 x5 x6 x7 x8 x9 x10 x11 x12 x13 k

/-- The global score: the masked input times `Wgq`, against the global key row, scaled. -/
theorem v28_at (R : Fin 8192) :
    val_main_v28 (F := Ideal) x1 x2 x7 x8 (ix2 R (0 : Fin 1)) = (AA).ops.gs R := by
  rw [val_main_v28_apply, val_main_v26_apply, val_main_v27_apply, val_main_cst_3_apply]
  show _ * _ = (∑ d : Fin 512, (∑ k : Fin 512, x2 (ix2 R k) * x7 (ix2 k d)) * (AA).gk d) * Ideal.ofBits .f32 0x3D3504F3#32
  refine congrArg (· * Ideal.ofBits .f32 0x3D3504F3#32) (dot_congr (fun d => ?_) (fun d => ?_))
  · have e : lidx_main_v26 (ix2 R (0 : Fin 1)) d = ix2 R d := idx2_ext rfl rfl
    rw [e, val_main_v10_apply]
    exact dot_congr (fun k => congrArg x2 (idx2_ext rfl rfl)) (fun k => congrArg x7 (idx2_ext rfl rfl))
  · have e : idx_main_v25 (ridx_main_v26 (ix2 R (0 : Fin 1)) d) = ix2 (0 : Fin 1) d := idx2_ext rfl rfl
    rw [val_main_v25_apply, e]; exact v11_at x0 x1 x2 x3 x4 x5 x6 x7 x8 x9 x10 x11 x12 x13 d

/-- The least float is `-∞`. -/
private theorem ofBits_neg_inf : Ideal.ofBits .f32 0xFF800000#32 = (⊥ : EReal) := by simp [Ideal.ofBits, Ideal.ieee]

local notation "V4" => v4_at x0 x1 x2 x3 x4 x5 x6 x7 x8 x9 x10 x11 x12 x13
local notation "V5" => v5_at x0 x1 x2 x3 x4 x5 x6 x7 x8 x9 x10 x11 x12 x13
local notation "V9" => v9_at x0 x1 x2 x3 x4 x5 x6 x7 x8 x9 x10 x11 x12 x13
local notation "V19" => v19_at x0 x1 x2 x3 x4 x5 x6 x7 x8 x9 x10 x11 x12 x13
local notation "V15" => v15_at x0 x1 x2 x3 x4 x5 x6 x7 x8 x9 x10 x11 x12 x13
local notation "V14" => v14_at x0 x1 x2 x3 x4 x5 x6 x7 x8 x9 x10 x11 x12 x13
local notation "V28" => v28_at x0 x1 x2 x3 x4 x5 x6 x7 x8 x9 x10 x11 x12 x13

/-- The masked score matrix: the scaled product of a query row and a key row where the mask has an edge, the fill
    elsewhere. -/
theorem v24_at (R j : Fin 8192) :
    val_main_v24 (F := Ideal) x0 x1 x2 x3 x4 (ix2 R j) = Cert.Spec.score (AA).ops R j := by
  rw [val_main_v24_apply, val_main_v23_apply, val_main_v21_apply, val_main_v22_apply, val_main_cst_1_apply,
    val_main_call0_v0_apply, val_main_cst_2_apply]
  show (if x0 (ix2 R j) = 1 then _ else _)
    = if decide (x0 (ix2 R j) = 1#1) = true
        then (∑ d : Fin 512, (AA).ops.q R d * (AA).ops.k j d) * Ideal.ofBits .f32 0x3D3504F3#32
        else Ideal.ofBits .f32 0xCE6E6B28#32
  refine if_congr decide_eq_true_iff.symm ?_ rfl
  refine congrArg (· * Ideal.ofBits .f32 0x3D3504F3#32) (dot_congr (fun d => ?_) (fun d => ?_))
  · have e : lidx_main_v21 (ix2 R j) d = ix2 R d := idx2_ext rfl rfl
    rw [e]; exact V4 R d
  · have e : idx_main_v20 (ridx_main_v21 (ix2 R j) d) = ix2 j d := idx2_ext rfl rfl
    rw [val_main_v20_apply, e]; exact V5 j d

local notation "V24" => v24_at x0 x1 x2 x3 x4 x5 x6 x7 x8 x9 x10 x11 x12 x13

/-- Along the second axis of the score matrix, row `R` with the coordinate `k` put back is `(R, k)`. -/
private theorem lift_row (h : S8192x8192.Reduces [1] S8192) (R : Fin 8192) (k : Fin (S8192x8192.size 1)) :
    h.lift (ix1 R) k = ix2 R (⟨k.val, k.isLt⟩ : Fin 8192) :=
  funext fun c => Fin.ext (by match c with | ⟨0, _⟩ => rfl | ⟨1, _⟩ => rfl)

/-- The largest local score of a row: the fold of `max` from `-∞` over the row of the score matrix. -/
theorem v29_at (R : Fin 8192) :
    val_main_v29 (F := Ideal) x0 x1 x2 x3 x4 (ix1 R)
      = (Finset.univ : Finset (Fin 8192)).fold max ⊥ (fun j => Cert.Spec.score (AA).ops R j) := by
  unfold val_main_v29
  rw [Host.reduce_eq_fold_single FloatOps.maximumf _ _ reducesTo_S8192x8192_S8192_d1 (by decide) h_S_,
    val_main_cst_4_apply, Ideal.ofBits_def, ofBits_neg_inf]
  exact congrArg (fun f => Finset.fold max ⊥ f (Finset.univ : Finset (Fin 8192)))
    (funext fun k => (congrArg (val_main_v24 (F := Ideal) x0 x1 x2 x3 x4) (lift_row _ R k)).trans (V24 R _))

local notation "V29" => v29_at x0 x1 x2 x3 x4 x5 x6 x7 x8 x9 x10 x11 x12 x13

/-- The joint maximum of a row. -/
theorem v32_at (R : Fin 8192) :
    val_main_v32 (F := Ideal) x0 x1 x2 x3 x4 x7 x8 x11 (ix2 R (0 : Fin 1)) = Cert.Spec.rowMax (AA).ops R := by
  rw [val_main_v32_apply, val_main_v30_apply, val_main_v31_apply]
  have e : idx_main_v30 (ix2 R (0 : Fin 1)) = ix1 R := idx1_ext rfl
  rw [e, V29 R, V28 R, V15 R]
  rfl

local notation "V32" => v32_at x0 x1 x2 x3 x4 x5 x6 x7 x8 x9 x10 x11 x12 x13

/-- The exponential of a local score's distance to the row's maximum. -/
theorem v35_at (R j : Fin 8192) :
    val_main_v35 (F := Ideal) x0 x1 x2 x3 x4 x7 x8 x11 (ix2 R j)
      = Ideal.exp (Cert.Spec.score (AA).ops R j - Cert.Spec.rowMax (AA).ops R) := by
  rw [val_main_v35_apply, val_main_v34_apply, val_main_v33_apply]
  have e : idx_main_v33 (ix2 R j) = ix2 R (0 : Fin 1) := idx2_ext rfl rfl
  rw [e, V24 R j, V32 R]
  rfl

local notation "V35" => v35_at x0 x1 x2 x3 x4 x5 x6 x7 x8 x9 x10 x11 x12 x13

/-- The exponential of the global score's distance to the row's maximum. -/
theorem v37_at (R : Fin 8192) :
    val_main_v37 (F := Ideal) x0 x1 x2 x3 x4 x7 x8 x11 (ix2 R (0 : Fin 1))
      = Ideal.exp ((AA).ops.gs R - Cert.Spec.rowMax (AA).ops R) := by
  rw [val_main_v37_apply, val_main_v36_apply, V28 R, V32 R]
  rfl

/-- The exponential of the essential score's distance to the row's maximum. -/
theorem v39_at (R : Fin 8192) :
    val_main_v39 (F := Ideal) x0 x1 x2 x3 x4 x7 x8 x11 (ix2 R (0 : Fin 1))
      = Ideal.exp ((AA).ops.es R - Cert.Spec.rowMax (AA).ops R) := by
  rw [val_main_v39_apply, val_main_v38_apply, V15 R, V32 R]
  rfl

local notation "V37" => v37_at x0 x1 x2 x3 x4 x5 x6 x7 x8 x9 x10 x11 x12 x13
local notation "V39" => v39_at x0 x1 x2 x3 x4 x5 x6 x7 x8 x9 x10 x11 x12 x13

/-- The joint softmax's denominator. -/
theorem v43_at (R : Fin 8192) :
    val_main_v43 (F := Ideal) x0 x1 x2 x3 x4 x7 x8 x11 (ix2 R (0 : Fin 1)) = Cert.Spec.denom (AA).ops R := by
  rw [val_main_v43_apply, val_main_v42_apply, val_main_v41_apply, val_main_v40_apply, val_main_cst_5_apply,
    V37 R, V39 R, Ideal.ofBits_def, Ideal.ofBits_zero_f32, zero_add]
  show (_ + _) + _ = ((∑ j : Fin 8192, Ideal.exp (Cert.Spec.score (AA).ops R j - Cert.Spec.rowMax (AA).ops R))
    + Ideal.exp ((AA).ops.gs R - Cert.Spec.rowMax (AA).ops R)) + Ideal.exp ((AA).ops.es R - Cert.Spec.rowMax (AA).ops R)
  refine congrArg₂ (· + ·) (congrArg₂ (· + ·) (Finset.sum_congr rfl fun k _ => ?_) rfl) rfl
  have e : idx_main_v40 (idx_main_v41 (ix2 R (0 : Fin 1))) k = ix2 R k := idx2_ext rfl rfl
  rw [e]; exact V35 R k

local notation "V43" => v43_at x0 x1 x2 x3 x4 x5 x6 x7 x8 x9 x10 x11 x12 x13

/-- The weight of a local key. -/
theorem v45_at (R j : Fin 8192) :
    val_main_v45 (F := Ideal) x0 x1 x2 x3 x4 x7 x8 x11 (ix2 R j)
      = Ideal.div (Ideal.exp (Cert.Spec.score (AA).ops R j - Cert.Spec.rowMax (AA).ops R)) (Cert.Spec.denom (AA).ops R) := by
  rw [val_main_v45_apply, val_main_v44_apply]
  have e : idx_main_v44 (ix2 R j) = ix2 R (0 : Fin 1) := idx2_ext rfl rfl
  rw [e, V35 R j, V43 R]
  rfl

/-- The weight of the global row. -/
theorem v47_at (R : Fin 8192) :
    val_main_v47 (F := Ideal) x0 x1 x2 x3 x4 x7 x8 x11 (ix2 R (0 : Fin 1))
      = Ideal.div (Ideal.exp ((AA).ops.gs R - Cert.Spec.rowMax (AA).ops R)) (Cert.Spec.denom (AA).ops R) := by
  rw [val_main_v47_apply, V37 R, V43 R]
  rfl

/-- The weight of the essential row. -/
theorem v52_at (R : Fin 8192) :
    val_main_v52 (F := Ideal) x0 x1 x2 x3 x4 x7 x8 x11 (ix2 R (0 : Fin 1))
      = Ideal.div (Ideal.exp ((AA).ops.es R - Cert.Spec.rowMax (AA).ops R)) (Cert.Spec.denom (AA).ops R) := by
  rw [val_main_v52_apply, V39 R, V43 R]
  rfl

local notation "V45" => v45_at x0 x1 x2 x3 x4 x5 x6 x7 x8 x9 x10 x11 x12 x13
local notation "V47" => v47_at x0 x1 x2 x3 x4 x5 x6 x7 x8 x9 x10 x11 x12 x13
local notation "V52" => v52_at x0 x1 x2 x3 x4 x5 x6 x7 x8 x9 x10 x11 x12 x13

/-- The reference's last stage at `(R, d)`: the weighted sum of the value rows, joined with the masked input. -/
theorem v56_at (R : Fin 8192) (d : Fin 512) :
    val_main_v56 (F := Ideal) x0 x1 x2 x3 x4 x5 x6 x7 x8 x9 x10 x11 x12 x13 (ix2 R d)
      = Cert.Spec.refOut (AA).ops R d := by
  rw [val_main_v56_apply, val_main_v55_apply, val_main_v51_apply, val_main_v46_apply, val_main_v50_apply,
    val_main_v54_apply, val_main_v48_apply, val_main_v49_apply, val_main_v53_apply]
  have e48 : idx_main_v48 (ix2 R d) = ix2 R (0 : Fin 1) := idx2_ext rfl rfl
  have e49 : idx_main_v49 (ix2 R d) = ix2 (0 : Fin 1) d := idx2_ext rfl rfl
  have e53 : idx_main_v53 (ix2 R d) = ix2 R (0 : Fin 1) := idx2_ext rfl rfl
  rw [e48, e49, e53, V47 R, V14 d, V52 R, V19 R d]
  show max (((∑ k : Fin 8192, _ * _) + _) + _) _
    = max (((∑ j : Fin 8192, Ideal.div (Ideal.exp (Cert.Spec.score (AA).ops R j - Cert.Spec.rowMax (AA).ops R))
                (Cert.Spec.denom (AA).ops R) * (AA).ops.v j d)
            + Ideal.div (Ideal.exp ((AA).ops.gs R - Cert.Spec.rowMax (AA).ops R)) (Cert.Spec.denom (AA).ops R) * (AA).ops.gv d)
          + Ideal.div (Ideal.exp ((AA).ops.es R - Cert.Spec.rowMax (AA).ops R)) (Cert.Spec.denom (AA).ops R) * (AA).ops.ev R d)
        ((AA).ops.mx R d)
  refine congrArg₂ max (congrArg₂ (· + ·) (congrArg₂ (· + ·) (dot_congr (fun k => ?_) (fun k => ?_)) rfl) rfl) rfl
  · have e : lidx_main_v46 (ix2 R d) k = ix2 R k := idx2_ext rfl rfl
    rw [e]; exact V45 R k
  · have e : ridx_main_v46 (ix2 R d) k = ix2 k d := idx2_ext rfl rfl
    rw [e]; exact V9 k d

end Stages

variable (m : (ℓ : Loc nD τ sig) → Buf (Elt Ideal) ℓ)

/-- The reference's arguments on core `c`, read at coordinates. -/
def argsOf (c : Dev nD) : Cert.Spec.Args :=
  Cert.Spec.Args.ofArrays (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13))

/-- The reference's result at row `R`, column `d`. -/
theorem ref_result (c : Dev nD) (R : Fin 8192) (d : Fin 512) :
    (Cert.ReferenceIdeal.Value.res_out0 (F := Ideal) m c : S8192x512.Idx → EReal) (ix2 R d)
      = Cert.Spec.refOut (argsOf m c).ops R d := by
  show (Cert.ReferenceIdeal.Value.res_main_v56 (F := Ideal) m c : S8192x512.Idx → EReal) (ix2 R d) = _
  rw [val_main_v56_eq]
  exact v56_at _ _ _ _ _ _ _ _ _ _ _ _ _ _ R d

end Cert.ReferenceIdeal.RefVal

end
-- ==== Proof.lean ====
/-
  The kernel is an attention layer whose softmax is taken jointly over a row's 8192 masked local scores, one global
  score and one essential score, computed key tile by key tile with a running maximum, a running denominator and a
  running weighted sum; the reference computes the same softmax in one piece. On the extended reals, for finite inputs,
  the two agree: every projection is a real number, `exp (m - m') · exp (x - m) = exp (x - m')`, the positive real
  denominator distributes over the weighted sum, and the kernel's fused products against concatenated weights are the
  separate products column by column.

  The three programs run to their end without a fault and leave their arguments unchanged (the kernel's pipeline by
  its proof data over the 8 × 8 grid, the reference by its run); nothing was rewritten between the kernel and its
  idealized reading; and the two idealized programs end with equal results.
-/
import proofs.«419049_j49134425866853_3_alg».proof.Defs
import proofs.«419049_j49134425866853_3_alg».proof.Proof.Gen.Kernel
import proofs.«419049_j49134425866853_3_alg».proof.Proof.Gen.Kernel.Skeleton
import proofs.«419049_j49134425866853_3_alg».proof.Proof.Gen.Kernel.Launch
import proofs.«419049_j49134425866853_3_alg».proof.Proof.Gen.Kernel.Points
import proofs.«419049_j49134425866853_3_alg».proof.Proof.Gen.KernelIdeal
import proofs.«419049_j49134425866853_3_alg».proof.Proof.Gen.KernelIdeal.Skeleton
import proofs.«419049_j49134425866853_3_alg».proof.Proof.Gen.KernelIdeal.Launch
import proofs.«419049_j49134425866853_3_alg».proof.Proof.Gen.KernelIdeal.Points
import proofs.«419049_j49134425866853_3_alg».proof.Proof.Gen.ReferenceIdeal
import proofs.«419049_j49134425866853_3_alg».proof.Proof.Gen.ReferenceIdeal.Run
import proofs.«419049_j49134425866853_3_alg».proof.Proof.Gen.ReferenceIdeal.Read
import proofs.«419049_j49134425866853_3_alg».proof.Proof.Gen.Pre_finite_inputs
import proofs.«419049_j49134425866853_3_alg».proof.Proof.K.Frame
import proofs.«419049_j49134425866853_3_alg».proof.Proof.KI.Frame
import proofs.«419049_j49134425866853_3_alg».proof.Proof.Final
import proofs.«419049_j49134425866853_3_alg».proof.Proof.HostValue
import proofs.«419049_j49134425866853_3_alg».proof.Proof.Finite
import proofs.«419049_j49134425866853_3_alg».proof.Proof.FiniteOps
import proofs.«419049_j49134425866853_3_alg».proof.Proof.Algebra
import proofs.«419049_j49134425866853_3_alg».proof.Proof.RefValue
import Idealize.ShloMosaic.Adequacy
import Idealize.ShloMosaic.Init

noncomputable section

namespace Cert.Proof

open Idealize.ShloMosaic Idealize.ShloMosaic.ValueIdx Idealize.SL.Sem

/-- The kernel as printed: it runs to its end and its arguments end as launched. -/
theorem frame_k : Cert.frame_Kernel := fun m ρ _ => Cert.Kernel.Fr.frame m ρ

/-- The same for the kernel read on the extended reals. -/
theorem frame_ki : Cert.frame_KernelIdeal := fun m ρ _ => Cert.KernelIdeal.Fr.frame m ρ

/-- The reference is host operations only: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- From memories that agree on the arguments, both programs read the same fourteen arrays. -/
theorem args_agree
    (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (h : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) :
    Cert.ReferenceIdeal.RefVal.argsOf m' c = Cert.KernelIdeal.Val.argsOf m c := by
  obtain ⟨h0, h1, h2, h3, h4, h5, h6, h7, h8, h9, h10, h11, h12, h13⟩ := h
  unfold Cert.ReferenceIdeal.RefVal.argsOf Cert.KernelIdeal.Val.argsOf
  rw [h0, h1, h2, h3, h4, h5, h6, h7, h8, h9, h10, h11, h12, h13]

/-- The two idealized programs end with equal results: the kernel's result array is the tiled softmax of the
    pipeline's inputs, those inputs are the projections of the arguments, for finite arguments the tiled softmax is the
    one-piece softmax, and that is what the reference computes. -/
theorem algebraic : Cert.algebraic_KernelIdeal_ReferenceIdeal := by
  intro m ρ m' ρ' hpre hagree
  refine ⟨fun c => Cert.KernelIdeal.Val.Gout m c, Cert.KernelIdeal.Val.run_val m ρ, ?_⟩
  refine (θ_run Cert.ReferenceIdeal.defs _ _).mono (fun _ h c => ⟨(h c).1.trans ?_, (h c).2⟩)
    (Cert.ReferenceIdeal.Value.run (F := Ideal) m' ρ')
  funext i
  obtain ⟨R, d, rfl⟩ : ∃ (R : Fin 8192) (d : Fin 512), i = ix2 R d := ⟨i 0, i 1, eq_ix2 (n0 := 8192) (n1 := 512) i⟩
  have hfin : (Cert.KernelIdeal.Val.argsOf m c).ops.Finite :=
    Cert.Spec.Args.Finite.ops (Cert.KernelIdeal.Val.args_finite m hpre c)
  have hk : Cert.KernelIdeal.Val.Gout m c (ix2 R d) = Cert.Spec.refOut (Cert.KernelIdeal.Val.argsOf m c).ops R d := by
    show Cert.Spec.out (Cert.KernelIdeal.Val.winOps m c) R d = _
    rw [Cert.KernelIdeal.Val.winOps_eq, Cert.Spec.out_eq_refOut _ hfin]
  show Cert.ReferenceIdeal.Value.res_main_v56 m' c (ix2 R d) = Cert.KernelIdeal.Val.Gout m c (ix2 R d)
  rw [hk, ← args_agree m m' c (hagree c)]
  exact Cert.ReferenceIdeal.RefVal.ref_result m' c R d

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
